-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x512 : Shape := ⟨2, ![8192, 512]⟩
abbrev S8192x1 : Shape := ⟨2, ![8192, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg4 : FVec F S8192x1 .f32) (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  let main_v19 : FVec F S8192x1 .f32 := Host.absf main_arg4
  let main_cst_6 : FVec F S_ .f32 := constant S_ .f32 0x7F800000#32
  let main_v20 : FVec F S8192x1 .f32 := broadcastInDim S8192x1 ![] bcast_S_S8192x1 main_cst_6
  let main_v21 : IVec S8192x1 1 := cmpf .olt main_v19 main_v20
  let main_c_7 : IVec S_ 1 := constantI S_ 1 1#1
  let main_v22 : IVec S_ 1 := (fun x v => Host.reduce IntOp.andi x v reducesTo_S8192x1_S_d0_1 h_S_) main_v21 main_c_7
  let main_v23 : IVec S_ 1 := andi main_v18 main_v22
  main_v23

def fn {F : FTy → Type} [FloatOps F] (main_arg0 : FVec F S8192x4096 .f32) (main_arg1 : FVec F S8192x4096 .f32) (main_arg2 : FVec F S8192x512 .f32) (main_arg3 : FVec F S8192x512 .f32) (main_arg4 : FVec F S8192x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_arg4 main_v13 main_v16
-- ==== Kernel.lean ====
abbrev S8192x4096 : Shape := ⟨2, ![8192, 4096]⟩
abbrev S8192x512 : Shape := ⟨2, ![8192, 512]⟩
abbrev S8192x1 : Shape := ⟨2, ![8192, 1]⟩
abbrev S1x4096 : Shape := ⟨2, ![1, 4096]⟩
abbrev S512x1024 : Shape := ⟨2, ![512, 1024]⟩
abbrev S512x1 : Shape := ⟨2, ![512, 1]⟩
abbrev S1x1024 : Shape := ⟨2, ![1, 1024]⟩
abbrev S1024 : Shape := ⟨1, ![1024]⟩
abbrev S_ : Shape := ⟨0, ![]⟩
abbrev S1x1 : Shape := ⟨2, ![1, 1]⟩
abbrev S1024x512 : Shape := ⟨2, ![1024, 512]⟩
abbrev S1024x1 : Shape := ⟨2, ![1024, 1]⟩
abbrev S1 : Shape := ⟨1, ![1]⟩

abbrev nBuf : Space → Nat
  | .hbm => 60
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x512, .f32⟩
  | .hbm, ⟨3, _⟩ => ⟨S8192x512, .f32⟩
  | .hbm, ⟨4, _⟩ => ⟨S8192x1, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S_, .f32⟩
  | .hbm, ⟨14, _⟩ => ⟨S1x4096, .f32⟩
  | .hbm, ⟨15, _⟩ => ⟨S1x4096, .f32⟩
  | .hbm, ⟨16, _⟩ => ⟨S_, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S_, .f32⟩
  | .hbm, ⟨22, _⟩ => ⟨S1x4096, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .i1⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x1, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_11 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x1024_S1x1024_0_0 : ∀ a, (![0, 0] : Fin 2 → Nat) a + S1x1024.size a ≤ S1x1024.size a
  h_S1x1024 : 0 < S1x1024.numel
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  broadcasts_S512x1_S512x1024 : S512x1.Broadcasts S512x1024
  shapeCasts_S1x1024_S1x1024 : S1x1024.ShapeCasts S1x1024
  reduces_S512x1024_S1024 : S512x1024.Reduces [0] S1024
  shapeCasts_S1024_S1x1024 : S1024.ShapeCasts S1x1024
  bcast_S_S1x4096 : S_.BroadcastsInDim S1x4096 (![] : Fin 0 → Fin S1x4096.rank)
  reducesTo_S1x4096_S_d0_1 : S1x4096.ReducesTo [0, 1] S_
  h_S_ : 0 < S_.numel
  inb_S1x1_S1x1_0_0 : ∀ a, (![0, 0] : Fin 2 → Nat) a + S1x1.size a ≤ S1x1.size a
  h_S1x1 : 0 < S1x1.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  shapeCasts_S1x1_S1x1 : S1x1.ShapeCasts S1x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x4096.size a
  hwx0_1 : ∀ i : grid0.Coords, EltTy.bits .f32 = 32 ∨ (Rect.block (s := S8192x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x4096.size a
  hwx0_7 : ∀ i : grid0.Coords, EltTy.bits .f32 = 32 ∨ (Rect.block (s := S1x4096) S1x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S8192x512 : Shape := ⟨2, ![8192, 512]⟩
abbrev S8192x1 : Shape := ⟨2, ![8192, 1]⟩
abbrev S_ : Shape := ⟨0, ![]⟩
abbrev S8192 : Shape := ⟨1, ![8192]⟩
abbrev S4096x8192 : Shape := ⟨2, ![4096, 8192]⟩
abbrev S4096 : Shape := ⟨1, ![4096]⟩
abbrev S4096x1 : Shape := ⟨2, ![4096, 1]⟩

abbrev nBuf : Space → Nat
  | .hbm => 129
  | .vmem => 0
  | .smem => 0
  | _ => 0

abbrev hbmTy0_0 (i : Nat) : BufTy := match i % 128 with
  | 0 => ⟨S8192x4096, .f32⟩
  | 1 => ⟨S8192x4096, .f32⟩
  | 2 => ⟨S8192x512, .f32⟩
  | 3 => ⟨S8192x512, .f32⟩
  | 4 => ⟨S8192x1, .f32⟩
  | 5 => ⟨S8192x4096, .f32⟩
  | 6 => ⟨S8192x4096, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x512, .f32⟩
  | 20 => ⟨S8192x512, .f32⟩
  | 21 => ⟨S8192x512, .f32⟩
  | 22 => ⟨S8192x512, .f32⟩
  | 23 => ⟨S8192x512, .f32⟩
  | 24 => ⟨S_, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192x512, .f32⟩
  | 31 => ⟨S_, .f32⟩
  | 32 => ⟨S8192, .f32⟩
  | 33 => ⟨S_, .f32⟩
  | 34 => ⟨S8192, .f32⟩
  | 35 => ⟨S8192, .f32⟩
  | 36 => ⟨S8192, .f32⟩
  | 37 => ⟨S8192x512, .f32⟩
  | 38 => ⟨S_, .f32⟩
  | 39 => ⟨S8192, .f32⟩
  | 40 => ⟨S_, .f32⟩
  | 41 => ⟨S8192, .f32⟩
  | 42 => ⟨S8192, .f32⟩
  | 43 => ⟨S8192, .f32⟩
  | 44 => ⟨S8192, .f32⟩
  | 45 => ⟨S8192, .i1⟩
  | 46 => ⟨S_, .f32⟩
  | 47 => ⟨S8192, .f32⟩
  | 48 => ⟨S8192, .f32⟩
  | 49 => ⟨S8192, .i1⟩
  | 50 => ⟨S8192, .i1⟩
  | 51 => ⟨S8192, .i32⟩
  | 52 => ⟨S8192, .f32⟩
  | 53 => ⟨S_, .f32⟩
  | 54 => ⟨S_, .f32⟩
  | 55 => ⟨S8192, .i1⟩
  | 56 => ⟨S_, .f32⟩
  | 57 => ⟨S8192, .f32⟩
  | 58 => ⟨S8192, .f32⟩
  | 59 => ⟨S_, .f32⟩
  | 60 => ⟨S_, .f32⟩
  | 61 => ⟨S_, .f32⟩
  | 62 => ⟨S_, .f32⟩
  | 63 => ⟨S_, .f32⟩
  | 64 => ⟨S4096x8192, .f32⟩
  | 65 => ⟨S4096x8192, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S4096x8192, .f32⟩
  | 79 => ⟨S4096x8192, .f32⟩
  | 80 => ⟨S4096x8192, .f32⟩
  | 81 => ⟨S4096x8192, .f32⟩
  | 82 => ⟨S4096x8192, .f32⟩
  | 83 => ⟨S_, .f32⟩
  | 84 => ⟨S4096, .f32⟩
  | 85 => ⟨S_, .f32⟩
  | 86 => ⟨S4096, .f32⟩
  | 87 => ⟨S4096, .f32⟩
  | 88 => ⟨S4096, .f32⟩
  | 89 => ⟨S4096x8192, .f32⟩
  | 90 => ⟨S_, .f32⟩
  | 91 => ⟨S4096, .f32⟩
  | 92 => ⟨S_, .f32⟩
  | 93 => ⟨S4096, .f32⟩
  | 94 => ⟨S4096, .f32⟩
  | 95 => ⟨S4096, .f32⟩
  | 96 => ⟨S4096x8192, .f32⟩
  | 97 => ⟨S_, .f32⟩
  | 98 => ⟨S4096, .f32⟩
  | 99 => ⟨S_, .f32⟩
  | 100 => ⟨S4096, .f32⟩
  | 101 => ⟨S4096, .f32⟩
  | 102 => ⟨S4096, .f32⟩
  | 103 => ⟨S4096, .f32⟩
  | 104 => ⟨S4096, .i1⟩
  | 105 => ⟨S_, .f32⟩
  | 106 => ⟨S4096, .f32⟩
  | 107 => ⟨S4096, .f32⟩
  | 108 => ⟨S4096, .i1⟩
  | 109 => ⟨S4096, .i1⟩
  | 110 => ⟨S4096, .i32⟩
  | 111 => ⟨S4096, .f32⟩
  | 112 => ⟨S_, .f32⟩
  | 113 => ⟨S_, .f32⟩
  | 114 => ⟨S4096, .i1⟩
  | 115 => ⟨S_, .f32⟩
  | 116 => ⟨S4096, .f32⟩
  | 117 => ⟨S4096, .f32⟩
  | 118 => ⟨S_, .f32⟩
  | 119 => ⟨S_, .f32⟩
  | 120 => ⟨S_, .f32⟩
  | 121 => ⟨S_, .f32⟩
  | 122 => ⟨S_, .f32⟩
  | 123 => ⟨S8192x4096, .f32⟩
  | 124 => ⟨S8192x4096, .f32⟩
  | 125 => ⟨S_, .f32⟩
  | 126 => ⟨S_, .f32⟩
  | 127 => ⟨S_, .f32⟩
  | _ => ⟨S8192x4096, .f32⟩

abbrev hbmTy0_1 (i : Nat) : BufTy := match i % 128 with
  | 0 => ⟨S_, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_cst : Ref sig .tc := ⟨.hbm, 53, rfl⟩
abbrev main_call1_v4 : Ref sig .tc := ⟨.hbm, 54, rfl⟩
abbrev main_call1_call0_v0 : Ref sig .tc := ⟨.hbm, 55, rfl⟩
abbrev main_call1_call0_cst : Ref sig .tc := ⟨.hbm, 56, rfl⟩
abbrev main_call1_call0_call0_v0 : Ref sig .tc := ⟨.hbm, 57, rfl⟩
abbrev main_call1_call0_v1 : Ref sig .tc := ⟨.hbm, 58, rfl⟩
abbrev main_call1_call0_cst_0 : Ref sig .tc := ⟨.hbm, 59, rfl⟩
abbrev main_call1_v5 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_11 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_cst_13 : Ref sig .tc := ⟨.hbm, 72, rfl⟩
abbrev main_v41 : Ref sig .tc := ⟨.hbm, 73, rfl⟩
abbrev main_v42 : Ref sig .tc := ⟨.hbm, 74, rfl⟩
abbrev main_cst_14 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_15 : Ref sig .tc := ⟨.hbm, 83, rfl⟩
abbrev main_v50 : Ref sig .tc := ⟨.hbm, 84, rfl⟩
abbrev main_cst_16 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_17 : Ref sig .tc := ⟨.hbm, 90, rfl⟩
abbrev main_v55 : Ref sig .tc := ⟨.hbm, 91, rfl⟩
abbrev main_cst_18 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_19 : Ref sig .tc := ⟨.hbm, 97, rfl⟩
abbrev main_v60 : Ref sig .tc := ⟨.hbm, 98, rfl⟩
abbrev main_cst_20 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_21 : Ref sig .tc := ⟨.hbm, 105, rfl⟩
abbrev main_v66 : Ref sig .tc := ⟨.hbm, 106, rfl⟩
abbrev main_v67 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_cst : Ref sig .tc := ⟨.hbm, 112, rfl⟩
abbrev main_call3_v4 : Ref sig .tc := ⟨.hbm, 113, rfl⟩
abbrev main_call3_call0_v0 : Ref sig .tc := ⟨.hbm, 114, rfl⟩
abbrev main_call3_call0_cst : Ref sig .tc := ⟨.hbm, 115, rfl⟩
abbrev main_call3_call0_call0_v0 : Ref sig .tc := ⟨.hbm, 116, rfl⟩
abbrev main_call3_call0_v1 : Ref sig .tc := ⟨.hbm, 117, rfl⟩
abbrev main_call3_call0_cst_0 : Ref sig .tc := ⟨.hbm, 118, rfl⟩
abbrev main_call3_v5 : Ref sig .tc := ⟨.hbm, 119, rfl⟩
abbrev main_v68 : Ref sig .tc := ⟨.hbm, 120, rfl⟩
abbrev main_cst_22 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_23 : Ref sig .tc := ⟨.hbm, 125, rfl⟩
abbrev main_v72 : Ref sig .tc := ⟨.hbm, 126, rfl⟩
abbrev main_cst_24 : Ref sig .tc := ⟨.hbm, 127, rfl⟩
abbrev main_v73 : Ref sig .tc := ⟨.hbm, 128, rfl⟩

abbrev nD : Nat := 1
abbrev τ : Topo := Topo.v7x

variable {F : FTy → Type} [FloatOps F]

class Facts₀ : Prop where
  bcast_S8192x1_S8192x4096_0_1 : S8192x1.BroadcastsInDim S8192x4096 (![0, 1] : Fin 2 → Fin S8192x4096.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192 : S_.BroadcastsInDim S8192 (![] : Fin 0 → Fin S8192.rank)
  natLt_1_32 : 1 < 32
  reducesTo_S8192_S_d0 : S8192.ReducesTo [0] S_
  transposes_S8192x4096_S4096x8192_1_0 : S8192x4096.Transposes [1, 0] S4096x8192
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  reducesTo_S4096_S_d0 : S4096.ReducesTo [0] S_
  reducesTo_S8192x4096_S_d0_1 : S8192x4096.ReducesTo [0, 1] S_

variable [Facts₀]

class Facts : Prop extends Facts₀ where

variable [Facts]
-- ==== Proof.KReg0Pieces.lean ====
/-
  What one grid point of the first kernel leaves in each of its five result blocks (one row of 1024 columns), read at
  a column: at a first row block the column sum over the point's 512-row tile of a per-entry term, at any other the
  block's earlier content plus that column sum. The five terms, at row r and column q of the tile: the feature; the
  scaled prediction (prediction times the row's scale); the squared feature; the squared scaled prediction; the
  feature times the scaled prediction.
-/
import proofs.«172602_j30520037605625_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg0

open Idealize.ShloMosaic Idealize.ShloMosaic.TcCoe Idealize.SL.Sem Idealize.ShloMosaic.ValueIdx
open Cert.KernelIdeal Cert.KernelIdeal.Gen
open scoped BigOperators

/-- The per-entry terms of a tile: features x0, predictions x1 (both 512 x 1024), scales x2 (512 x 1). -/
def tile3 (x0 x1 : FVec Ideal S512x1024 .f32) (x2 : FVec Ideal S512x1 .f32) (r : Fin 512) (q : Fin 1024) : EReal := x0 (ix2 r q)
def tile4 (x0 x1 : FVec Ideal S512x1024 .f32) (x2 : FVec Ideal S512x1 .f32) (r : Fin 512) (q : Fin 1024) : EReal :=
  x1 (ix2 r q) * x2 (ix2 r (0 : Fin 1))
def tile5 (x0 x1 : FVec Ideal S512x1024 .f32) (x2 : FVec Ideal S512x1 .f32) (r : Fin 512) (q : Fin 1024) : EReal :=
  x0 (ix2 r q) * x0 (ix2 r q)
def tile6 (x0 x1 : FVec Ideal S512x1024 .f32) (x2 : FVec Ideal S512x1 .f32) (r : Fin 512) (q : Fin 1024) : EReal :=
  tile4 x0 x1 x2 r q * tile4 x0 x1 x2 r q
def tile7 (x0 x1 : FVec Ideal S512x1024 .f32) (x2 : FVec Ideal S512x1 .f32) (r : Fin 512) (q : Fin 1024) : EReal :=
  x0 (ix2 r q) * tile4 x0 x1 x2 r q

namespace Pieces

theorem hz : (![0, 0] : Fin 2 → Nat) = fun _ => 0 := funext fun a => by fin_cases a <;> rfl

/-! ## The payloads' operations read at an index, over the extended reals -/

/-- The lane sum over the rows of a 512 x 1024 tile, cast to one row, read at column q: the sum over the 512 rows. -/
theorem colsum_apply (v : FVec Ideal S512x1024 .f32) (h : S512x1024.Reduces [0] S1024) (hc : S1024.ShapeCasts S1x1024)
    (q : Fin 1024) :
    shapeCast S1x1024 (multiReduction (F := Ideal) .add [0] S1024 v 0x00000000#32 h (.inl rfl) rfl) hc (ix2 (0 : Fin 1) q)
      = ∑ r : Fin 512, v (ix2 r q) := by
  refine (shapeCast_a_1a_apply _ hc (0 : Fin 1) q).trans ?_
  refine (Ideal.multiReduction_add_single v 0x00000000#32 h (.inl rfl) rfl (ix1 q)).trans ?_
  show ∑ r : Fin 512, v (h.lift (ix1 q) r) = _
  refine Finset.sum_congr rfl fun r _ => congrArg v ?_
  funext a
  match a with
  | ⟨0, _⟩ => rfl
  | ⟨1, _⟩ => rfl

/-- A column of 512 scales broadcast along 1024 columns reads, at (r, q), the scale of row r. -/
theorem bcast_col_apply (x2 : FVec Ideal S512x1 .f32) (h : S512x1.Broadcasts S512x1024) (r : Fin 512) (q : Fin 1024) :
    broadcastTo S512x1024 x2 h (ix2 r q) = x2 (ix2 r (0 : Fin 1)) := by
  refine broadcastTo_apply x2 h (ix2 r q) (ix2 r (0 : Fin 1)) fun a => ?_
  match a with
  | ⟨0, _⟩ =>
    exact (if_neg (by decide : ¬((512 : ℕ) = 1))).symm
  | ⟨1, _⟩ => rfl

/-- The scaled prediction at (r, q): the prediction times the row's scale. -/
theorem pay8_apply (x1 : FVec Ideal S512x1024 .f32) (x2 : FVec Ideal S512x1 .f32) (r : Fin 512) (q : Fin 1024) :
    k0_pay8 (F := Ideal) x1 x2 (ix2 r q) = x1 (ix2 r q) * x2 (ix2 r (0 : Fin 1)) := by
  unfold k0_pay8
  refine (mulf_apply _ _ _).trans ?_
  exact congrArg (x1 (ix2 r q) * ·) (bcast_col_apply x2 _ r q)

/-- A result block passed through the identity cast is itself. -/
theorem pay12_eq {F : FTy → Type} [FloatOps F] (xo : FVec F S1x1024 .f32) : k0_pay12 xo = xo := by
  unfold k0_pay12
  exact shapeCast_self xo _

/-- Result 3's payload at column q: the earlier content plus the column sum of the feature. -/
theorem pay9_apply (x0 : FVec Ideal S512x1024 .f32) (xo : FVec Ideal S1x1024 .f32) (q : Fin 1024) :
    k0_pay9 (F := Ideal) x0 xo (ix2 (0 : Fin 1) q) = xo (ix2 (0 : Fin 1) q) + ∑ r : Fin 512, x0 (ix2 r q) := by
  unfold k0_pay9
  refine (addf_apply _ _ _).trans ?_
  exact congrArg₂ (· + ·) (congrFun (shapeCast_self xo _) _) (colsum_apply x0 _ _ q)

/-- Result 4's payload at column q: the earlier content plus the column sum of the scaled prediction. -/
theorem pay10_apply (x1 : FVec Ideal S512x1024 .f32) (x2 : FVec Ideal S512x1 .f32) (xo : FVec Ideal S1x1024 .f32) (q : Fin 1024) :
    k0_pay10 (F := Ideal) x1 x2 xo (ix2 (0 : Fin 1) q)
      = xo (ix2 (0 : Fin 1) q) + ∑ r : Fin 512, x1 (ix2 r q) * x2 (ix2 r (0 : Fin 1)) := by
  unfold k0_pay10
  refine (addf_apply _ _ _).trans ?_
  refine congrArg₂ (· + ·) (congrFun (shapeCast_self xo _) _) ((colsum_apply (k0_pay8 (F := Ideal) x1 x2) _ _ q).trans ?_)
  exact Finset.sum_congr rfl fun r _ => pay8_apply x1 x2 r q

/-- Result 5's payload at column q: the earlier content plus the column sum of the squared feature. -/
theorem pay11_apply (x0 : FVec Ideal S512x1024 .f32) (xo : FVec Ideal S1x1024 .f32) (q : Fin 1024) :
    k0_pay11 (F := Ideal) x0 xo (ix2 (0 : Fin 1) q) = xo (ix2 (0 : Fin 1) q) + ∑ r : Fin 512, x0 (ix2 r q) * x0 (ix2 r q) := by
  unfold k0_pay11
  refine (addf_apply _ _ _).trans ?_
  exact congrArg₂ (· + ·) (congrFun (shapeCast_self xo _) _) (colsum_apply (mulf x0 x0) _ _ q)

/-- Result 6's payload at column q: the earlier content plus the column sum of the square of the second tile. -/
theorem pay1_apply (v : FVec Ideal S512x1024 .f32) (xo : FVec Ideal S1x1024 .f32) (q : Fin 1024) :
    k0_pay1 (F := Ideal) v xo (ix2 (0 : Fin 1) q) = xo (ix2 (0 : Fin 1) q) + ∑ r : Fin 512, v (ix2 r q) * v (ix2 r q) := by
  unfold k0_pay1
  refine (addf_apply _ _ _).trans ?_
  exact congrArg (xo (ix2 (0 : Fin 1) q) + ·) (colsum_apply (mulf v v) _ _ q)

/-- Result 7's payload at column q: the earlier content plus the column sum of the product of the two tiles. -/
theorem pay2_apply (x0 v : FVec Ideal S512x1024 .f32) (xo : FVec Ideal S1x1024 .f32) (q : Fin 1024) :
    k0_pay2 (F := Ideal) x0 v xo (ix2 (0 : Fin 1) q) = xo (ix2 (0 : Fin 1) q) + ∑ r : Fin 512, x0 (ix2 r q) * v (ix2 r q) := by
  unfold k0_pay2
  refine (addf_apply _ _ _).trans ?_
  exact congrArg₂ (· + ·) (congrFun (shapeCast_self xo _) _) (colsum_apply (mulf x0 v) _ _ q)

/-- The zero rows a first row block stores read 0 everywhere. -/
theorem pay3_apply (j : S1x1024.Idx) : k0_pay3 (F := Ideal) j = 0 := Ideal.ofBits_zero_f32
theorem pay4_apply (j : S1x1024.Idx) : k0_pay4 (F := Ideal) j = 0 := Ideal.ofBits_zero_f32
theorem pay5_apply (j : S1x1024.Idx) : k0_pay5 (F := Ideal) j = 0 := Ideal.ofBits_zero_f32
theorem pay6_apply (j : S1x1024.Idx) : k0_pay6 (F := Ideal) j = 0 := Ideal.ofBits_zero_f32
theorem pay7_apply (j : S1x1024.Idx) : k0_pay7 (F := Ideal) j = 0 := Ideal.ofBits_zero_f32

/-! ## What each case's stores leave in each result block, as one payload -/

/-- A later row block's one covering store into result 3: its payload over the whole input blocks and the block's earlier content. -/
theorem vec_B_3 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : Vec F S512x1024 .f32) (x2 : Vec F S512x1 .f32) (xo3 xo4 xo5 xo6 xo7 : Vec F S1x1024 .f32) :
    out0_B_3 c i arg2 harg2 arg3 harg3 arg4 harg4 arg5 harg5 arg6 harg6 arg7 harg7 arg8 harg8 arg9 harg9 hc0 x0 x1 x2 xo3 xo4 xo5 xo6 xo7 = k0_pay9 x0 xo3 := by
  unfold out0_B_3
  rw [View.read_writes_eq_canon _ _ _ (cover0_B_3 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A first row block's two stores into result 3, the zero row and then the update that reads it back: the same payload over the zero row. -/
theorem vec_A_3 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : Vec F S512x1024 .f32) (x2 : Vec F S512x1 .f32) :
    out0_A_3 c i arg2 harg2 arg3 harg3 arg4 harg4 arg5 harg5 arg6 harg6 arg7 harg7 arg8 harg8 arg9 harg9 hc0 x0 x1 x2 = k0_pay9 x0 k0_pay3 := by
  unfold out0_A_3
  rw [View.read_writes_eq_canon _ _ _ (cover0_A_3 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A later row block's one covering store into result 4: its payload over the whole input blocks and the block's earlier content. -/
theorem vec_B_4 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : Vec F S512x1024 .f32) (x2 : Vec F S512x1 .f32) (xo3 xo4 xo5 xo6 xo7 : Vec F S1x1024 .f32) :
    out0_B_4 c i arg2 harg2 arg3 harg3 arg4 harg4 arg5 harg5 arg6 harg6 arg7 harg7 arg8 harg8 arg9 harg9 hc0 x0 x1 x2 xo3 xo4 xo5 xo6 xo7 = k0_pay10 x1 x2 xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A first row block's two stores into result 4, the zero row and then the update that reads it back: the same payload over the zero row. -/
theorem vec_A_4 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : Vec F S512x1024 .f32) (x2 : Vec F S512x1 .f32) :
    out0_A_4 c i arg2 harg2 arg3 harg3 arg4 harg4 arg5 harg5 arg6 harg6 arg7 harg7 arg8 harg8 arg9 harg9 hc0 x0 x1 x2 = k0_pay10 x1 x2 k0_pay4 := by
  unfold out0_A_4
  rw [View.read_writes_eq_canon _ _ _ (cover0_A_4 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A later row block's one covering store into result 5: its payload over the whole input blocks and the block's earlier content. -/
theorem vec_B_5 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : Vec F S512x1024 .f32) (x2 : Vec F S512x1 .f32) (xo3 xo4 xo5 xo6 xo7 : Vec F S1x1024 .f32) :
    out0_B_5 c i arg2 harg2 arg3 harg3 arg4 harg4 arg5 harg5 arg6 harg6 arg7 harg7 arg8 harg8 arg9 harg9 hc0 x0 x1 x2 xo3 xo4 xo5 xo6 xo7 = k0_pay11 x0 xo5 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A first row block's two stores into result 5, the zero row and then the update that reads it back: the same payload over the zero row. -/
theorem vec_A_5 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : Vec F S512x1024 .f32) (x2 : Vec F S512x1 .f32) :
    out0_A_5 c i arg2 harg2 arg3 harg3 arg4 harg4 arg5 harg5 arg6 harg6 arg7 harg7 arg8 harg8 arg9 harg9 hc0 x0 x1 x2 = k0_pay11 x0 k0_pay5 := by
  unfold out0_A_5
  rw [View.read_writes_eq_canon _ _ _ (cover0_A_5 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A later row block's one covering store into result 6: its payload over the whole input blocks and the block's earlier content. -/
theorem vec_B_6 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : Vec F S512x1024 .f32) (x2 : Vec F S512x1 .f32) (xo3 xo4 xo5 xo6 xo7 : Vec F S1x1024 .f32) :
    out0_B_6 c i arg2 harg2 arg3 harg3 arg4 harg4 arg5 harg5 arg6 harg6 arg7 harg7 arg8 harg8 arg9 harg9 hc0 x0 x1 x2 xo3 xo4 xo5 xo6 xo7 = k0_pay1 (k0_pay8 x1 x2) (k0_pay12 xo6) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A first row block's two stores into result 6, the zero row and then the update that reads it back: the same payload over the zero row. -/
theorem vec_A_6 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : Vec F S512x1024 .f32) (x2 : Vec F S512x1 .f32) :
    out0_A_6 c i arg2 harg2 arg3 harg3 arg4 harg4 arg5 harg5 arg6 harg6 arg7 harg7 arg8 harg8 arg9 harg9 hc0 x0 x1 x2 = k0_pay1 (k0_pay8 x1 x2) (k0_pay12 k0_pay6) := by
  unfold out0_A_6
  rw [View.read_writes_eq_canon _ _ _ (cover0_A_6 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A later row block's one covering store into result 7: its payload over the whole input blocks and the block's earlier content. -/
theorem vec_B_7 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : Vec F S512x1024 .f32) (x2 : Vec F S512x1 .f32) (xo3 xo4 xo5 xo6 xo7 : Vec F S1x1024 .f32) :
    out0_B_7 c i arg2 harg2 arg3 harg3 arg4 harg4 arg5 harg5 arg6 harg6 arg7 harg7 arg8 harg8 arg9 harg9 hc0 x0 x1 x2 xo3 xo4 xo5 xo6 xo7 = k0_pay2 x0 (k0_pay8 x1 x2) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 xo3 xo4 xo5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

/-- A first row block's two stores into result 7, the zero row and then the update that reads it back: the same payload over the zero row. -/
theorem vec_A_7 {F : FTy → Type} [FloatOps F] (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : Vec F S512x1024 .f32) (x2 : Vec F S512x1 .f32) :
    out0_A_7 c i arg2 harg2 arg3 harg3 arg4 harg4 arg5 harg5 arg6 harg6 arg7 harg7 arg8 harg8 arg9 harg9 hc0 x0 x1 x2 = k0_pay2 x0 (k0_pay8 x1 x2) k0_pay7 := by
  unfold out0_A_7
  rw [View.read_writes_eq_canon _ _ _ (cover0_A_7 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1024) hz, View.readCov_unit_zero (S := S1x1024) _ hz]
  simp only [View.readAt_eq_ld, harg2.read_unread, harg3.read_unread, harg4.read_unread, harg5.read_unread, harg6.read_unread, harg7.read_unread, harg8.read_unread, harg9.read_unread, View.ld_unit_zero (S := S512x1024) hz, View.ld_unit_zero (S := S512x1) hz, View.ld_unit_zero (S := S1x1024) hz]

end Pieces

open Pieces

/-! ## The ten readings at a column -/

/-- A first row block leaves in result 3 the tile's column sum of the feature. -/
theorem out_A_3 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : FVec Ideal S512x1024 .f32) (x2 : FVec Ideal S512x1 .f32) (q : Fin 1024) :
    (out0_A_3 (F := Ideal) c i arg2 harg2 arg3 harg3 arg4 harg4 arg5 harg5 arg6 harg6 arg7 harg7 arg8 harg8 arg9 harg9 hc0 x0 x1 x2 (ix2 (0 : Fin 1) q) : EReal)
      = ∑ r : Fin 512, tile3 x0 x1 x2 r q := by
  refine (congrFun (vec_A_3 (F := Ideal) c i arg2 harg2 arg3 harg3 arg4 harg4 arg5 harg5 arg6 harg6 arg7 harg7 arg8 harg8 arg9 harg9 hc0 x0 x1 x2) (ix2 (0 : Fin 1) q)).trans ?_
  refine (pay9_apply x0 (k0_pay3 (F := Ideal)) q).trans ?_
  rw [pay3_apply, zero_add]
  rfl
/-- A later row block adds to result 3 the tile's column sum of the feature. -/
theorem out_B_3 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : FVec Ideal S512x1024 .f32) (x2 : FVec Ideal S512x1 .f32) (xo3 xo4 xo5 xo6 xo7 : FVec Ideal S1x1024 .f32) (q : Fin 1024) :
    (out0_B_3 (F := Ideal) c i arg2 harg2 arg3 harg3 arg4 harg4 arg5 harg5 arg6 harg6 arg7 harg7 arg8 harg8 arg9 harg9 hc0 x0 x1 x2 xo3 xo4 xo5 xo6 xo7 (ix2 (0 : Fin 1) q) : EReal)
      = xo3 (ix2 (0 : Fin 1) q) + ∑ r : Fin 512, tile3 x0 x1 x2 r q := by
  refine (congrFun (vec_B_3 (F := Ideal) c i arg2 harg2 arg3 harg3 arg4 harg4 arg5 harg5 arg6 harg6 arg7 harg7 arg8 harg8 arg9 harg9 hc0 x0 x1 x2 xo3 xo4 xo5 xo6 xo7) (ix2 (0 : Fin 1) q)).trans ?_
  exact pay9_apply x0 xo3 q

/-- A first row block leaves in result 4 the tile's column sum of the scaled prediction. -/
theorem out_A_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : FVec Ideal S512x1024 .f32) (x2 : FVec Ideal S512x1 .f32) (q : Fin 1024) :
    (out0_A_4 (F := Ideal) c i arg2 harg2 arg3 harg3 arg4 harg4 arg5 harg5 arg6 harg6 arg7 harg7 arg8 harg8 arg9 harg9 hc0 x0 x1 x2 (ix2 (0 : Fin 1) q) : EReal)
      = ∑ r : Fin 512, tile4 x0 x1 x2 r q := by
  refine (congrFun (vec_A_4 (F := Ideal) c i arg2 harg2 arg3 harg3 arg4 harg4 arg5 harg5 arg6 harg6 arg7 harg7 arg8 harg8 arg9 harg9 hc0 x0 x1 x2) (ix2 (0 : Fin 1) q)).trans ?_
  refine (pay10_apply x1 x2 (k0_pay4 (F := Ideal)) q).trans ?_
  rw [pay4_apply, zero_add]
  rfl
/-- A later row block adds to result 4 the tile's column sum of the scaled prediction. -/
theorem out_B_4 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : FVec Ideal S512x1024 .f32) (x2 : FVec Ideal S512x1 .f32) (xo3 xo4 xo5 xo6 xo7 : FVec Ideal S1x1024 .f32) (q : Fin 1024) :
    (out0_B_4 (F := Ideal) c i arg2 harg2 arg3 harg3 arg4 harg4 arg5 harg5 arg6 harg6 arg7 harg7 arg8 harg8 arg9 harg9 hc0 x0 x1 x2 xo3 xo4 xo5 xo6 xo7 (ix2 (0 : Fin 1) q) : EReal)
      = xo4 (ix2 (0 : Fin 1) q) + ∑ r : Fin 512, tile4 x0 x1 x2 r q := by
  refine (congrFun (vec_B_4 (F := Ideal) c i arg2 harg2 arg3 harg3 arg4 harg4 arg5 harg5 arg6 harg6 arg7 harg7 arg8 harg8 arg9 harg9 hc0 x0 x1 x2 xo3 xo4 xo5 xo6 xo7) (ix2 (0 : Fin 1) q)).trans ?_
  exact pay10_apply x1 x2 xo4 q

/-- A first row block leaves in result 5 the tile's column sum of the squared feature. -/
theorem out_A_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : FVec Ideal S512x1024 .f32) (x2 : FVec Ideal S512x1 .f32) (q : Fin 1024) :
    (out0_A_5 (F := Ideal) c i arg2 harg2 arg3 harg3 arg4 harg4 arg5 harg5 arg6 harg6 arg7 harg7 arg8 harg8 arg9 harg9 hc0 x0 x1 x2 (ix2 (0 : Fin 1) q) : EReal)
      = ∑ r : Fin 512, tile5 x0 x1 x2 r q := by
  refine (congrFun (vec_A_5 (F := Ideal) c i arg2 harg2 arg3 harg3 arg4 harg4 arg5 harg5 arg6 harg6 arg7 harg7 arg8 harg8 arg9 harg9 hc0 x0 x1 x2) (ix2 (0 : Fin 1) q)).trans ?_
  refine (pay11_apply x0 (k0_pay5 (F := Ideal)) q).trans ?_
  rw [pay5_apply, zero_add]
  rfl
/-- A later row block adds to result 5 the tile's column sum of the squared feature. -/
theorem out_B_5 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : FVec Ideal S512x1024 .f32) (x2 : FVec Ideal S512x1 .f32) (xo3 xo4 xo5 xo6 xo7 : FVec Ideal S1x1024 .f32) (q : Fin 1024) :
    (out0_B_5 (F := Ideal) c i arg2 harg2 arg3 harg3 arg4 harg4 arg5 harg5 arg6 harg6 arg7 harg7 arg8 harg8 arg9 harg9 hc0 x0 x1 x2 xo3 xo4 xo5 xo6 xo7 (ix2 (0 : Fin 1) q) : EReal)
      = xo5 (ix2 (0 : Fin 1) q) + ∑ r : Fin 512, tile5 x0 x1 x2 r q := by
  refine (congrFun (vec_B_5 (F := Ideal) c i arg2 harg2 arg3 harg3 arg4 harg4 arg5 harg5 arg6 harg6 arg7 harg7 arg8 harg8 arg9 harg9 hc0 x0 x1 x2 xo3 xo4 xo5 xo6 xo7) (ix2 (0 : Fin 1) q)).trans ?_
  exact pay11_apply x0 xo5 q

/-- A first row block leaves in result 6 the tile's column sum of the squared scaled prediction. -/
theorem out_A_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : FVec Ideal S512x1024 .f32) (x2 : FVec Ideal S512x1 .f32) (q : Fin 1024) :
    (out0_A_6 (F := Ideal) c i arg2 harg2 arg3 harg3 arg4 harg4 arg5 harg5 arg6 harg6 arg7 harg7 arg8 harg8 arg9 harg9 hc0 x0 x1 x2 (ix2 (0 : Fin 1) q) : EReal)
      = ∑ r : Fin 512, tile6 x0 x1 x2 r q := by
  refine (congrFun (vec_A_6 (F := Ideal) c i arg2 harg2 arg3 harg3 arg4 harg4 arg5 harg5 arg6 harg6 arg7 harg7 arg8 harg8 arg9 harg9 hc0 x0 x1 x2) (ix2 (0 : Fin 1) q)).trans ?_
  refine (pay1_apply (k0_pay8 (F := Ideal) x1 x2) (k0_pay12 (F := Ideal) (k0_pay6 (F := Ideal))) q).trans ?_
  rw [pay12_eq, pay6_apply, zero_add]
  exact Finset.sum_congr rfl fun r _ => congrArg₂ (· * ·) (pay8_apply x1 x2 r q) (pay8_apply x1 x2 r q)
/-- A later row block adds to result 6 the tile's column sum of the squared scaled prediction. -/
theorem out_B_6 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : FVec Ideal S512x1024 .f32) (x2 : FVec Ideal S512x1 .f32) (xo3 xo4 xo5 xo6 xo7 : FVec Ideal S1x1024 .f32) (q : Fin 1024) :
    (out0_B_6 (F := Ideal) c i arg2 harg2 arg3 harg3 arg4 harg4 arg5 harg5 arg6 harg6 arg7 harg7 arg8 harg8 arg9 harg9 hc0 x0 x1 x2 xo3 xo4 xo5 xo6 xo7 (ix2 (0 : Fin 1) q) : EReal)
      = xo6 (ix2 (0 : Fin 1) q) + ∑ r : Fin 512, tile6 x0 x1 x2 r q := by
  refine (congrFun (vec_B_6 (F := Ideal) c i arg2 harg2 arg3 harg3 arg4 harg4 arg5 harg5 arg6 harg6 arg7 harg7 arg8 harg8 arg9 harg9 hc0 x0 x1 x2 xo3 xo4 xo5 xo6 xo7) (ix2 (0 : Fin 1) q)).trans ?_
  refine (pay1_apply (k0_pay8 (F := Ideal) x1 x2) (k0_pay12 (F := Ideal) xo6) q).trans ?_
  exact congrArg₂ (· + ·) (congrFun (pay12_eq (F := Ideal) xo6) _)
    (Finset.sum_congr rfl fun r _ => congrArg₂ (· * ·) (pay8_apply x1 x2 r q) (pay8_apply x1 x2 r q))

/-- A first row block leaves in result 7 the tile's column sum of the feature times the scaled prediction. -/
theorem out_A_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : cond0_0 i)
    (x0 x1 : FVec Ideal S512x1024 .f32) (x2 : FVec Ideal S512x1 .f32) (q : Fin 1024) :
    (out0_A_7 (F := Ideal) c i arg2 harg2 arg3 harg3 arg4 harg4 arg5 harg5 arg6 harg6 arg7 harg7 arg8 harg8 arg9 harg9 hc0 x0 x1 x2 (ix2 (0 : Fin 1) q) : EReal)
      = ∑ r : Fin 512, tile7 x0 x1 x2 r q := by
  refine (congrFun (vec_A_7 (F := Ideal) c i arg2 harg2 arg3 harg3 arg4 harg4 arg5 harg5 arg6 harg6 arg7 harg7 arg8 harg8 arg9 harg9 hc0 x0 x1 x2) (ix2 (0 : Fin 1) q)).trans ?_
  refine (pay2_apply x0 (k0_pay8 (F := Ideal) x1 x2) (k0_pay7 (F := Ideal)) q).trans ?_
  rw [pay7_apply, zero_add]
  exact Finset.sum_congr rfl fun r _ => congrArg (x0 (ix2 r q) * ·) (pay8_apply x1 x2 r q)
/-- A later row block adds to result 7 the tile's column sum of the feature times the scaled prediction. -/
theorem out_B_7 (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (hc0 : ¬cond0_0 i)
    (x0 x1 : FVec Ideal S512x1024 .f32) (x2 : FVec Ideal S512x1 .f32) (xo3 xo4 xo5 xo6 xo7 : FVec Ideal S1x1024 .f32) (q : Fin 1024) :
    (out0_B_7 (F := Ideal) c i arg2 harg2 arg3 harg3 arg4 harg4 arg5 harg5 arg6 harg6 arg7 harg7 arg8 harg8 arg9 harg9 hc0 x0 x1 x2 xo3 xo4 xo5 xo6 xo7 (ix2 (0 : Fin 1) q) : EReal)
      = xo7 (ix2 (0 : Fin 1) q) + ∑ r : Fin 512, tile7 x0 x1 x2 r q := by
  refine (congrFun (vec_B_7 (F := Ideal) c i arg2 harg2 arg3 harg3 arg4 harg4 arg5 harg5 arg6 harg6 arg7 harg7 arg8 harg8 arg9 harg9 hc0 x0 x1 x2 xo3 xo4 xo5 xo6 xo7) (ix2 (0 : Fin 1) q)).trans ?_
  refine (pay2_apply x0 (k0_pay8 (F := Ideal) x1 x2) xo7 q).trans ?_
  exact congrArg (xo7 (ix2 (0 : Fin 1) q) + ·) (Finset.sum_congr rfl fun r _ => congrArg (x0 (ix2 r q) * ·) (pay8_apply x1 x2 r q))

end Cert.KernelIdeal.Reg0

end
-- ==== Proof.Spec.lean ====
/-
  What the two programs compute, as functions of the five argument arrays over the extended reals.

  Pearson's r of two finite families with population statistics: with N the stated count, the means are the sums over
  N, the variances and the covariance are the sums of products of deviations over N, and r is the covariance over the
  product of the square roots of the variances. Each quotient is the extended reals' quotient, so r has a value for
  every pair of families (a degenerate pair gives that quotient's value at zero over zero).

  The three results:
  * the latent similarity loss: one minus the mean over the 8192 rows of r of a row of the first latent array against
    the same row of the second (each row has 512 entries);
  * the mean squared error: the sum over all 8192 x 4096 positions of the squared difference between the scaled
    prediction (the prediction times that row's scale) and the feature, over 2^25;
  * the correlation loss: one minus the mean over the 4096 columns of r of a column of the features against the same
    column of the scaled predictions (each column has 8192 entries).
-/
import Idealize.ShloMosaic.PureOps.Ideal
import Idealize.ShloMosaic.Lib.ValueIdx

noncomputable section

namespace Cert.Spec

open Idealize.ShloMosaic Idealize.ShloMosaic.ValueIdx
open scoped BigOperators

/-- The float words of the counts, read as extended reals: 512, 8192, 4096, 2^25 and 1. -/
abbrev w512 : EReal := Ideal.ofBits .f32 0x44000000#32
abbrev w8192 : EReal := Ideal.ofBits .f32 0x46000000#32
abbrev w4096 : EReal := Ideal.ofBits .f32 0x45800000#32
abbrev w2p25 : EReal := Ideal.ofBits .f32 0x4C000000#32
abbrev w1 : EReal := Ideal.ofBits .f32 0x3F800000#32

/-- Pearson's r of two finite families, population statistics, the count given as the extended real `N`. -/
def pearson {ι : Type} [Fintype ι] (N : EReal) (x y : ι → EReal) : EReal :=
  Ideal.div
    (Ideal.div (∑ i, (x i - Ideal.div (∑ i, x i) N) * (y i - Ideal.div (∑ i, y i) N)) N)
    (Ideal.sqrt (Ideal.div (∑ i, (x i - Ideal.div (∑ i, x i) N) * (x i - Ideal.div (∑ i, x i) N)) N)
      * Ideal.sqrt (Ideal.div (∑ i, (y i - Ideal.div (∑ i, y i) N) * (y i - Ideal.div (∑ i, y i) N)) N))

/-- The feature at row `n`, column `g`. -/
def feat (sf : (⟨2, ![8192, 4096]⟩ : Shape).Idx → EReal) (n : Fin 8192) (g : Fin 4096) : EReal := sf (ix2 n g)

/-- The scaled prediction at row `n`, column `g`: the prediction times the row's scale. -/
def scaled (pr : (⟨2, ![8192, 4096]⟩ : Shape).Idx → EReal) (nu : (⟨2, ![8192, 1]⟩ : Shape).Idx → EReal)
    (n : Fin 8192) (g : Fin 4096) : EReal :=
  pr (ix2 n g) * nu (ix2 n (0 : Fin 1))

/-- One minus the mean over the rows of r of a row of `a` against the same row of `b`. -/
def latent (a b : (⟨2, ![8192, 512]⟩ : Shape).Idx → EReal) : EReal :=
  w1 - Ideal.div (∑ i : Fin 8192, pearson w512 (fun k : Fin 512 => a (ix2 i k)) (fun k : Fin 512 => b (ix2 i k))) w8192

/-- The mean of the squared differences between scaled prediction and feature. -/
def mse (sf pr : (⟨2, ![8192, 4096]⟩ : Shape).Idx → EReal) (nu : (⟨2, ![8192, 1]⟩ : Shape).Idx → EReal) : EReal :=
  Ideal.div (∑ n : Fin 8192, ∑ g : Fin 4096, (scaled pr nu n g - sf (ix2 n g)) * (scaled pr nu n g - sf (ix2 n g))) w2p25

/-- One minus the mean over the columns of r of a feature column against the scaled-prediction column. -/
def pcc (sf pr : (⟨2, ![8192, 4096]⟩ : Shape).Idx → EReal) (nu : (⟨2, ![8192, 1]⟩ : Shape).Idx → EReal) : EReal :=
  w1 - Ideal.div (∑ g : Fin 4096, pearson w8192 (fun n : Fin 8192 => sf (ix2 n g)) (fun n : Fin 8192 => scaled pr nu n g)) w4096

end Cert.Spec

end
-- ==== Proof.KReg0.lean ====
/-
  What the first kernel leaves in its five result arrays. The grid is 4 column blocks by 16 row blocks, the row
  block moving fastest; a result block (one row of 1024 columns) is zeroed at the first row block of its column block
  and gains, at every row block, the column sums of that 512-row tile of: the features, the scaled predictions, the
  squared features, the squared scaled predictions, and their product. After the last row block a column holds the
  sum over all 8192 rows.

  The proof: a block of an argument read at a row and a column is the array read at 512 times the row block plus the
  row and 1024 times the column block plus the column; by induction on the grid point a result block holds, at a
  column, the sum of its term over the rows of the row blocks so far; the block written back after row block 15 is
  therefore its part of the array of whole-column sums, and those blocks cover the array; the sixteen sums of 512 rows
  re-index to one sum over 8192 rows.
-/
import proofs.«172602_j30520037605625_1_alg».proof.Proof.KReg0Pieces
import proofs.«172602_j30520037605625_1_alg».proof.Proof.Spec
import Mathlib.Algebra.BigOperators.Fin

noncomputable section

namespace Cert.KernelIdeal.Reg0

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

variable (m : (ℓ : Loc nD τ sig) → Buf (Elt Ideal) ℓ) (ρ : Dev nD → PrngReg)

/-! ## Sums over runs of rows -/

section Sums

variable {β : Type*} [AddCommMonoid β]

/-- A quantity that restarts at the multiples of 16 and otherwise adds its point's term to its predecessor is the sum
    of the terms over its run so far. -/
theorem run_sum {N : ℕ} (f : (n : ℕ) → n < N → β) (M : ℕ → β)
    (hA : ∀ (n : ℕ) (h : n < N), n % 16 = 0 → f n h = M n)
    (hB : ∀ (n : ℕ) (h : n < N), ¬n % 16 = 0 → f n h = f (n - 1) (Nat.lt_of_le_of_lt (Nat.sub_le _ _) h) + M n) :
    ∀ (n : ℕ) (h : n < N), f n h = ∑ s ∈ Finset.range (n % 16 + 1), M (16 * (n / 16) + s)
  | 0, h => by rw [hA 0 h rfl]; simp
  | n + 1, h => by
    by_cases h0 : (n + 1) % 16 = 0
    · rw [hA _ h h0, h0, Finset.sum_range_one]
      exact congrArg M (by omega)
    · rw [hB _ h h0]
      have ih := run_sum f M hA hB n (Nat.lt_of_succ_lt h)
      show f n _ + _ = _
      rw [ih, show (n + 1) % 16 = n % 16 + 1 by omega, show (n + 1) / 16 = n / 16 by omega,
        Finset.sum_range_succ _ (n % 16 + 1)]
      exact congrArg (_ + M ·) (by omega)

/-- Summing block by block is summing over all rows. -/
theorem sum_blocks (E : ℕ → β) (B : ℕ) : ∀ k : ℕ,
    ∑ s ∈ Finset.range k, ∑ r ∈ Finset.range B, E (B * s + r) = ∑ n ∈ Finset.range (B * k), E n
  | 0 => by simp
  | k + 1 => by
    rw [Finset.sum_range_succ, sum_blocks E B k, Nat.mul_succ, Finset.sum_range_add]

end Sums

/-! ## The blocks read at explicit coordinates -/

/-- An entry of a rank-2 array at natural coordinates (zero outside the array). -/
def ent {a b : ℕ} (A : (⟨2, ![a, b]⟩ : Shape).Idx → EReal) (n g : ℕ) : EReal :=
  if h : n < a ∧ g < b then A (ix2 ⟨n, h.1⟩ ⟨g, h.2⟩) else 0

theorem ent_of_lt {a b : ℕ} (A : (⟨2, ![a, b]⟩ : Shape).Idx → EReal) (n : Fin a) (g : Fin b) :
    ent A n.val g.val = A (ix2 n g) := by
  unfold ent; rw [dif_pos ⟨n.isLt, g.isLt⟩]

section Blocks

variable (V : (c : Dev nD) → (b : Ref sig .tc) → Buf (Elt Ideal) ((c : Thread nD τ).loc b))

/-- The three argument arrays as the region finds them, and their blocks at a grid point. -/
abbrev sf (c : Dev nD) : FVec Ideal S8192x4096 .f32 := V c main_arg0
abbrev pr (c : Dev nD) : FVec Ideal S8192x4096 .f32 := V c main_arg1
abbrev nu (c : Dev nD) : FVec Ideal S8192x1 .f32 := V c main_arg4
abbrev b0 (c : Dev nD) (t : Fin cfg0.N) : FVec Ideal S512x1024 .f32 := iblk0 V c 0 t
abbrev b1 (c : Dev nD) (t : Fin cfg0.N) : FVec Ideal S512x1024 .f32 := iblk0 V c 1 t
abbrev b2 (c : Dev nD) (t : Fin cfg0.N) : FVec Ideal S512x1 .f32 := iblk0 V c 2 t

/-- The index maps over the grid: the row block is the point modulo 16, the column block the point over 16. -/
theorem idx_in : ∀ t : Fin cfg0.N,
    win0_0.index t (0 : Fin 2) = t.val % 16 ∧ win0_0.index t (1 : Fin 2) = t.val / 16
    ∧ win0_1.index t (0 : Fin 2) = t.val % 16 ∧ win0_1.index t (1 : Fin 2) = t.val / 16
    ∧ win0_2.index t (0 : Fin 2) = t.val % 16 ∧ win0_2.index t (1 : Fin 2) = 0 :=
  (by decide +kernel : ∀ t : Fin grid0.N, _)

theorem b0_apply (c : Dev nD) (t : Fin cfg0.N) (r : Fin 512) (q : Fin 1024) :
    b0 V c t (ix2 r q) = ent (sf V c) (512 * (t.val % 16) + r.val) (1024 * (t.val / 16) + q.val) := by
  have hN : t.val < 64 := lt_of_lt_of_eq t.isLt (show cfg0.N = 64 from N_0)
  obtain ⟨e0, e1, -⟩ := idx_in t
  unfold ent
  rw [dif_pos ⟨by omega, by omega⟩]
  show iblk0 V c 0 t (ix2 r q) = V c main_arg0 _
  unfold iblk0
  rw [View.read_apply]
  show V c main_arg0 _ = V c main_arg0 _
  refine congrArg (V c main_arg0) ?_
  funext a
  apply Fin.ext
  match a with
  | ⟨0, _⟩ => show win0_0.index t (0 : Fin 2) * 512 + 1 * r.val = 512 * (t.val % 16) + r.val; rw [e0]; omega
  | ⟨1, _⟩ => show win0_0.index t (1 : Fin 2) * 1024 + 1 * q.val = 1024 * (t.val / 16) + q.val; rw [e1]; omega

theorem b1_apply (c : Dev nD) (t : Fin cfg0.N) (r : Fin 512) (q : Fin 1024) :
    b1 V c t (ix2 r q) = ent (pr V c) (512 * (t.val % 16) + r.val) (1024 * (t.val / 16) + q.val) := by
  have hN : t.val < 64 := lt_of_lt_of_eq t.isLt (show cfg0.N = 64 from N_0)
  obtain ⟨-, -, e0, e1, -⟩ := idx_in t
  unfold ent
  rw [dif_pos ⟨by omega, by omega⟩]
  show iblk0 V c 1 t (ix2 r q) = V c main_arg1 _
  unfold iblk0
  rw [View.read_apply]
  show V c main_arg1 _ = V c main_arg1 _
  refine congrArg (V c main_arg1) ?_
  funext a
  apply Fin.ext
  match a with
  | ⟨0, _⟩ => show win0_1.index t (0 : Fin 2) * 512 + 1 * r.val = 512 * (t.val % 16) + r.val; rw [e0]; omega
  | ⟨1, _⟩ => show win0_1.index t (1 : Fin 2) * 1024 + 1 * q.val = 1024 * (t.val / 16) + q.val; rw [e1]; omega

theorem b2_apply (c : Dev nD) (t : Fin cfg0.N) (r : Fin 512) :
    b2 V c t (ix2 r (0 : Fin 1)) = ent (nu V c) (512 * (t.val % 16) + r.val) 0 := by
  have hN : t.val < 64 := lt_of_lt_of_eq t.isLt (show cfg0.N = 64 from N_0)
  obtain ⟨-, -, -, -, e0, e1⟩ := idx_in t
  unfold ent
  rw [dif_pos ⟨by omega, by omega⟩]
  show iblk0 V c 2 t (ix2 r (0 : Fin 1)) = V c main_arg4 _
  unfold iblk0
  rw [View.read_apply]
  show V c main_arg4 _ = V c main_arg4 _
  refine congrArg (V c main_arg4) ?_
  funext a
  apply Fin.ext
  match a with
  | ⟨0, _⟩ => show win0_2.index t (0 : Fin 2) * 512 + 1 * r.val = 512 * (t.val % 16) + r.val; rw [e0]; omega
  | ⟨1, _⟩ => show win0_2.index t (1 : Fin 2) * 1 + 1 * 0 = 0; rw [e1]

/-- The five per-entry terms at a row and a column of the arrays. -/
def T3 (c : Dev nD) (n g : ℕ) : EReal := ent (sf V c) n g
def T4 (c : Dev nD) (n g : ℕ) : EReal := ent (pr V c) n g * ent (nu V c) n 0
def T5 (c : Dev nD) (n g : ℕ) : EReal := T3 V c n g * T3 V c n g
def T6 (c : Dev nD) (n g : ℕ) : EReal := T4 V c n g * T4 V c n g
def T7 (c : Dev nD) (n g : ℕ) : EReal := T3 V c n g * T4 V c n g

/-- A tile's terms are the arrays' terms at the tile's rows and columns. -/
theorem tile3_at (c : Dev nD) (t : Fin cfg0.N) (r : Fin 512) (q : Fin 1024) :
    tile3 (b0 V c t) (b1 V c t) (b2 V c t) r q = T3 V c (512 * (t.val % 16) + r.val) (1024 * (t.val / 16) + q.val) := by
  unfold tile3 T3; exact b0_apply V c t r q
theorem tile4_at (c : Dev nD) (t : Fin cfg0.N) (r : Fin 512) (q : Fin 1024) :
    tile4 (b0 V c t) (b1 V c t) (b2 V c t) r q = T4 V c (512 * (t.val % 16) + r.val) (1024 * (t.val / 16) + q.val) := by
  unfold tile4 T4; rw [b1_apply V c t r q, b2_apply V c t r]
theorem tile5_at (c : Dev nD) (t : Fin cfg0.N) (r : Fin 512) (q : Fin 1024) :
    tile5 (b0 V c t) (b1 V c t) (b2 V c t) r q = T5 V c (512 * (t.val % 16) + r.val) (1024 * (t.val / 16) + q.val) := by
  unfold tile5 T5 T3; rw [b0_apply V c t r q]
theorem tile6_at (c : Dev nD) (t : Fin cfg0.N) (r : Fin 512) (q : Fin 1024) :
    tile6 (b0 V c t) (b1 V c t) (b2 V c t) r q = T6 V c (512 * (t.val % 16) + r.val) (1024 * (t.val / 16) + q.val) := by
  unfold tile6 T6; rw [tile4_at V c t r q]
theorem tile7_at (c : Dev nD) (t : Fin cfg0.N) (r : Fin 512) (q : Fin 1024) :
    tile7 (b0 V c t) (b1 V c t) (b2 V c t) r q = T7 V c (512 * (t.val % 16) + r.val) (1024 * (t.val / 16) + q.val) := by
  unfold tile7 T7 T3; rw [tile4_at V c t r q, b0_apply V c t r q]

/-- What a grid point adds to column q of its result block: the column sum of a term over the point's 512 rows. -/
def addend (T : ℕ → ℕ → EReal) (q : ℕ) (n : ℕ) : EReal :=
  ∑ r ∈ Finset.range 512, T (512 * (n % 16) + r) (1024 * (n / 16) + q)

theorem tile_sum (T : ℕ → ℕ → EReal) (tl : Fin 512 → Fin 1024 → EReal) (t : Fin cfg0.N) (q : Fin 1024)
    (h : ∀ r : Fin 512, tl r q = T (512 * (t.val % 16) + r.val) (1024 * (t.val / 16) + q.val)) :
    ∑ r : Fin 512, tl r q = addend T q.val t.val := by
  unfold addend
  rw [← Fin.sum_univ_eq_sum_range (fun r => T (512 * (t.val % 16) + r) (1024 * (t.val / 16) + q.val)) 512]
  exact Finset.sum_congr rfl fun r _ => h r

end Blocks

/-! ## What a result block holds after each grid point -/

section Inv

variable (V : (c : Dev nD) → (b : Ref sig .tc) → Buf (Elt Ideal) ((c : Thread nD τ).loc b))

/-- Result 1's block after a first row block, and after a later one, at column q. -/
theorem step3_A (c : Dev nD) (t : Fin cfg0.N) (h0 : t.val % 16 = 0) (q : Fin 1024) :
    ((outsAt0 V c t.val t.isLt).1 (ix2 (0 : Fin 1) q) : EReal) = addend (T3 V c) q.val t.val := by
  rw [outsAt0_A V c t h0]
  dsimp only
  exact (out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (b0 V c t) (b1 V c t) (b2 V c t) q).trans
    (tile_sum (T3 V c) (tile3 (b0 V c t) (b1 V c t) (b2 V c t)) t q fun r => tile3_at V c t r q)
theorem step3_B (c : Dev nD) (t : Fin cfg0.N) (h0 : ¬t.val % 16 = 0) (q : Fin 1024) :
    ((outsAt0 V c t.val t.isLt).1 (ix2 (0 : Fin 1) q) : EReal)
      = ((outsAt0 V c (t.val - 1) (Nat.lt_of_le_of_lt (Nat.sub_le _ _) t.isLt)).1 (ix2 (0 : Fin 1) q) : EReal) + addend (T3 V c) q.val t.val := by
  rw [outsAt0_B V c t h0]
  dsimp only
  exact (out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (b0 V c t) (b1 V c t) (b2 V c t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 q).trans
    (congrArg (_ + ·) (tile_sum (T3 V c) (tile3 (b0 V c t) (b1 V c t) (b2 V c t)) t q fun r => tile3_at V c t r q))

/-- So after point n the block holds, at column q, the terms' sum over the rows of the row blocks so far. -/
theorem inv3 (c : Dev nD) (q : Fin 1024) (n : ℕ) (h : n < cfg0.N) :
    ((outsAt0 V c n h).1 (ix2 (0 : Fin 1) q) : EReal)
      = ∑ s ∈ Finset.range (n % 16 + 1), addend (T3 V c) q.val (16 * (n / 16) + s) :=
  run_sum (fun n h => ((outsAt0 V c n h).1 (ix2 (0 : Fin 1) q) : EReal)) (addend (T3 V c) q.val)
    (fun n h h0 => step3_A V c ⟨n, h⟩ h0 q) (fun n h h0 => step3_B V c ⟨n, h⟩ h0 q) n h

/-- Result 2's block after a first row block, and after a later one, at column q. -/
theorem step4_A (c : Dev nD) (t : Fin cfg0.N) (h0 : t.val % 16 = 0) (q : Fin 1024) :
    ((outsAt0 V c t.val t.isLt).2.1 (ix2 (0 : Fin 1) q) : EReal) = addend (T4 V c) q.val t.val := by
  rw [outsAt0_A V c t h0]
  dsimp only
  exact (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (b0 V c t) (b1 V c t) (b2 V c t) q).trans
    (tile_sum (T4 V c) (tile4 (b0 V c t) (b1 V c t) (b2 V c t)) t q fun r => tile4_at V c t r q)
theorem step4_B (c : Dev nD) (t : Fin cfg0.N) (h0 : ¬t.val % 16 = 0) (q : Fin 1024) :
    ((outsAt0 V c t.val t.isLt).2.1 (ix2 (0 : Fin 1) q) : EReal)
      = ((outsAt0 V c (t.val - 1) (Nat.lt_of_le_of_lt (Nat.sub_le _ _) t.isLt)).2.1 (ix2 (0 : Fin 1) q) : EReal) + addend (T4 V c) q.val t.val := by
  rw [outsAt0_B V c t h0]
  dsimp only
  exact (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (b0 V c t) (b1 V c t) (b2 V c t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 q).trans
    (congrArg (_ + ·) (tile_sum (T4 V c) (tile4 (b0 V c t) (b1 V c t) (b2 V c t)) t q fun r => tile4_at V c t r q))

/-- So after point n the block holds, at column q, the terms' sum over the rows of the row blocks so far. -/
theorem inv4 (c : Dev nD) (q : Fin 1024) (n : ℕ) (h : n < cfg0.N) :
    ((outsAt0 V c n h).2.1 (ix2 (0 : Fin 1) q) : EReal)
      = ∑ s ∈ Finset.range (n % 16 + 1), addend (T4 V c) q.val (16 * (n / 16) + s) :=
  run_sum (fun n h => ((outsAt0 V c n h).2.1 (ix2 (0 : Fin 1) q) : EReal)) (addend (T4 V c) q.val)
    (fun n h h0 => step4_A V c ⟨n, h⟩ h0 q) (fun n h h0 => step4_B V c ⟨n, h⟩ h0 q) n h

/-- Result 3's block after a first row block, and after a later one, at column q. -/
theorem step5_A (c : Dev nD) (t : Fin cfg0.N) (h0 : t.val % 16 = 0) (q : Fin 1024) :
    ((outsAt0 V c t.val t.isLt).2.2.1 (ix2 (0 : Fin 1) q) : EReal) = addend (T5 V c) q.val t.val := by
  rw [outsAt0_A V c t h0]
  dsimp only
  exact (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (b0 V c t) (b1 V c t) (b2 V c t) q).trans
    (tile_sum (T5 V c) (tile5 (b0 V c t) (b1 V c t) (b2 V c t)) t q fun r => tile5_at V c t r q)
theorem step5_B (c : Dev nD) (t : Fin cfg0.N) (h0 : ¬t.val % 16 = 0) (q : Fin 1024) :
    ((outsAt0 V c t.val t.isLt).2.2.1 (ix2 (0 : Fin 1) q) : EReal)
      = ((outsAt0 V c (t.val - 1) (Nat.lt_of_le_of_lt (Nat.sub_le _ _) t.isLt)).2.2.1 (ix2 (0 : Fin 1) q) : EReal) + addend (T5 V c) q.val t.val := by
  rw [outsAt0_B V c t h0]
  dsimp only
  exact (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (b0 V c t) (b1 V c t) (b2 V c t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 q).trans
    (congrArg (_ + ·) (tile_sum (T5 V c) (tile5 (b0 V c t) (b1 V c t) (b2 V c t)) t q fun r => tile5_at V c t r q))

/-- So after point n the block holds, at column q, the terms' sum over the rows of the row blocks so far. -/
theorem inv5 (c : Dev nD) (q : Fin 1024) (n : ℕ) (h : n < cfg0.N) :
    ((outsAt0 V c n h).2.2.1 (ix2 (0 : Fin 1) q) : EReal)
      = ∑ s ∈ Finset.range (n % 16 + 1), addend (T5 V c) q.val (16 * (n / 16) + s) :=
  run_sum (fun n h => ((outsAt0 V c n h).2.2.1 (ix2 (0 : Fin 1) q) : EReal)) (addend (T5 V c) q.val)
    (fun n h h0 => step5_A V c ⟨n, h⟩ h0 q) (fun n h h0 => step5_B V c ⟨n, h⟩ h0 q) n h

/-- Result 4's block after a first row block, and after a later one, at column q. -/
theorem step6_A (c : Dev nD) (t : Fin cfg0.N) (h0 : t.val % 16 = 0) (q : Fin 1024) :
    ((outsAt0 V c t.val t.isLt).2.2.2.1 (ix2 (0 : Fin 1) q) : EReal) = addend (T6 V c) q.val t.val := by
  rw [outsAt0_A V c t h0]
  dsimp only
  exact (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (b0 V c t) (b1 V c t) (b2 V c t) q).trans
    (tile_sum (T6 V c) (tile6 (b0 V c t) (b1 V c t) (b2 V c t)) t q fun r => tile6_at V c t r q)
theorem step6_B (c : Dev nD) (t : Fin cfg0.N) (h0 : ¬t.val % 16 = 0) (q : Fin 1024) :
    ((outsAt0 V c t.val t.isLt).2.2.2.1 (ix2 (0 : Fin 1) q) : EReal)
      = ((outsAt0 V c (t.val - 1) (Nat.lt_of_le_of_lt (Nat.sub_le _ _) t.isLt)).2.2.2.1 (ix2 (0 : Fin 1) q) : EReal) + addend (T6 V c) q.val t.val := by
  rw [outsAt0_B V c t h0]
  dsimp only
  exact (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (b0 V c t) (b1 V c t) (b2 V c t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 q).trans
    (congrArg (_ + ·) (tile_sum (T6 V c) (tile6 (b0 V c t) (b1 V c t) (b2 V c t)) t q fun r => tile6_at V c t r q))

/-- So after point n the block holds, at column q, the terms' sum over the rows of the row blocks so far. -/
theorem inv6 (c : Dev nD) (q : Fin 1024) (n : ℕ) (h : n < cfg0.N) :
    ((outsAt0 V c n h).2.2.2.1 (ix2 (0 : Fin 1) q) : EReal)
      = ∑ s ∈ Finset.range (n % 16 + 1), addend (T6 V c) q.val (16 * (n / 16) + s) :=
  run_sum (fun n h => ((outsAt0 V c n h).2.2.2.1 (ix2 (0 : Fin 1) q) : EReal)) (addend (T6 V c) q.val)
    (fun n h h0 => step6_A V c ⟨n, h⟩ h0 q) (fun n h h0 => step6_B V c ⟨n, h⟩ h0 q) n h

/-- Result 5's block after a first row block, and after a later one, at column q. -/
theorem step7_A (c : Dev nD) (t : Fin cfg0.N) (h0 : t.val % 16 = 0) (q : Fin 1024) :
    ((outsAt0 V c t.val t.isLt).2.2.2.2 (ix2 (0 : Fin 1) q) : EReal) = addend (T7 V c) q.val t.val := by
  rw [outsAt0_A V c t h0]
  dsimp only
  exact (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (b0 V c t) (b1 V c t) (b2 V c t) q).trans
    (tile_sum (T7 V c) (tile7 (b0 V c t) (b1 V c t) (b2 V c t)) t q fun r => tile7_at V c t r q)
theorem step7_B (c : Dev nD) (t : Fin cfg0.N) (h0 : ¬t.val % 16 = 0) (q : Fin 1024) :
    ((outsAt0 V c t.val t.isLt).2.2.2.2 (ix2 (0 : Fin 1) q) : EReal)
      = ((outsAt0 V c (t.val - 1) (Nat.lt_of_le_of_lt (Nat.sub_le _ _) t.isLt)).2.2.2.2 (ix2 (0 : Fin 1) q) : EReal) + addend (T7 V c) q.val t.val := by
  rw [outsAt0_B V c t h0]
  dsimp only
  exact (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (b0 V c t) (b1 V c t) (b2 V c t)
      (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2 q).trans
    (congrArg (_ + ·) (tile_sum (T7 V c) (tile7 (b0 V c t) (b1 V c t) (b2 V c t)) t q fun r => tile7_at V c t r q))

/-- So after point n the block holds, at column q, the terms' sum over the rows of the row blocks so far. -/
theorem inv7 (c : Dev nD) (q : Fin 1024) (n : ℕ) (h : n < cfg0.N) :
    ((outsAt0 V c n h).2.2.2.2 (ix2 (0 : Fin 1) q) : EReal)
      = ∑ s ∈ Finset.range (n % 16 + 1), addend (T7 V c) q.val (16 * (n / 16) + s) :=
  run_sum (fun n h => ((outsAt0 V c n h).2.2.2.2 (ix2 (0 : Fin 1) q) : EReal)) (addend (T7 V c) q.val)
    (fun n h h0 => step7_A V c ⟨n, h⟩ h0 q) (fun n h h0 => step7_B V c ⟨n, h⟩ h0 q) n h

end Inv

/-! ## From the blocks to the arrays -/

/-- A term's sum down a column. -/
def colsum (T : ℕ → ℕ → EReal) (g : ℕ) : EReal := ∑ n ∈ Finset.range 8192, T n g

/-- After the last row block of column block k, a block's column holds the whole column's sum. -/
theorem last_sum (T : ℕ → ℕ → EReal) (q k : ℕ) :
    ∑ s ∈ Finset.range 16, addend T q (16 * k + s) = colsum T (1024 * k + q) := by
  unfold addend colsum
  refine Eq.trans ?_ (sum_blocks (fun n => T n (1024 * k + q)) 512 16)
  refine Finset.sum_congr rfl fun s hs => ?_
  have hs' : s < 16 := Finset.mem_range.mp hs
  rw [show (16 * k + s) % 16 = s by omega, show (16 * k + s) / 16 = k by omega]

/-- The result windows' index maps over the grid: row block 0, the column block the point over 16. -/
theorem idx_out : ∀ t : Fin cfg0.N,
    (win0_3.index t (0 : Fin 2) = 0 ∧ win0_3.index t (1 : Fin 2) = t.val / 16)
    ∧ (win0_4.index t (0 : Fin 2) = 0 ∧ win0_4.index t (1 : Fin 2) = t.val / 16)
    ∧ (win0_5.index t (0 : Fin 2) = 0 ∧ win0_5.index t (1 : Fin 2) = t.val / 16)
    ∧ (win0_6.index t (0 : Fin 2) = 0 ∧ win0_6.index t (1 : Fin 2) = t.val / 16)
    ∧ (win0_7.index t (0 : Fin 2) = 0 ∧ win0_7.index t (1 : Fin 2) = t.val / 16) :=
  (by decide +kernel : ∀ t : Fin grid0.N, _)

section Arr

variable (V : (c : Dev nD) → (b : Ref sig .tc) → Buf (Elt Ideal) ((c : Thread nD τ).loc b))

/-- Result 1 as one array: at column g the term's sum down the column. -/
abbrev G3 (c : Dev nD) : FVec Ideal S1x4096 .f32 := fun i => colsum (T3 V c) (i 1).val

/-- What a last row block writes back is its block of that array. -/
theorem flushed3_eq (c : Dev nD) (t : Fin cfg0.N) (hf : (cfg0.win 3).flush t = true) :
    (dat0 V c).flushed 3 t = ((cfg0.win 3).blk t).view.read (Elt Ideal) (G3 V c) := by
  have h15 : t.val % 16 = 15 := (flush0_3 t).mp hf
  obtain ⟨⟨e0, e1⟩, -⟩ := idx_out t
  show (cfg0.win 3).cut (grid0.coords t) ((dat0 V c).after 3 t) = _
  rw [after0_3]
  funext y
  have hy0 : (y 0).val < 1 := (y 0).isLt
  have hy1 : (y 1).val < 1024 := (y 1).isLt
  rw [View.read_apply]
  show ((outsAt0 V c t.val t.isLt).1 ((cfg0.win 3).xinj (grid0.coords t) y) : EReal) = G3 V c (((cfg0.win 3).blk t).view.emb y)
  have hx : (cfg0.win 3).xinj (grid0.coords t) y = ix2 (0 : Fin 1) (⟨(y 1).val, hy1⟩ : Fin 1024) := by
    funext a
    apply Fin.ext
    match a with
    | ⟨0, _⟩ => show (y 0).val = 0; omega
    | ⟨1, _⟩ => rfl
  rw [hx]
  refine (inv3 V c ⟨(y 1).val, hy1⟩ t.val t.isLt).trans ?_
  rw [h15]
  refine (last_sum (T3 V c) (y 1).val (t.val / 16)).trans ?_
  show colsum (T3 V c) _ = colsum (T3 V c) _
  refine congrArg (colsum (T3 V c)) ?_
  show 1024 * (t.val / 16) + (y 1).val = win0_3.index t (1 : Fin 2) * 1024 + 1 * (y 1).val
  rw [e1]; omega

/-- Every column lies in the block written back after its column block's last row block. -/
theorem cover3 (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  obtain ⟨t, ht⟩ : ∃ t : Fin cfg0.N, t.val = 16 * ((i 1).val / 1024) + 15 :=
    ⟨⟨16 * ((i 1).val / 1024) + 15, by rw [show cfg0.N = 64 from N_0]; omega⟩, rfl⟩
  obtain ⟨⟨e0, e1⟩, -⟩ := idx_out t
  refine ⟨t, (flush0_3 t).mpr (by omega), ?_⟩
  show i ∈ ((View.whole main_v0_0).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 1024 ≤ (i 1).val ∧ (i 1).val < win0_3.index t (1 : Fin 2) * 1024 + 1024
    rw [e1]; omega

/-- So result 1's array ends holding the column sums. -/
theorem final3 (c : Dev nD) : (dat0 V c).arrAt 3 cfg0.N = G3 V c :=
  (dat0 V c).arrAt_eq_of_cover 3 (G3 V c) (flushed3_eq V c) cover3

/-- Result 2 as one array: at column g the term's sum down the column. -/
abbrev G4 (c : Dev nD) : FVec Ideal S1x4096 .f32 := fun i => colsum (T4 V c) (i 1).val

/-- What a last row block writes back is its block of that array. -/
theorem flushed4_eq (c : Dev nD) (t : Fin cfg0.N) (hf : (cfg0.win 4).flush t = true) :
    (dat0 V c).flushed 4 t = ((cfg0.win 4).blk t).view.read (Elt Ideal) (G4 V c) := by
  have h15 : t.val % 16 = 15 := (flush0_4 t).mp hf
  obtain ⟨-, ⟨e0, e1⟩, -⟩ := idx_out t
  show (cfg0.win 4).cut (grid0.coords t) ((dat0 V c).after 4 t) = _
  rw [after0_4]
  funext y
  have hy0 : (y 0).val < 1 := (y 0).isLt
  have hy1 : (y 1).val < 1024 := (y 1).isLt
  rw [View.read_apply]
  show ((outsAt0 V c t.val t.isLt).2.1 ((cfg0.win 4).xinj (grid0.coords t) y) : EReal) = G4 V c (((cfg0.win 4).blk t).view.emb y)
  have hx : (cfg0.win 4).xinj (grid0.coords t) y = ix2 (0 : Fin 1) (⟨(y 1).val, hy1⟩ : Fin 1024) := by
    funext a
    apply Fin.ext
    match a with
    | ⟨0, _⟩ => show (y 0).val = 0; omega
    | ⟨1, _⟩ => rfl
  rw [hx]
  refine (inv4 V c ⟨(y 1).val, hy1⟩ t.val t.isLt).trans ?_
  rw [h15]
  refine (last_sum (T4 V c) (y 1).val (t.val / 16)).trans ?_
  show colsum (T4 V c) _ = colsum (T4 V c) _
  refine congrArg (colsum (T4 V c)) ?_
  show 1024 * (t.val / 16) + (y 1).val = win0_4.index t (1 : Fin 2) * 1024 + 1 * (y 1).val
  rw [e1]; omega

/-- Every column lies in the block written back after its column block's last row block. -/
theorem cover4 (i : S1x4096.Idx) :
    ∃ t : Fin cfg0.N, (cfg0.win 4).flush t = true ∧ i ∈ ((cfg0.win 4).blk t).view.set := by
  have hi0 : (i 0).val < 1 := (i 0).isLt
  have hi1 : (i 1).val < 4096 := (i 1).isLt
  obtain ⟨t, ht⟩ : ∃ t : Fin cfg0.N, t.val = 16 * ((i 1).val / 1024) + 15 :=
    ⟨⟨16 * ((i 1).val / 1024) + 15, by rw [show cfg0.N = 64 from N_0]; omega⟩, rfl⟩
  obtain ⟨-, ⟨e0, e1⟩, -⟩ := idx_out t
  refine ⟨t, (flush0_4 t).mpr (by omega), ?_⟩
  show i ∈ ((View.whole main_v0_1).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    rw [e0]; omega
  | ⟨1, _⟩ =>
    show win0_4.index t (1 : Fin 2) * 1024 ≤ (i 1).val ∧ (i 1).val < win0_4.index t (1 : Fin 2) * 1024 + 1024
    rw [e1]; omega

/-- So result 2's array ends holding the column sums. -/
theorem final4 (c : Dev nD) : (dat0 V c).arrAt 4 cfg0.N = G4 V c :=
  (dat0 V c).arrAt_eq_of_cover 4 (G4 V c) (flushed4_eq V c) cover4

/-- Result 3 as one array: at column g the term's sum down the column. -/
abbrev G5 (c : Dev nD) : FVec Ideal S1x4096 .f32 := fun i => colsum (T5 V c) (i 1).val

/-- What a last row block writes back is its block of that array. -/
theorem flushed5_eq (c : Dev nD) (t : Fin cfg0.N) (hf : (cfg0.win 5).flush t = true) :
    (dat0 V c).flushed 5 t = ((cfg0.win 5).blk t).view.read (Elt Ideal) (G5 V c) := by
  have h15 : t.val % 16 = 15 := (flush0_5 t).mp hf
  obtain ⟨-, -, ⟨e0, e1⟩, -⟩ := idx_out t
  show (cfg0.win 5).cut (grid0.coords t) ((dat0 V c).after 5 t) = _
  rw [after0_5]
  funext y
  have hy0 : (y 0).val < 1 := (y 0).isLt
  have hy1 : (y 1).val < 1024 := (y 1).isLt
  rw [View.read_apply]
  show ((outsAt0 V c t.val t.isLt).2.2.1 ((cfg0.win 5).xinj (grid0.coords t) y) : EReal) = G5 V c (((cfg0.win 5).blk t).view.emb y)
  have hx : (cfg0.win 5).xinj (grid0.coords t) y = ix2 (0 : Fin 1) (⟨(y 1).val, hy1⟩ : Fin 1024) := by
    funext a
    apply Fin.ext
    match a with
    | ⟨0, _⟩ => show (y 0).val = 0; omega
    | ⟨1, _⟩ => rfl
  rw [hx]
  refine (inv5 V c ⟨(y 1).val, hy1⟩ t.val t.isLt).trans ?_
  rw [h15]
  refine (last_sum (T5 V c) (y 1).val (t.val / 16)).trans ?_
  show colsum (T5 V c) _ = colsum (T5 V c) _
  refine congrArg (colsum (T5 V c)) ?_
  show 1024 * (t.val / 16) + (y 1).val = win0_5.index t (1 : Fin 2) * 1024 + 1 * (y 1).val
  rw [e1]; omega

/-- Every column lies in the block written back after its column block's last row block. -/
theorem cover5 (i : S1x4096.Idx) :
    ∃ t : Fin cfg0.N, (cfg0.win 5).flush t = true ∧ i ∈ ((cfg0.win 5).blk t).view.set := by
  have hi0 : (i 0).val < 1 := (i 0).isLt
  have hi1 : (i 1).val < 4096 := (i 1).isLt
  obtain ⟨t, ht⟩ : ∃ t : Fin cfg0.N, t.val = 16 * ((i 1).val / 1024) + 15 :=
    ⟨⟨16 * ((i 1).val / 1024) + 15, by rw [show cfg0.N = 64 from N_0]; omega⟩, rfl⟩
  obtain ⟨-, -, ⟨e0, e1⟩, -⟩ := idx_out t
  refine ⟨t, (flush0_5 t).mpr (by omega), ?_⟩
  show i ∈ ((View.whole main_v0_2).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 1024 ≤ (i 1).val ∧ (i 1).val < win0_5.index t (1 : Fin 2) * 1024 + 1024
    rw [e1]; omega

/-- So result 3's array ends holding the column sums. -/
theorem final5 (c : Dev nD) : (dat0 V c).arrAt 5 cfg0.N = G5 V c :=
  (dat0 V c).arrAt_eq_of_cover 5 (G5 V c) (flushed5_eq V c) cover5

/-- Result 4 as one array: at column g the term's sum down the column. -/
abbrev G6 (c : Dev nD) : FVec Ideal S1x4096 .f32 := fun i => colsum (T6 V c) (i 1).val

/-- What a last row block writes back is its block of that array. -/
theorem flushed6_eq (c : Dev nD) (t : Fin cfg0.N) (hf : (cfg0.win 6).flush t = true) :
    (dat0 V c).flushed 6 t = ((cfg0.win 6).blk t).view.read (Elt Ideal) (G6 V c) := by
  have h15 : t.val % 16 = 15 := (flush0_6 t).mp hf
  obtain ⟨-, -, -, ⟨e0, e1⟩, -⟩ := idx_out t
  show (cfg0.win 6).cut (grid0.coords t) ((dat0 V c).after 6 t) = _
  rw [after0_6]
  funext y
  have hy0 : (y 0).val < 1 := (y 0).isLt
  have hy1 : (y 1).val < 1024 := (y 1).isLt
  rw [View.read_apply]
  show ((outsAt0 V c t.val t.isLt).2.2.2.1 ((cfg0.win 6).xinj (grid0.coords t) y) : EReal) = G6 V c (((cfg0.win 6).blk t).view.emb y)
  have hx : (cfg0.win 6).xinj (grid0.coords t) y = ix2 (0 : Fin 1) (⟨(y 1).val, hy1⟩ : Fin 1024) := by
    funext a
    apply Fin.ext
    match a with
    | ⟨0, _⟩ => show (y 0).val = 0; omega
    | ⟨1, _⟩ => rfl
  rw [hx]
  refine (inv6 V c ⟨(y 1).val, hy1⟩ t.val t.isLt).trans ?_
  rw [h15]
  refine (last_sum (T6 V c) (y 1).val (t.val / 16)).trans ?_
  show colsum (T6 V c) _ = colsum (T6 V c) _
  refine congrArg (colsum (T6 V c)) ?_
  show 1024 * (t.val / 16) + (y 1).val = win0_6.index t (1 : Fin 2) * 1024 + 1 * (y 1).val
  rw [e1]; omega

/-- Every column lies in the block written back after its column block's last row block. -/
theorem cover6 (i : S1x4096.Idx) :
    ∃ t : Fin cfg0.N, (cfg0.win 6).flush t = true ∧ i ∈ ((cfg0.win 6).blk t).view.set := by
  have hi0 : (i 0).val < 1 := (i 0).isLt
  have hi1 : (i 1).val < 4096 := (i 1).isLt
  obtain ⟨t, ht⟩ : ∃ t : Fin cfg0.N, t.val = 16 * ((i 1).val / 1024) + 15 :=
    ⟨⟨16 * ((i 1).val / 1024) + 15, by rw [show cfg0.N = 64 from N_0]; omega⟩, rfl⟩
  obtain ⟨-, -, -, ⟨e0, e1⟩, -⟩ := idx_out t
  refine ⟨t, (flush0_6 t).mpr (by omega), ?_⟩
  show i ∈ ((View.whole main_v0_3).slice (win0_6.rect t)).set
  rw [View.set_slice_whole, Rect.mem_set_unit]
  intro a
  match a with
  | ⟨0, _⟩ =>
    show win0_6.index t (0 : Fin 2) * 1 ≤ (i 0).val ∧ (i 0).val < win0_6.index t (0 : Fin 2) * 1 + 1
    rw [e0]; omega
  | ⟨1, _⟩ =>
    show win0_6.index t (1 : Fin 2) * 1024 ≤ (i 1).val ∧ (i 1).val < win0_6.index t (1 : Fin 2) * 1024 + 1024
    rw [e1]; omega

/-- So result 4's array ends holding the column sums. -/
theorem final6 (c : Dev nD) : (dat0 V c).arrAt 6 cfg0.N = G6 V c :=
  (dat0 V c).arrAt_eq_of_cover 6 (G6 V c) (flushed6_eq V c) cover6

/-- Result 5 as one array: at column g the term's sum down the column. -/
abbrev G7 (c : Dev nD) : FVec Ideal S1x4096 .f32 := fun i => colsum (T7 V c) (i 1).val

/-- What a last row block writes back is its block of that array. -/
theorem flushed7_eq (c : Dev nD) (t : Fin cfg0.N) (hf : (cfg0.win 7).flush t = true) :
    (dat0 V c).flushed 7 t = ((cfg0.win 7).blk t).view.read (Elt Ideal) (G7 V c) := by
  have h15 : t.val % 16 = 15 := (flush0_7 t).mp hf
  obtain ⟨-, -, -, -, ⟨e0, e1⟩⟩ := idx_out t
  show (cfg0.win 7).cut (grid0.coords t) ((dat0 V c).after 7 t) = _
  rw [after0_7]
  funext y
  have hy0 : (y 0).val < 1 := (y 0).isLt
  have hy1 : (y 1).val < 1024 := (y 1).isLt
  rw [View.read_apply]
  show ((outsAt0 V c t.val t.isLt).2.2.2.2 ((cfg0.win 7).xinj (grid0.coords t) y) : EReal) = G7 V c (((cfg0.win 7).blk t).view.emb y)
  have hx : (cfg0.win 7).xinj (grid0.coords t) y = ix2 (0 : Fin 1) (⟨(y 1).val, hy1⟩ : Fin 1024) := by
    funext a
    apply Fin.ext
    match a with
    | ⟨0, _⟩ => show (y 0).val = 0; omega
    | ⟨1, _⟩ => rfl
  rw [hx]
  refine (inv7 V c ⟨(y 1).val, hy1⟩ t.val t.isLt).trans ?_
  rw [h15]
  refine (last_sum (T7 V c) (y 1).val (t.val / 16)).trans ?_
  show colsum (T7 V c) _ = colsum (T7 V c) _
  refine congrArg (colsum (T7 V c)) ?_
  show 1024 * (t.val / 16) + (y 1).val = win0_7.index t (1 : Fin 2) * 1024 + 1 * (y 1).val
  rw [e1]; omega

/-- Every column lies in the block written back after its column block's last row block. -/
theorem cover7 (i : S1x4096.Idx) :
    ∃ t : Fin cfg0.N, (cfg0.win 7).flush t = true ∧ i ∈ ((cfg0.win 7).blk t).view.set := by
  have hi0 : (i 0).val < 1 := (i 0).isLt
  have hi1 : (i 1).val < 4096 := (i 1).isLt
  obtain ⟨t, ht⟩ : ∃ t : Fin cfg0.N, t.val = 16 * ((i 1).val / 1024) + 15 :=
    ⟨⟨16 * ((i 1).val / 1024) + 15, by rw [show cfg0.N = 64 from N_0]; omega⟩, rfl⟩
  obtain ⟨-, -, -, -, ⟨e0, e1⟩⟩ := idx_out t
  refine ⟨t, (flush0_7 t).mpr (by omega), ?_⟩
  show i ∈ ((View.whole main_v0_4).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 1024 ≤ (i 1).val ∧ (i 1).val < win0_7.index t (1 : Fin 2) * 1024 + 1024
    rw [e1]; omega

/-- So result 5's array ends holding the column sums. -/
theorem final7 (c : Dev nD) : (dat0 V c).arrAt 7 cfg0.N = G7 V c :=
  (dat0 V c).arrAt_eq_of_cover 7 (G7 V c) (flushed7_eq V c) cover7

end Arr

/-! ## The five results at the region's exit -/

/-- A column sum over the natural rows is the sum over the array's rows. -/
theorem colsum_fin (T : ℕ → ℕ → EReal) (g : ℕ) : colsum T g = ∑ n : Fin 8192, T n.val g := by
  unfold colsum; exact Finset.sum_range fun n => T n g

/-- At the launch contents the first two terms are the feature and the scaled prediction. -/
theorem T3_launch (c : Dev nD) (n : Fin 8192) (g : Fin 4096) :
    T3 (V0 m ρ) c n.val g.val = Cert.Spec.feat (m ((c.tc : Thread nD τ).loc main_arg0)) n g := by
  unfold T3 Cert.Spec.feat
  exact ent_of_lt _ n g
theorem T4_launch (c : Dev nD) (n : Fin 8192) (g : Fin 4096) :
    T4 (V0 m ρ) c n.val g.val
      = Cert.Spec.scaled (m ((c.tc : Thread nD τ).loc main_arg1)) (m ((c.tc : Thread nD τ).loc main_arg4)) n g := by
  unfold T4 Cert.Spec.scaled
  exact congrArg₂ (· * ·) (ent_of_lt _ n g) (ent_of_lt _ n (0 : Fin 1))

/-- Column g of the first result: the sum of the features down the column. -/
theorem sum1 (c : Dev nD) (g : Fin 4096) :
    (W1 m ρ c (Proc.devRef .tc main_v0_0) (ix2 (0 : Fin 1) g) : EReal)
      = ∑ n : Fin 8192, Cert.Spec.feat (m ((c.tc : Thread nD τ).loc main_arg0)) n g := by
  have h : W1 m ρ c (Proc.devRef .tc main_v0_0) = G3 (V0 m ρ) c := (W1_arr m ρ c 3).trans (final3 (V0 m ρ) c)
  refine (congrFun h (ix2 (0 : Fin 1) g)).trans ?_
  show colsum (T3 (V0 m ρ) c) g.val = _
  rw [colsum_fin]
  exact Finset.sum_congr rfl fun n _ => T3_launch m ρ c n g
/-- Column g of the second result: the sum of the scaled predictions down the column. -/
theorem sum2 (c : Dev nD) (g : Fin 4096) :
    (W1 m ρ c (Proc.devRef .tc main_v0_1) (ix2 (0 : Fin 1) g) : EReal)
      = ∑ n : Fin 8192, Cert.Spec.scaled (m ((c.tc : Thread nD τ).loc main_arg1)) (m ((c.tc : Thread nD τ).loc main_arg4)) n g := by
  have h : W1 m ρ c (Proc.devRef .tc main_v0_1) = G4 (V0 m ρ) c := (W1_arr m ρ c 4).trans (final4 (V0 m ρ) c)
  refine (congrFun h (ix2 (0 : Fin 1) g)).trans ?_
  show colsum (T4 (V0 m ρ) c) g.val = _
  rw [colsum_fin]
  exact Finset.sum_congr rfl fun n _ => T4_launch m ρ c n g
/-- Column g of the third result: the sum of the squared features. -/
theorem sumsq1 (c : Dev nD) (g : Fin 4096) :
    (W1 m ρ c (Proc.devRef .tc main_v0_2) (ix2 (0 : Fin 1) g) : EReal)
      = ∑ n : Fin 8192, Cert.Spec.feat (m ((c.tc : Thread nD τ).loc main_arg0)) n g * Cert.Spec.feat (m ((c.tc : Thread nD τ).loc main_arg0)) n g := by
  have h : W1 m ρ c (Proc.devRef .tc main_v0_2) = G5 (V0 m ρ) c := (W1_arr m ρ c 5).trans (final5 (V0 m ρ) c)
  refine (congrFun h (ix2 (0 : Fin 1) g)).trans ?_
  show colsum (T5 (V0 m ρ) c) g.val = _
  rw [colsum_fin]
  refine Finset.sum_congr rfl fun n _ => ?_
  unfold T5
  rw [T3_launch m ρ c n g]
/-- Column g of the fourth result: the sum of the squared scaled predictions. -/
theorem sumsq2 (c : Dev nD) (g : Fin 4096) :
    (W1 m ρ c (Proc.devRef .tc main_v0_3) (ix2 (0 : Fin 1) g) : EReal)
      = ∑ n : Fin 8192, Cert.Spec.scaled (m ((c.tc : Thread nD τ).loc main_arg1)) (m ((c.tc : Thread nD τ).loc main_arg4)) n g * Cert.Spec.scaled (m ((c.tc : Thread nD τ).loc main_arg1)) (m ((c.tc : Thread nD τ).loc main_arg4)) n g := by
  have h : W1 m ρ c (Proc.devRef .tc main_v0_3) = G6 (V0 m ρ) c := (W1_arr m ρ c 6).trans (final6 (V0 m ρ) c)
  refine (congrFun h (ix2 (0 : Fin 1) g)).trans ?_
  show colsum (T6 (V0 m ρ) c) g.val = _
  rw [colsum_fin]
  refine Finset.sum_congr rfl fun n _ => ?_
  unfold T6
  rw [T4_launch m ρ c n g]
/-- Column g of the fifth result: the sum of feature times scaled prediction. -/
theorem sumcross (c : Dev nD) (g : Fin 4096) :
    (W1 m ρ c (Proc.devRef .tc main_v0_4) (ix2 (0 : Fin 1) g) : EReal)
      = ∑ n : Fin 8192, Cert.Spec.feat (m ((c.tc : Thread nD τ).loc main_arg0)) n g * Cert.Spec.scaled (m ((c.tc : Thread nD τ).loc main_arg1)) (m ((c.tc : Thread nD τ).loc main_arg4)) n g := by
  have h : W1 m ρ c (Proc.devRef .tc main_v0_4) = G7 (V0 m ρ) c := (W1_arr m ρ c 7).trans (final7 (V0 m ρ) c)
  refine (congrFun h (ix2 (0 : Fin 1) g)).trans ?_
  show colsum (T7 (V0 m ρ) c) g.val = _
  rw [colsum_fin]
  refine Finset.sum_congr rfl fun n _ => ?_
  unfold T7
  rw [T3_launch m ρ c n g, T4_launch m ρ c n g]

end Cert.KernelIdeal.Reg0

end
-- ==== Proof.KReg1Pieces.lean ====
/-
  What one grid point of the second kernel leaves in its one-entry result: at the first row block the sum over the
  point's 1024 rows of Pearson's r of the row of the first block against the same row of the second, at any other the
  earlier content plus that sum. The body's test of r against itself (a NaN test) never fires over the extended reals.
-/
import proofs.«172602_j30520037605625_1_alg».proof.Proof.Gen.KernelIdeal.Frame
import proofs.«172602_j30520037605625_1_alg».proof.Proof.Spec
import Idealize.ShloMosaic.Lib.Pipeline.Value
import Idealize.ShloMosaic.PureOps.Ideal.Laws

noncomputable section

namespace Cert.KernelIdeal.Reg1

open Idealize.ShloMosaic Idealize.ShloMosaic.TcCoe Idealize.SL.Sem Idealize.ShloMosaic.ValueIdx
open Cert.KernelIdeal Cert.KernelIdeal.Gen
open scoped BigOperators

/-- Pearson's r of row r of the two 1024 x 512 blocks. -/
def rowr (x0 x1 : FVec Ideal S1024x512 .f32) (r : Fin 1024) : EReal :=
  Cert.Spec.pearson Cert.Spec.w512 (fun k : Fin 512 => x0 (ix2 r k)) (fun k : Fin 512 => x1 (ix2 r k))

section Pieces
variable {F : FTy → Type} [FloatOps F]

/-- The zero offset of a whole-block access, as a constant function. -/
theorem hz : (![0, 0] : Fin 2 → Nat) = fun _ => 0 := funext fun a => match a with | ⟨0, _⟩ => rfl | ⟨1, _⟩ => rfl

/-- A later row block: the one covering store writes the earlier content plus the column sum of the per-row values. -/
theorem out_B_pay (c : Dev nD) (i : grid1.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond1_0 i) (x0 x1 : Vec F S1024x512 .f32) (xo2 : Vec F S1x1 .f32) :
    out1_B_2 c i arg1 harg1 arg2 harg2 arg3 harg3 hc0 x0 x1 xo2 = k1_pay1 (k1_pay3 x0 x1) xo2 := by
  unfold out1_B_2
  rw [View.read_writes_eq_canon _ _ _ (cover1_B_2 c i arg1 harg1 arg2 harg2 arg3 harg3 hc0 x0 x1 xo2)]
  unfold kernelRun1_B
  dsimp only
  sl_unfold_words
  rw [View.canon_unit_zero hz]
  simp only [View.readAt_eq_ld, harg1.read_unread, harg2.read_unread, harg3.read_unread, View.ld_unit_zero (S := S1x1) hz, View.ld_unit_zero (S := S1024x512) hz]

/-- The first row block: the zero store is read back, so the covering store writes zero plus the column sum. -/
theorem out_A_pay (c : Dev nD) (i : grid1.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond1_0 i) (x0 x1 : Vec F S1024x512 .f32) :
    out1_A_2 c i arg1 harg1 arg2 harg2 arg3 harg3 hc0 x0 x1 = k1_pay1 (k1_pay3 x0 x1) (k1_pay2 (F := F)) := by
  unfold out1_A_2
  rw [View.read_writes_eq_canon _ _ _ (cover1_A_2 c i arg1 harg1 arg2 harg2 arg3 harg3 hc0 x0 x1)]
  unfold kernelRun1_A
  dsimp only
  sl_unfold_words
  rw [View.canon_cons_unit_zero (S := S1x1) hz, View.readCov_unit_zero (S := S1x1) _ hz]
  simp only [View.readAt_eq_ld, harg1.read_unread, harg2.read_unread, View.ld_unit_zero (S := S1x1) hz, View.ld_unit_zero (S := S1024x512) hz]

end Pieces

section Reads

/-- The sum along the lanes of a 1024 x 512 block, read at row r: the sum over the 512 lanes. -/
theorem laneSum_apply (v : FVec Ideal S1024x512 .f32) (h : S1024x512.Reduces [1] S1024) (hφ : FTy.f32 = FTy.f32 ∨ FTy.f32 = FTy.bf16)
    (hacc : (0x00000000#32 : BitVec FTy.f32.bits) = 0x00000000#32) (r : Fin 1024) :
    multiReduction (F := Ideal) .add [1] S1024 v 0x00000000#32 h hφ hacc (ix1 r) = ∑ k : Fin 512, v (ix2 r k) := by
  refine (Ideal.multiReduction_add_single v _ h hφ hacc (ix1 r)).trans ?_
  refine Finset.sum_congr rfl fun k _ => congrArg v ?_
  funext a
  match a with
  | ⟨0, _⟩ => exact Fin.ext rfl
  | ⟨1, _⟩ => exact Fin.ext rfl

/-- The sum down the one column of a 1024 x 1 block: the sum over the 1024 rows. -/
theorem colSum_apply (v : FVec Ideal S1024x1 .f32) (h : S1024x1.Reduces [0] S1) (hφ : FTy.f32 = FTy.f32 ∨ FTy.f32 = FTy.bf16)
    (hacc : (0x00000000#32 : BitVec FTy.f32.bits) = 0x00000000#32) :
    multiReduction (F := Ideal) .add [0] S1 v 0x00000000#32 h hφ hacc (ix1 (0 : Fin 1)) = ∑ r : Fin 1024, v (ix2 r (0 : Fin 1)) := by
  refine (Ideal.multiReduction_add_single v _ h hφ hacc (ix1 (0 : Fin 1))).trans ?_
  refine Finset.sum_congr rfl fun r _ => congrArg v ?_
  funext a
  match a with
  | ⟨0, _⟩ => exact Fin.ext rfl
  | ⟨1, _⟩ => exact Fin.ext rfl

/-- A vector of 1024 entries recast as one column, read at row r. -/
theorem col_apply {α : Type} (v : S1024.Idx → α) (h : S1024.ShapeCasts S1024x1) (r : Fin 1024) :
    shapeCast S1024x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A one-entry vector recast as a 1 x 1 block. -/
theorem one_apply {α : Type} (v : S1.Idx → α) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_one, Shape.rowMajor_val_two]
    show (0 : ℕ) = 0 * 1 + 0
    omega)

/-- One column copied along the 512 lanes, read at row r, lane k. -/
theorem lanes_apply {α : Type} (v : S1024x1.Idx → α) (h : S1024x1.Broadcasts S1024x512) (r : Fin 1024) (k : Fin 512) :
    broadcastTo S1024x512 v h (ix2 r k) = v (ix2 r (0 : Fin 1)) :=
  broadcastTo_apply v h (ix2 r k) (ix2 r (0 : Fin 1)) (fun a => match a with
    | ⟨0, _⟩ => rfl
    | ⟨1, _⟩ => rfl)

/-- Over the extended reals a value never differs from itself, so the choice on that test keeps the value. -/
theorem selfTest (z a : EReal) : Scalar.select (FloatOps.cmpf (F := Ideal) (φ := .f32) .one a a) z a = a := by
  rw [Ideal.cmpf_def]
  have h0 : Ideal.cmp .one a a = 0#1 := by
    unfold Ideal.cmp
    simp
  rw [h0]
  exact select_zero z a

end Reads

section Row

/-- The root, entry by entry. -/
theorem sqrt_apply {s : Shape} (a : FVec Ideal s .f32) (i : s.Idx) : sqrt a i = Ideal.sqrt (a i) := rfl

/-- The body's per-row value at row r is Pearson's r of the two rows: the means, the deviations, the two variances
    and the covariance are lane sums over 512, and the test of the quotient against itself keeps the quotient. -/
theorem pay3_apply (x0 x1 : FVec Ideal S1024x512 .f32) (r : Fin 1024) :
    (k1_pay3 (F := Ideal) x0 x1 (ix2 r (0 : Fin 1)) : EReal) = rowr x0 x1 r := by
  unfold k1_pay3
  dsimp only
  simp only [select_apply, cmpf_apply, selfTest, divf_apply, mulf_apply, sqrt_apply, broadcast_apply, col_apply]
  rw [laneSum_apply, laneSum_apply, laneSum_apply]
  simp only [mulf_apply, subf_apply, lanes_apply, divf_apply, broadcast_apply, col_apply]
  rw [laneSum_apply x0, laneSum_apply x1]
  unfold rowr Cert.Spec.pearson
  rfl

/-- The stored entry: the block's content plus the sum over the 1024 rows of the per-row values. -/
theorem pay1_apply (v : FVec Ideal S1024x1 .f32) (o : FVec Ideal S1x1 .f32) :
    (k1_pay1 (F := Ideal) v o (ix2 (0 : Fin 1) (0 : Fin 1)) : EReal)
      = o (ix2 (0 : Fin 1) (0 : Fin 1)) + ∑ r : Fin 1024, v (ix2 r (0 : Fin 1)) := by
  unfold k1_pay1
  dsimp only
  rw [shapeCast_self]
  refine (addf_apply _ _ _).trans ?_
  rw [one_apply, colSum_apply]

/-- The zero block's entry is the extended real zero. -/
theorem pay2_apply : (k1_pay2 (F := Ideal) (ix2 (0 : Fin 1) (0 : Fin 1)) : EReal) = 0 := by
  unfold k1_pay2
  exact Ideal.ofBits_zero_f32

end Row

/-- The first row block leaves the sum of r over the block's rows. -/
theorem out_A_2 (c : Dev nD) (i : grid1.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : cond1_0 i) (x0 x1 : FVec Ideal S1024x512 .f32) :
    (out1_A_2 (F := Ideal) c i arg1 harg1 arg2 harg2 arg3 harg3 hc0 x0 x1 (ix2 (0 : Fin 1) (0 : Fin 1)) : EReal) = ∑ r : Fin 1024, rowr x0 x1 r := by
  refine (congrFun (out_A_pay (F := Ideal) c i arg1 harg1 arg2 harg2 arg3 harg3 hc0 x0 x1) (ix2 (0 : Fin 1) (0 : Fin 1))).trans ?_
  rw [pay1_apply, pay2_apply, zero_add]
  exact Finset.sum_congr rfl fun r _ => pay3_apply x0 x1 r
/-- A later row block adds the sum of r over the block's rows. -/
theorem out_B_2 (c : Dev nD) (i : grid1.Coords) (arg1 : Memref sig .tc .vmem S1024x512 .f32) (harg1 : arg1.IsWhole) (arg2 : Memref sig .tc .vmem S1024x512 .f32) (harg2 : arg2.IsWhole) (arg3 : Memref sig .tc .vmem S1x1 .f32) (harg3 : arg3.IsWhole) (hc0 : ¬cond1_0 i) (x0 x1 : FVec Ideal S1024x512 .f32) (xo2 : FVec Ideal S1x1 .f32) :
    (out1_B_2 (F := Ideal) c i arg1 harg1 arg2 harg2 arg3 harg3 hc0 x0 x1 xo2 (ix2 (0 : Fin 1) (0 : Fin 1)) : EReal)
      = xo2 (ix2 (0 : Fin 1) (0 : Fin 1)) + ∑ r : Fin 1024, rowr x0 x1 r := by
  refine (congrFun (out_B_pay (F := Ideal) c i arg1 harg1 arg2 harg2 arg3 harg3 hc0 x0 x1 xo2) (ix2 (0 : Fin 1) (0 : Fin 1))).trans ?_
  rw [pay1_apply]
  exact congrArg (xo2 (ix2 (0 : Fin 1) (0 : Fin 1)) + ·) (Finset.sum_congr rfl fun r _ => pay3_apply x0 x1 r)

end Cert.KernelIdeal.Reg1
end
-- ==== Proof.KReg1.lean ====
/-
  What the second kernel leaves in its one-entry result. The grid is 8 row blocks of 1024 rows; the entry is zeroed at
  the first and gains, at every row block, the sum over the block's rows of Pearson's r of that row of the first
  latent array against the same row of the second. After the last block it holds the sum over all 8192 rows.
-/
import proofs.«172602_j30520037605625_1_alg».proof.Proof.KReg1Pieces
import proofs.«172602_j30520037605625_1_alg».proof.Proof.Spec
import Idealize.ShloMosaic.Lib.Pipeline.Value
import Mathlib.Algebra.BigOperators.Fin

noncomputable section

namespace Cert.KernelIdeal.Reg1

open Idealize.ShloMosaic Idealize.ShloMosaic.TcCoe Idealize.SL.Sem Idealize.ShloMosaic.ValueIdx
open Cert.KernelIdeal Cert.KernelIdeal.Gen
open Idealize.ShloMosaic.Pipeline (Dat)
open scoped BigOperators

namespace Acc

/-! ## Sums over the rows, block by block -/

/-- A sum over the 8192 rows, taken as eight blocks of 1024 rows. -/
theorem sum_blocks (f : Fin 8192 → EReal) :
    ∑ t : Fin 8, ∑ r : Fin 1024, f ⟨1024 * t.val + r.val, by omega⟩ = ∑ i : Fin 8192, f i := by
  calc ∑ t : Fin 8, ∑ r : Fin 1024, f ⟨1024 * t.val + r.val, by omega⟩
      _ = ∑ p : Fin 8 × Fin 1024, f (finProdFinEquiv (m := 8) (n := 1024) p) := by
        rw [Fintype.sum_prod_type]
        refine Finset.sum_congr rfl fun t _ => Finset.sum_congr rfl fun r _ => congrArg f (Fin.ext ?_)
        show 1024 * t.val + r.val = r.val + 1024 * t.val
        omega
      _ = ∑ i : Fin 8192, f i := Equiv.sum_comp (finProdFinEquiv (m := 8) (n := 1024)) f

/-- The one index of a one-entry array. -/
theorem idx_one (j : S1x1.Idx) : j = ix2 (0 : Fin 1) (0 : Fin 1) :=
  (eq_ix2 j).trans (congrArg₂ (ix2 (n0 := 1) (n1 := 1)) (Fin.ext (Nat.lt_one_iff.mp (idx2_lt0 j))) (Fin.ext (Nat.lt_one_iff.mp (idx2_lt1 j))))

/-- Pearson's r of row i of two 8192 x 512 arrays. -/
def rowG (A B : FVec Ideal S8192x512 .f32) (i : Fin 8192) : EReal :=
  Cert.Spec.pearson Cert.Spec.w512 (fun k : Fin 512 => A (ix2 i k)) (fun k : Fin 512 => B (ix2 i k))

section Region

variable (V : (c : Dev nD) → (b : Ref sig .tc) → Buf (Elt Ideal) ((c : Thread nD τ).loc b))

/-- The two latent arrays as the region finds them. -/
abbrev latA (c : Dev nD) : FVec Ideal S8192x512 .f32 := V c main_arg2
abbrev latB (c : Dev nD) : FVec Ideal S8192x512 .f32 := V c main_arg3

/-- Both input windows step one block of 1024 rows per grid point and stay at column block 0. -/
theorem idx_0 : ∀ t : Fin grid1.N, win1_0.index t 0 = t.val ∧ win1_0.index t 1 = 0 := by decide +kernel
theorem idx_1 : ∀ t : Fin grid1.N, win1_1.index t 0 = t.val ∧ win1_1.index t 1 = 0 := by decide +kernel

set_option maxHeartbeats 400000 in
/-- Entry (r, k) of the first window's block at point t is entry (1024 t + r, k) of the first array. -/
theorem blkA_apply (c : Dev nD) (t : Fin cfg1.N) (r : Fin 1024) (k : Fin 512) (h : 1024 * t.val + r.val < 8192) :
    (iblk1 V c 0 t : FVec Ideal S1024x512 .f32) (ix2 r k) = latA V c (ix2 ⟨1024 * t.val + r.val, h⟩ k) := by
  unfold iblk1
  rw [View.read_apply]
  show V c main_arg2 _ = V c main_arg2 _
  refine congrArg _ ?_
  funext a
  apply Fin.ext
  match a with
  | ⟨0, _⟩ => show win1_0.index t 0 * 1024 + 1 * r.val = 1024 * t.val + r.val; rw [(idx_0 t).1]; omega
  | ⟨1, _⟩ => show win1_0.index t 1 * 512 + 1 * k.val = k.val; rw [(idx_0 t).2]; omega

set_option maxHeartbeats 400000 in
/-- The same for the second window and the second array. -/
theorem blkB_apply (c : Dev nD) (t : Fin cfg1.N) (r : Fin 1024) (k : Fin 512) (h : 1024 * t.val + r.val < 8192) :
    (iblk1 V c 1 t : FVec Ideal S1024x512 .f32) (ix2 r k) = latB V c (ix2 ⟨1024 * t.val + r.val, h⟩ k) := by
  unfold iblk1
  rw [View.read_apply]
  show V c main_arg3 _ = V c main_arg3 _
  refine congrArg _ ?_
  funext a
  apply Fin.ext
  match a with
  | ⟨0, _⟩ => show win1_1.index t 0 * 1024 + 1 * r.val = 1024 * t.val + r.val; rw [(idx_1 t).1]; omega
  | ⟨1, _⟩ => show win1_1.index t 1 * 512 + 1 * k.val = k.val; rw [(idx_1 t).2]; omega

/-- r of row r of the point's blocks is r of row 1024 t + r of the arrays. -/
theorem rowr_blk (c : Dev nD) (t : Fin cfg1.N) (r : Fin 1024) (h : 1024 * t.val + r.val < 8192) :
    rowr (iblk1 V c 0 t) (iblk1 V c 1 t) r = rowG (latA V c) (latB V c) ⟨1024 * t.val + r.val, h⟩ :=
  congrArg₂ (Cert.Spec.pearson Cert.Spec.w512)
    (funext fun k : Fin 512 => blkA_apply V c t r k h) (funext fun k : Fin 512 => blkB_apply V c t r k h)

/-- The sum of r over the rows of the blocks at point t. -/
def blkSum (c : Dev nD) (t : Fin cfg1.N) : EReal := ∑ r : Fin 1024, rowr (iblk1 V c 0 t) (iblk1 V c 1 t) r

/-- The running sum after point n. -/
def psum (c : Dev nD) : (n : ℕ) → n < cfg1.N → EReal
  | 0, h => blkSum V c ⟨0, h⟩
  | n + 1, h => psum c n (Nat.lt_of_succ_lt h) + blkSum V c ⟨n + 1, h⟩

set_option maxHeartbeats 400000 in
/-- The result's staging entry after point n is the running sum, by induction on the point. -/
theorem outsAt_eq (c : Dev nD) : ∀ (n : ℕ) (h : n < cfg1.N),
    (outsAt1 V c n h (ix2 (0 : Fin 1) (0 : Fin 1)) : EReal) = psum V c n h
  | 0, h =>
    (congrFun (outsAt1_A V c ⟨0, h⟩ rfl) (ix2 (0 : Fin 1) (0 : Fin 1))).trans
      (out_A_2 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩)
        ((hcond1_0 ⟨0, h⟩).mpr rfl) (iblk1 V c 0 ⟨0, h⟩) (iblk1 V c 1 ⟨0, h⟩))
  | n + 1, h => by
    have hN : cfg1.N = 8 := N_1
    have hB : ¬(⟨n + 1, h⟩ : Fin cfg1.N).val % 8 = 0 := by dsimp only; omega
    refine (congrFun (outsAt1_B V c ⟨n + 1, h⟩ hB) (ix2 (0 : Fin 1) (0 : Fin 1))).trans ?_
    refine (out_B_2 c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh))
      (iblk1 V c 0 ⟨n + 1, h⟩) (iblk1 V c 1 ⟨n + 1, h⟩) (outsAt1 V c n (Nat.lt_of_succ_lt h))).trans ?_
    show (outsAt1 V c n (Nat.lt_of_succ_lt h) (ix2 (0 : Fin 1) (0 : Fin 1)) : EReal) + blkSum V c ⟨n + 1, h⟩ = psum V c n _ + blkSum V c ⟨n + 1, h⟩
    rw [outsAt_eq c n]

/-- The running sum after point n is the sum of the block sums of the points up to n. -/
theorem psum_eq (c : Dev nD) : ∀ (n : ℕ) (h : n < cfg1.N),
    psum V c n h = ∑ t : Fin (n + 1), blkSum V c ⟨t.val, lt_of_lt_of_le t.isLt (Nat.succ_le_of_lt h)⟩
  | 0, h => by rw [Fin.sum_univ_one]; rfl
  | n + 1, h => by
    rw [Fin.sum_univ_castSucc]
    show psum V c n _ + blkSum V c ⟨n + 1, h⟩ = _
    rw [psum_eq c n]
    rfl

/-- The sum over all 8192 rows of r of the arrays' rows. -/
def total (c : Dev nD) : EReal := ∑ i : Fin 8192, rowG (latA V c) (latB V c) i

/-- After the last point the running sum is that sum. -/
theorem psum_last (c : Dev nD) (h : 7 < cfg1.N) : psum V c 7 h = total V c := by
  unfold total
  rw [psum_eq V c 7 h, ← sum_blocks]
  refine Finset.sum_congr rfl fun t _ => Finset.sum_congr rfl fun r _ => ?_
  exact rowr_blk V c ⟨t.val, lt_of_lt_of_le t.isLt (Nat.succ_le_of_lt h)⟩ r (by have := t.isLt; have := r.isLt; show 1024 * t.val + r.val < 8192; omega)

/-- What the result array ends holding: the sum, in its one entry. -/
abbrev result (c : Dev nD) : Buf (Elt Ideal) ((c : Thread nD τ).loc main_v33) :=
  fun _ => total V c

/-- The staging buffer after the last point. -/
theorem outs_last (c : Dev nD) (h : 7 < cfg1.N) : outsAt1 V c 7 h = result V c :=
  funext fun j => by
    obtain rfl := idx_one j
    exact (outsAt_eq V c 7 h).trans (psum_last V c h)

set_option maxHeartbeats 400000 in
/-- The one write-back, after the last point, writes it: the one block of the one-entry array is the array. -/
theorem flushed_eq (c : Dev nD) (t : Fin cfg1.N) (hf : (cfg1.win 2).flush t = true) :
    (dat1 V c).flushed 2 t = ((cfg1.win 2).blk t).view.read (Elt Ideal) (result V c) := by
  have hN : cfg1.N = 8 := N_1
  have h7 : t.val = 7 := by have := (flush1_2 t).mp hf; have := t.isLt; omega
  obtain rfl : t = t1_7 := Fin.ext h7
  show (cfg1.win 2).cut (grid1.coords t1_7) ((dat1 V c).after 2 t1_7) = _
  rw [after1_2, show outsAt1 V c t1_7.val t1_7.isLt = result V c from outs_last V c _]
  have hz' : (fun a => win1_2.index t1_7 a * main_v33.ty.shape.size a) = fun _ => 0 := funext fun a => by fin_cases a <;> decide
  exact (Memref.read_access_unit_zero (Elt Ideal) main_v33 hz' (fun a => by rw [congrFun hz' a]; simp) (result V c)).symm

set_option maxHeartbeats 400000 in
/-- So the result array ends holding the sum: the last point's block covers it. -/
theorem final (c : Dev nD) : (dat1 V c).arrAt 2 cfg1.N = result V c :=
  (dat1 V c).arrAt_eq_of_cover 2 (result V c) (flushed_eq V c) fun i =>
    ⟨t1_7, (flush1_2 t1_7).mpr rfl, by
      show i ∈ ((View.whole main_v33).slice (win1_2.rect t1_7)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_7 0 * win1_2.size 0 ≤ (i 0 : Nat) ∧ (i 0 : Nat) < win1_2.index t1_7 0 * win1_2.size 0 + win1_2.xsize (grid1.coords t1_7) 0
                  rw [show win1_2.index t1_7 0 * win1_2.size 0 = 0 from by decide +kernel, show win1_2.xsize (grid1.coords t1_7) 0 = 1 from by decide +kernel]; omega
      | ⟨1, _⟩ => show win1_2.index t1_7 1 * win1_2.size 1 ≤ (i 1 : Nat) ∧ (i 1 : Nat) < win1_2.index t1_7 1 * win1_2.size 1 + win1_2.xsize (grid1.coords t1_7) 1
                  rw [show win1_2.index t1_7 1 * win1_2.size 1 = 0 from by decide +kernel, show win1_2.xsize (grid1.coords t1_7) 1 = 1 from by decide +kernel]; omega⟩

end Region

/-! ## The region's entry contents at the two arguments: the launch contents -/

variable (m : (ℓ : Loc nD τ sig) → Buf (Elt Ideal) ℓ) (ρ : Dev nD → PrngReg)

/-- A stretch of host operations none of which writes the named buffer leaves it as it was. -/
local macro "host_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- No host operation between the regions writes the first latent array and no window of the first region is on it. -/
theorem V4_arg2 (c : Dev nD) : V4 m ρ c main_arg2 = m ((c : Thread nD τ).loc main_arg2) :=
  calc W4 m ρ c (Proc.devRef .tc main_arg2)
    _ = W3 m ρ c (Proc.devRef .tc main_arg2) := by host_keeps hostOps1_2
    _ = W2 m ρ c (Proc.devRef .tc main_arg2) := by host_keeps hostOps1_1
    _ = W1 m ρ c (Proc.devRef .tc main_arg2) := by host_keeps hostOps1
    _ = W0 m ρ c (Proc.devRef .tc main_arg2) := W1_of_ne m ρ c main_arg2 (by decide)
    _ = m ((c : Thread nD τ).loc main_arg2) := rfl

/-- The same for the second latent array. -/
theorem V4_arg3 (c : Dev nD) : V4 m ρ c main_arg3 = m ((c : Thread nD τ).loc main_arg3) :=
  calc W4 m ρ c (Proc.devRef .tc main_arg3)
    _ = W3 m ρ c (Proc.devRef .tc main_arg3) := by host_keeps hostOps1_2
    _ = W2 m ρ c (Proc.devRef .tc main_arg3) := by host_keeps hostOps1_1
    _ = W1 m ρ c (Proc.devRef .tc main_arg3) := by host_keeps hostOps1
    _ = W0 m ρ c (Proc.devRef .tc main_arg3) := W1_of_ne m ρ c main_arg3 (by decide)
    _ = m ((c : Thread nD τ).loc main_arg3) := rfl

end Acc

open Acc

variable (m : (ℓ : Loc nD τ sig) → Buf (Elt Ideal) ℓ) (ρ : Dev nD → PrngReg)

set_option maxHeartbeats 400000 in
/-- The second kernel's result entry: the sum over the rows of r of the two latent rows. -/
theorem sumr (c : Dev nD) :
    (W5 m ρ c (Proc.devRef .tc main_v33) (ix2 (0 : Fin 1) (0 : Fin 1)) : EReal)
      = ∑ i : Fin 8192, Cert.Spec.pearson Cert.Spec.w512
          (fun k : Fin 512 => m ((c.tc : Thread nD τ).loc main_arg2) (ix2 i k))
          (fun k : Fin 512 => m ((c.tc : Thread nD τ).loc main_arg3) (ix2 i k)) := by
  refine (congrFun ((W5_arr m ρ c 2).trans (final (V4 m ρ) c)) (ix2 (0 : Fin 1) (0 : Fin 1))).trans ?_
  show ∑ i : Fin 8192, rowG (V4 m ρ c main_arg2) (V4 m ρ c main_arg3) i = _
  rw [V4_arg2 m ρ c, V4_arg3 m ρ c]
  rfl

end Cert.KernelIdeal.Reg1

end
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.Algebra.lean ====
/-
  The two algebraic laws that join the two programs, over families of real numbers inside the extended reals, and the
  values of the float words of the counts.

  * One-pass statistics: for families x, y of N real numbers (N not zero), the covariance computed as the mean of the
    products minus the product of the means equals the mean of the products of deviations, and likewise each
    variance; so Pearson's r computed from the five sums (of x, y, x squared, y squared and x times y) is Pearson's r
    computed from deviations. Both are the same real numbers before the square roots and the last quotient are taken,
    so no case on a zero or negative variance is needed.
  * The sum of squared differences expands: over all positions, (y - x) squared sums to the sum of x squared minus
    twice the sum of x times y plus the sum of y squared, column by column.
  Both laws use distributivity, so they are stated for real entries.
-/
import proofs.«172602_j30520037605625_1_alg».proof.Proof.Spec
import proofs.«172602_j30520037605625_1_alg».proof.Proof.LibReal

noncomputable section

namespace Cert.Algebra

open Idealize.ShloMosaic Cert.RealLib
open scoped BigOperators

/-- The float words of the counts are those numbers. -/
theorem w8192_eq : Cert.Spec.w8192 = ((8192 : ℝ) : EReal) := by
  show Ideal.ofBits .f32 0x46000000#32 = _
  simp [Ideal.ofBits, Ideal.ieee, -EReal.coe_mul]; norm_num
theorem w4096_eq : Cert.Spec.w4096 = ((4096 : ℝ) : EReal) := by
  show Ideal.ofBits .f32 0x45800000#32 = _
  simp [Ideal.ofBits, Ideal.ieee, -EReal.coe_mul]; norm_num
theorem w2_eq : Ideal.ofBits .f32 0x40000000#32 = ((2 : ℝ) : EReal) := by
  simp [Ideal.ofBits, Ideal.ieee, -EReal.coe_mul]; norm_num

/-- The inclusion of the reals in the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the products minus the product of the means is the mean of the products of the
    deviations from the means (the count is the number of entries and is not zero). -/
theorem cov_onepass {ι : Type} [Fintype ι] (n : ℝ) (hn : (Fintype.card ι : ℝ) = n) (hn0 : n ≠ 0) (u v : ι → ℝ) :
    (∑ i, u i * v i) * (1 / n) - (∑ i, u i) * (1 / n) * ((∑ i, v i) * (1 / n))
      = (∑ i, (u i - (∑ i, u i) * (1 / n)) * (v i - (∑ i, v i) * (1 / n))) * (1 / n) := by
  generalize hS : (∑ i, u i) = S
  generalize hT : (∑ i, v i) = T
  have hexp : ∀ i, (u i - S * (1 / n)) * (v i - T * (1 / n))
      = u i * v i - (T * (1 / n)) * u i - (S * (1 / n)) * v i + S * (1 / n) * (T * (1 / n)) := fun i => by ring
  have hsum : (∑ i, (u i - S * (1 / n)) * (v i - T * (1 / n)))
      = (∑ i, u i * v i) - (T * (1 / n)) * S - (S * (1 / n)) * T + n * (S * (1 / n) * (T * (1 / n))) := by
    simp only [hexp, Finset.sum_add_distrib, Finset.sum_sub_distrib, ← Finset.mul_sum, Finset.sum_const,
      Finset.card_univ, nsmul_eq_mul, hn, hS, hT]
    ring
  rw [hsum]
  field_simp
  ring

/-- Pearson's r from the five sums is Pearson's r from deviations, for real entries and a count that is the
    number of entries. -/
theorem pearson_onepass {ι : Type} [Fintype ι] (N : EReal) (n : ℝ) (hN : N = (n : EReal)) (hn : (Fintype.card ι : ℝ) = n)
    (hn0 : n ≠ 0) (x y : ι → EReal) (hx : ∀ i, IsReal (x i)) (hy : ∀ i, IsReal (y i)) :
    Ideal.div (Ideal.div (∑ i, x i * y i) N - Ideal.div (∑ i, x i) N * Ideal.div (∑ i, y i) N)
      (Ideal.sqrt (Ideal.div (∑ i, x i * x i) N - Ideal.div (∑ i, x i) N * Ideal.div (∑ i, x i) N)
        * Ideal.sqrt (Ideal.div (∑ i, y i * y i) N - Ideal.div (∑ i, y i) N * Ideal.div (∑ i, y i) N))
      = Cert.Spec.pearson N x y := by
  subst hN
  have hx' : ∀ i, ∃ r : ℝ, x i = (r : EReal) := hx
  have hy' : ∀ i, ∃ r : ℝ, y i = (r : EReal) := hy
  choose a ha using hx'
  choose b hb using hy'
  obtain rfl : x = fun i => (a i : EReal) := funext ha
  obtain rfl : y = fun i => (b i : EReal) := funext hb
  unfold Cert.Spec.pearson
  simp only [Ideal.div_coe hn0, ← EReal.coe_mul, ← coe_sum, ← EReal.coe_sub]
  rw [cov_onepass n hn hn0 a b, cov_onepass n hn hn0 a a, cov_onepass n hn hn0 b b]

/-- Over the reals: the squared differences, summed over all positions, column by column. -/
theorem sq_expand_real {α β : Type} [Fintype α] [Fintype β] (u v : α → β → ℝ) :
    ∑ b, (((∑ a, u a b * u a b) - 2 * (∑ a, u a b * v a b)) + (∑ a, v a b * v a b))
      = ∑ a, ∑ b, (v a b - u a b) * (v a b - u a b) := by
  rw [Finset.sum_comm]
  refine Finset.sum_congr rfl fun b _ => ?_
  rw [Finset.mul_sum, ← Finset.sum_sub_distrib, ← Finset.sum_add_distrib]
  refine Finset.sum_congr rfl fun a _ => ?_
  ring

/-- The squared differences, summed over all positions, column by column from the three column sums. -/
theorem sq_expand_sum {α β : Type} [Fintype α] [Fintype β] (x y : α → β → EReal) (hx : ∀ a b, IsReal (x a b))
    (hy : ∀ a b, IsReal (y a b)) :
    ∑ b, (((∑ a, x a b * x a b) - Ideal.ofBits .f32 0x40000000#32 * (∑ a, x a b * y a b)) + (∑ a, y a b * y a b))
      = ∑ a, ∑ b, (y a b - x a b) * (y a b - x a b) := by
  have hx' : ∀ a b, ∃ r : ℝ, x a b = (r : EReal) := hx
  have hy' : ∀ a b, ∃ r : ℝ, y a b = (r : EReal) := hy
  choose u hu using hx'
  choose v hv using hy'
  obtain rfl : x = fun a b => (u a b : EReal) := funext fun a => funext fun b => hu a b
  obtain rfl : y = fun a b => (v a b : EReal) := funext fun a => funext fun b => hv a b
  rw [w2_eq]
  simp only [← EReal.coe_mul, ← coe_sum, ← EReal.coe_sub, ← EReal.coe_add]
  exact congrArg _ (sq_expand_real u v)

end Cert.Algebra

end
-- ==== Proof.KTail.lean ====
/-
  The kernel program's three results as functions of its arguments: the host operations between and after the two
  kernels read at their results, over what the kernels left.

  The host operations come in four stretches. The first turns the first kernel's five column sums (of the features,
  the scaled predictions, their squares and their product, each over the 8192 rows) into Pearson's r of every column,
  computed in one pass: the mean of the products minus the product of the means, over the product of the square roots
  of the two variances computed the same way; it then tests r for being unordered with itself. The second selects zero
  where that test holds; over the extended reals it never holds, so the selection is r. The third takes one minus the
  mean of the selection over the 4096 columns, and, from three of the column sums, the sum over the columns of the sum
  of squares minus twice the sum of products plus the sum of squares, over 2^25. The fourth takes one minus the
  second kernel's one entry over 8192.

  Each stretch is read once, over any contents before it, at the buffers that matter; the results follow by reading
  down the fold of contents, column by column, with the one-pass law for r and the expansion of a squared difference.
-/
import proofs.«172602_j30520037605625_1_alg».proof.Proof.KReg0
import proofs.«172602_j30520037605625_1_alg».proof.Proof.KReg1
import proofs.«172602_j30520037605625_1_alg».proof.Proof.Algebra
import Idealize.ShloMosaic.Lib.IdealHost

noncomputable section

namespace Cert.KernelIdeal.Tail

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ) (ρ : Dev nD → PrngReg)
open Cert.RealLib

/-! ## Small facts -/

/-- Every index of a one-by-one array is the origin. -/
theorem idx11 (k : (⟨2, ![1, 1]⟩ : Shape).Idx) : k = ix2 (0 : Fin 1) (0 : Fin 1) := by
  rw [eq_ix2 k]
  have h0 : k 0 = (0 : Fin 1) := Fin.ext (by have := idx2_lt0 k; show (k 0).val = 0; omega)
  have h1 : k 1 = (0 : Fin 1) := Fin.ext (by have := idx2_lt1 k; show (k 1).val = 0; omega)
  exact congrArg₂ ix2 h0 h1

/-- No extended real differs from itself: the test "unordered or unequal" of a value against itself is false. -/
theorem cmp_une_self (x : EReal) : Ideal.cmp .une x x = 0#1 := by simp [Ideal.cmp]

/-! ## The stretches, each over any contents before it -/

/-- Pearson's r from the five sums and the count, one pass. -/
def rOf (N s1 s2 q1 q2 x : EReal) : EReal :=
  Ideal.div (Ideal.div x N - Ideal.div s1 N * Ideal.div s2 N)
    (Ideal.sqrt (Ideal.div q1 N - Ideal.div s1 N * Ideal.div s1 N)
      * Ideal.sqrt (Ideal.div q2 N - Ideal.div s2 N * Ideal.div s2 N))

/-- A column's share of the sum of squared differences, from its three sums. -/
def sqOf (q1 x q2 : EReal) : EReal := (q1 - Ideal.ofBits .f32 0x40000000#32 * x) + q2

/-- The first stretch of host operations read at its last quotient: r from the five sums, at every index. -/
theorem ops1_v20 (V : Valuation τ sig (Elt Ideal)) :
    StableHlo.after (hostOps1 (F := Ideal)) V (Proc.devRef .tc main_v20)
      = fun j => rOf Cert.Spec.w8192 (V (Proc.devRef .tc main_v0_0) j) (V (Proc.devRef .tc main_v0_1) j)
          (V (Proc.devRef .tc main_v0_2) j) (V (Proc.devRef .tc main_v0_3) j) (V (Proc.devRef .tc main_v0_4) j) := by
  open StableHlo in after_results_simp
  funext j
  rfl

/-- The first stretch read at its test: false at every index. -/
theorem ops1_v21 (V : Valuation τ sig (Elt Ideal)) :
    StableHlo.after (hostOps1 (F := Ideal)) V (Proc.devRef .tc main_v21) = fun _ => 0#1 := by
  open StableHlo in after_results_simp
  funext j
  exact cmp_une_self _

/-- The first stretch writes none of the three column sums the mean squared error reads. -/
theorem ops1_keep (V : Valuation τ sig (Elt Ideal)) :
    StableHlo.after (hostOps1 (F := Ideal)) V (Proc.devRef .tc main_v0_2) = V (Proc.devRef .tc main_v0_2)
    ∧ StableHlo.after (hostOps1 (F := Ideal)) V (Proc.devRef .tc main_v0_3) = V (Proc.devRef .tc main_v0_3)
    ∧ StableHlo.after (hostOps1 (F := Ideal)) V (Proc.devRef .tc main_v0_4) = V (Proc.devRef .tc main_v0_4) := by
  refine ⟨?_, ?_, ?_⟩ <;> open StableHlo in after_results_simp

/-- The select, read at every index. -/
theorem ops11_v23 (V : Valuation τ sig (Elt Ideal)) :
    StableHlo.after (hostOps1_1 (F := Ideal)) V (Proc.devRef .tc main_v23)
      = fun j : S1x4096.Idx => Scalar.select (V (Proc.devRef .tc main_v21) j) (V (Proc.devRef .tc main_v22) j) (V (Proc.devRef .tc main_v20) j) := by
  open StableHlo in after_results
  rfl
/-- Nor does the select. -/
theorem ops11_keep (V : Valuation τ sig (Elt Ideal)) :
    StableHlo.after (hostOps1_1 (F := Ideal)) V (Proc.devRef .tc main_v0_2) = V (Proc.devRef .tc main_v0_2)
    ∧ StableHlo.after (hostOps1_1 (F := Ideal)) V (Proc.devRef .tc main_v0_3) = V (Proc.devRef .tc main_v0_3)
    ∧ StableHlo.after (hostOps1_1 (F := Ideal)) V (Proc.devRef .tc main_v0_4) = V (Proc.devRef .tc main_v0_4) := by
  refine ⟨?_, ?_, ?_⟩ <;> open StableHlo in after_results

/-- The third stretch read at the correlation loss: one minus the mean of the selected r over the columns. -/
theorem ops12_v26 (V : Valuation τ sig (Elt Ideal)) :
    StableHlo.after (hostOps1_2 (F := Ideal)) V (Proc.devRef .tc main_v26)
      = fun _ => Cert.Spec.w1 - Ideal.div (∑ g : Fin 4096, (V (Proc.devRef .tc main_v23) (ix2 (0 : Fin 1) g) : EReal)) Cert.Spec.w4096 := by
  open StableHlo in after_results_simp
  funext j
  show Cert.Spec.w1 - Ideal.div (Ideal.hostReduceAdd reducesTo_S1x4096_S_d0_1 (V (Proc.devRef .tc main_v23))
    (Ideal.ofBits .f32 0x00000000#32) j) Cert.Spec.w4096 = _
  rw [Ideal.hostReduceAdd_total _ (fun b => b.elim0), Ideal.ofBits_zero_f32, zero_add, sum_idx2, Fin.sum_univ_one]

/-- The third stretch read at the mean squared error: the column sums combined, summed over the columns, over 2^25. -/
theorem ops12_v32 (V : Valuation τ sig (Elt Ideal)) :
    StableHlo.after (hostOps1_2 (F := Ideal)) V (Proc.devRef .tc main_v32)
      = fun _ => Ideal.div (∑ g : Fin 4096, sqOf (V (Proc.devRef .tc main_v0_2) (ix2 (0 : Fin 1) g))
          (V (Proc.devRef .tc main_v0_4) (ix2 (0 : Fin 1) g)) (V (Proc.devRef .tc main_v0_3) (ix2 (0 : Fin 1) g))) Cert.Spec.w2p25 := by
  open StableHlo in after_results_simp
  funext j
  generalize hA : (addf (subf (V (Proc.devRef .tc main_v0_2))
            (mulf (broadcastInDim S1x4096 ![] bcast_S_S1x4096 (constant (F := Ideal) S_ FTy.f32 0x40000000#32))
              (V (Proc.devRef .tc main_v0_4))))
          (V (Proc.devRef .tc main_v0_3))) = A
  show Ideal.div (Ideal.hostReduceAdd reducesTo_S1x4096_S_d0_1 A (Ideal.ofBits .f32 0x00000000#32) j) Cert.Spec.w2p25 = _
  rw [Ideal.hostReduceAdd_total _ (fun b => b.elim0), Ideal.ofBits_zero_f32, zero_add, sum_idx2, Fin.sum_univ_one]
  subst hA
  refine congrArg (fun s => Ideal.div s Cert.Spec.w2p25) (Finset.sum_congr rfl fun g _ => ?_)
  rfl

/-- The last stretch writes neither of the two results before it. -/
theorem ops2_keep (V : Valuation τ sig (Elt Ideal)) :
    StableHlo.after (hostOps2 (F := Ideal)) V (Proc.devRef .tc main_v26) = V (Proc.devRef .tc main_v26)
    ∧ StableHlo.after (hostOps2 (F := Ideal)) V (Proc.devRef .tc main_v32) = V (Proc.devRef .tc main_v32) := by
  refine ⟨?_, ?_⟩ <;> open StableHlo in after_results

/-! ## The three results -/

/-- The first result: the latent similarity loss. -/
theorem v36 (c : Dev nD) :
    W6 m ρ c (Proc.devRef .tc main_v36)
      = fun _ => Cert.Spec.latent (m ((c.tc : Thread nD τ).loc main_arg2)) (m ((c.tc : Thread nD τ).loc main_arg3)) := by
  show StableHlo.after hostOps2 (W5 m ρ c) (Proc.devRef .tc main_v36) = _
  open StableHlo in after_results
  funext j
  have h33 := Reg1.sumr m ρ c
  generalize W5 m ρ c (Proc.devRef .tc main_v33) = x at h33 ⊢
  show Cert.Spec.w1 - Ideal.div (x (Shape.reshapeEquiv shapeCasts_S1x1_S_ j)) Cert.Spec.w8192 = _
  rw [idx11 (Shape.reshapeEquiv shapeCasts_S1x1_S_ j), h33]
  rfl

/-- The second result: the mean squared error, for real features, predictions and scales. -/
theorem v32 (c : Dev nD) (h0 : ∀ i, IsReal (m ((c.tc : Thread nD τ).loc main_arg0) i))
    (h1 : ∀ i, IsReal (m ((c.tc : Thread nD τ).loc main_arg1) i)) (h4 : ∀ i, IsReal (m ((c.tc : Thread nD τ).loc main_arg4) i)) :
    W6 m ρ c (Proc.devRef .tc main_v32)
      = fun _ => Cert.Spec.mse (m ((c.tc : Thread nD τ).loc main_arg0)) (m ((c.tc : Thread nD τ).loc main_arg1))
          (m ((c.tc : Thread nD τ).loc main_arg4)) := by
  have e1 : W6 m ρ c (Proc.devRef .tc main_v32) = W4 m ρ c (Proc.devRef .tc main_v32) :=
    (ops2_keep (W5 m ρ c)).2.trans (W5_of_ne m ρ c main_v32 (by decide))
  have k2 : W3 m ρ c (Proc.devRef .tc main_v0_2) = W1 m ρ c (Proc.devRef .tc main_v0_2) :=
    (ops11_keep (W2 m ρ c)).1.trans (ops1_keep (W1 m ρ c)).1
  have k3 : W3 m ρ c (Proc.devRef .tc main_v0_3) = W1 m ρ c (Proc.devRef .tc main_v0_3) :=
    (ops11_keep (W2 m ρ c)).2.1.trans (ops1_keep (W1 m ρ c)).2.1
  have k4 : W3 m ρ c (Proc.devRef .tc main_v0_4) = W1 m ρ c (Proc.devRef .tc main_v0_4) :=
    (ops11_keep (W2 m ρ c)).2.2.trans (ops1_keep (W1 m ρ c)).2.2
  rw [e1]
  show StableHlo.after hostOps1_2 (W3 m ρ c) (Proc.devRef .tc main_v32) = _
  rw [ops12_v32, k2, k3, k4]
  funext _
  unfold Cert.Spec.mse
  refine congrArg (fun s => Ideal.div s Cert.Spec.w2p25) ?_
  refine (Finset.sum_congr rfl fun g _ => by rw [Reg0.sumsq1, Reg0.sumcross, Reg0.sumsq2, sqOf]).trans ?_
  exact Cert.Algebra.sq_expand_sum
    (fun n g => Cert.Spec.feat (m ((c.tc : Thread nD τ).loc main_arg0)) n g)
    (fun n g => Cert.Spec.scaled (m ((c.tc : Thread nD τ).loc main_arg1)) (m ((c.tc : Thread nD τ).loc main_arg4)) n g)
    (fun _ _ => h0 _) (fun _ _ => (h1 _).mul (h4 _))

/-- Column g of the selection: Pearson's r of the feature column against the scaled-prediction column. -/
theorem col_r (c : Dev nD) (h0 : ∀ i, IsReal (m ((c.tc : Thread nD τ).loc main_arg0) i))
    (h1 : ∀ i, IsReal (m ((c.tc : Thread nD τ).loc main_arg1) i)) (h4 : ∀ i, IsReal (m ((c.tc : Thread nD τ).loc main_arg4) i))
    (g : Fin 4096) :
    (W3 m ρ c (Proc.devRef .tc main_v23) (ix2 (0 : Fin 1) g) : EReal)
      = Cert.Spec.pearson Cert.Spec.w8192 (fun n : Fin 8192 => m ((c.tc : Thread nD τ).loc main_arg0) (ix2 n g))
          (fun n : Fin 8192 => Cert.Spec.scaled (m ((c.tc : Thread nD τ).loc main_arg1)) (m ((c.tc : Thread nD τ).loc main_arg4)) n g) := by
  show StableHlo.after hostOps1_1 (W2 m ρ c) (Proc.devRef .tc main_v23) (ix2 (0 : Fin 1) g) = _
  rw [ops11_v23]
  show Scalar.select (StableHlo.after hostOps1 (W1 m ρ c) (Proc.devRef .tc main_v21) (ix2 (0 : Fin 1) g)) _
    (StableHlo.after hostOps1 (W1 m ρ c) (Proc.devRef .tc main_v20) (ix2 (0 : Fin 1) g)) = _
  rw [ops1_v21, ops1_v20]
  dsimp only
  rw [select_zero, Reg0.sum1, Reg0.sum2, Reg0.sumsq1, Reg0.sumsq2, Reg0.sumcross, rOf]
  exact Cert.Algebra.pearson_onepass Cert.Spec.w8192 8192 Cert.Algebra.w8192_eq (by simp) (by norm_num)
    (fun n => Cert.Spec.feat (m ((c.tc : Thread nD τ).loc main_arg0)) n g)
    (fun n => Cert.Spec.scaled (m ((c.tc : Thread nD τ).loc main_arg1)) (m ((c.tc : Thread nD τ).loc main_arg4)) n g)
    (fun _ => h0 _) (fun _ => (h1 _).mul (h4 _))

/-- The third result: the correlation loss, for real features, predictions and scales. -/
theorem v26 (c : Dev nD) (h0 : ∀ i, IsReal (m ((c.tc : Thread nD τ).loc main_arg0) i))
    (h1 : ∀ i, IsReal (m ((c.tc : Thread nD τ).loc main_arg1) i)) (h4 : ∀ i, IsReal (m ((c.tc : Thread nD τ).loc main_arg4) i)) :
    W6 m ρ c (Proc.devRef .tc main_v26)
      = fun _ => Cert.Spec.pcc (m ((c.tc : Thread nD τ).loc main_arg0)) (m ((c.tc : Thread nD τ).loc main_arg1))
          (m ((c.tc : Thread nD τ).loc main_arg4)) := by
  have e1 : W6 m ρ c (Proc.devRef .tc main_v26) = W4 m ρ c (Proc.devRef .tc main_v26) :=
    (ops2_keep (W5 m ρ c)).1.trans (W5_of_ne m ρ c main_v26 (by decide))
  rw [e1]
  show StableHlo.after hostOps1_2 (W3 m ρ c) (Proc.devRef .tc main_v26) = _
  rw [ops12_v26]
  funext _
  unfold Cert.Spec.pcc
  exact congrArg (fun s => Cert.Spec.w1 - Ideal.div s Cert.Spec.w4096)
    (Finset.sum_congr rfl fun g _ => col_r m ρ c h0 h1 h4 g)

end Cert.KernelIdeal.Tail

end
-- ==== Proof.Finite.lean ====
/-
  The precondition says of each float argument that every entry's absolute value is below +infinity; so every entry
  of the features, the predictions and the scales is a real number.
-/
import proofs.«172602_j30520037605625_1_alg».proof.Defs
import proofs.«172602_j30520037605625_1_alg».proof.Proof.Gen.Pre_finite_inputs
import proofs.«172602_j30520037605625_1_alg».proof.Proof.LibReal

noncomputable section

namespace Cert.Finite

open Idealize.ShloMosaic Idealize.ShloMosaic.TcCoe Idealize.SL.Sem Cert.RealLib Cert.KernelIdeal

/-- Under the precondition the features (argument 0), the predictions (argument 1) and the scales (argument 4) hold
    real numbers only. -/
theorem real_of_pre (m : (ℓ : Loc nD τ sig) → Buf (Elt Ideal) ℓ) (h : Cert.Pre_KernelIdeal m) (c : Dev nD) :
    (∀ i, IsReal (m ((c.tc : Thread nD τ).loc main_arg0) i))
    ∧ (∀ i, IsReal (m ((c.tc : Thread nD τ).loc main_arg1) i))
    ∧ (∀ i, IsReal (m ((c.tc : Thread nD τ).loc main_arg4) i)) := by
  -- the predicate's one word is the conjunction of the five tests "every |entry| is below +infinity"
  have h0 := congrFun (h c) ValueIdx.ix0
  dsimp only [Cert.Pre_finite_inputs.fn, Cert.Pre_finite_inputs.fn_part1, Idealize.ShloMosaic.andi] at h0
  obtain ⟨h0123, t4⟩ := IntOp.andi_eq_one.1 h0
  obtain ⟨h012, _⟩ := IntOp.andi_eq_one.1 h0123
  obtain ⟨h01, _⟩ := IntOp.andi_eq_one.1 h012
  obtain ⟨t0, t1⟩ := IntOp.andi_eq_one.1 h01
  -- each test that came out true leaves real entries only
  exact ⟨allReal_of_all_abs_lt_inf _ _ _ _ _ t0, allReal_of_all_abs_lt_inf _ _ _ _ _ t1,
    allReal_of_all_abs_lt_inf _ _ _ _ _ t4⟩

end Cert.Finite

end
-- ==== Proof.ROps.lean ====
import proofs.«172602_j30520037605625_1_alg».proof.Proof.Gen.ReferenceIdeal
import Idealize.ShloMosaic.Lib.StableHlo.Run

noncomputable section

namespace Cert.ReferenceIdeal.ROps

open Idealize.ShloMosaic Idealize.ShloMosaic.TcCoe Cert.ReferenceIdeal Cert.ReferenceIdeal.Gen

variable {F : FTy → Type} [FloatOps F]

/-- Stretch 0 (main): 43 operations. -/
abbrev s0 : List (HloOp τ sig (Elt F)) :=
  [ StableHlo.unary main_arg4 main_v0 (broadcastInDim S8192x4096 ![0, 1] bcast_S8192x1_S8192x4096_0_1 : (⟨S8192x1, .f32⟩ : BufTy).Contents (Elt F) → (⟨S8192x4096, .f32⟩ : BufTy).Contents (Elt F)),
    StableHlo.binary main_arg1 main_v0 main_v1 (mulf : (⟨S8192x4096, .f32⟩ : BufTy).Contents (Elt F) → (⟨S8192x4096, .f32⟩ : BufTy).Contents (Elt F) → (⟨S8192x4096, .f32⟩ : BufTy).Contents (Elt F)),
    StableHlo.nullary main_cst (constant S_ .f32 0x00000000#32),
    StableHlo.binary main_arg2 main_cst main_v2 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v2 main_v3 (broadcastInDim S8192x1 ![0] bcast_S8192_S8192x1_0 : (⟨S8192, .f32⟩ : BufTy).Contents (Elt F) → (⟨S8192x1, .f32⟩ : BufTy).Contents (Elt F)),
    StableHlo.nullary main_cst_0 (constant S_ .f32 0x44000000#32),
    StableHlo.unary main_cst_0 main_v4 (broadcastInDim S8192x1 ![] bcast_S_S8192x1 : (⟨S_, .f32⟩ : BufTy).Contents (Elt F) → (⟨S8192x1, .f32⟩ : BufTy).Contents (Elt F)),
    StableHlo.binary main_v3 main_v4 main_v5 (Host.divf : (⟨S8192x1, .f32⟩ : BufTy).Contents (Elt F) → (⟨S8192x1, .f32⟩ : BufTy).Contents (Elt F) → (⟨S8192x1, .f32⟩ : BufTy).Contents (Elt F)),
    StableHlo.nullary main_cst_1 (constant S_ .f32 0x00000000#32),
    StableHlo.binary main_arg3 main_cst_1 main_v6 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.unary main_v6 main_v7 (broadcastInDim S8192x1 ![0] bcast_S8192_S8192x1_0 : (⟨S8192, .f32⟩ : BufTy).Contents (Elt F) → (⟨S8192x1, .f32⟩ : BufTy).Contents (Elt F)),
    StableHlo.nullary main_cst_2 (constant S_ .f32 0x44000000#32),
    StableHlo.unary main_cst_2 main_v8 (broadcastInDim S8192x1 ![] bcast_S_S8192x1 : (⟨S_, .f32⟩ : BufTy).Contents (Elt F) → (⟨S8192x1, .f32⟩ : BufTy).Contents (Elt F)),
    StableHlo.binary main_v7 main_v8 main_v9 (Host.divf : (⟨S8192x1, .f32⟩ : BufTy).Contents (Elt F) → (⟨S8192x1, .f32⟩ : BufTy).Contents (Elt F) → (⟨S8192x1, .f32⟩ : BufTy).Contents (Elt F)),
    StableHlo.unary main_v5 main_v10 (broadcastInDim S8192x512 ![0, 1] bcast_S8192x1_S8192x512_0_1 : (⟨S8192x1, .f32⟩ : BufTy).Contents (Elt F) → (⟨S8192x512, .f32⟩ : BufTy).Contents (Elt F)),
    StableHlo.binary main_arg2 main_v10 main_v11 (subf : (⟨S8192x512, .f32⟩ : BufTy).Contents (Elt F) → (⟨S8192x512, .f32⟩ : BufTy).Contents (Elt F) → (⟨S8192x512, .f32⟩ : BufTy).Contents (Elt F)),
    StableHlo.unary main_v9 main_v12 (broadcastInDim S8192x512 ![0, 1] bcast_S8192x1_S8192x512_0_1 : (⟨S8192x1, .f32⟩ : BufTy).Contents (Elt F) → (⟨S8192x512, .f32⟩ : BufTy).Contents (Elt F)),
    StableHlo.binary main_arg3 main_v12 main_v13 (subf : (⟨S8192x512, .f32⟩ : BufTy).Contents (Elt F) → (⟨S8192x512, .f32⟩ : BufTy).Contents (Elt F) → (⟨S8192x512, .f32⟩ : BufTy).Contents (Elt F)),
    StableHlo.binary main_v11 main_v11 main_v14 (mulf : (⟨S8192x512, .f32⟩ : BufTy).Contents (Elt F) → (⟨S8192x512, .f32⟩ : BufTy).Contents (Elt F) → (⟨S8192x512, .f32⟩ : BufTy).Contents (Elt F)),
    StableHlo.nullary main_cst_3 (constant S_ .f32 0x00000000#32),
    StableHlo.binary main_v14 main_cst_3 main_v15 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_4 (constant S_ .f32 0x44000000#32),
    StableHlo.unary main_cst_4 main_v16 (broadcastInDim S8192 ![] bcast_S_S8192 : (⟨S_, .f32⟩ : BufTy).Contents (Elt F) → (⟨S8192, .f32⟩ : BufTy).Contents (Elt F)),
    StableHlo.binary main_v15 main_v16 main_v17 (Host.divf : (⟨S8192, .f32⟩ : BufTy).Contents (Elt F) → (⟨S8192, .f32⟩ : BufTy).Contents (Elt F) → (⟨S8192, .f32⟩ : BufTy).Contents (Elt F)),
    StableHlo.unary main_v17 main_v18 (Host.sqrt : (⟨S8192, .f32⟩ : BufTy).Contents (Elt F) → (⟨S8192, .f32⟩ : BufTy).Contents (Elt F)),
    StableHlo.binary main_v13 main_v13 main_v19 (mulf : (⟨S8192x512, .f32⟩ : BufTy).Contents (Elt F) → (⟨S8192x512, .f32⟩ : BufTy).Contents (Elt F) → (⟨S8192x512, .f32⟩ : BufTy).Contents (Elt F)),
    StableHlo.nullary main_cst_5 (constant S_ .f32 0x00000000#32),
    StableHlo.binary main_v19 main_cst_5 main_v20 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_6 (constant S_ .f32 0x44000000#32),
    StableHlo.unary main_cst_6 main_v21 (broadcastInDim S8192 ![] bcast_S_S8192 : (⟨S_, .f32⟩ : BufTy).Contents (Elt F) → (⟨S8192, .f32⟩ : BufTy).Contents (Elt F)),
    StableHlo.binary main_v20 main_v21 main_v22 (Host.divf : (⟨S8192, .f32⟩ : BufTy).Contents (Elt F) → (⟨S8192, .f32⟩ : BufTy).Contents (Elt F) → (⟨S8192, .f32⟩ : BufTy).Contents (Elt F)),
    StableHlo.unary main_v22 main_v23 (Host.sqrt : (⟨S8192, .f32⟩ : BufTy).Contents (Elt F) → (⟨S8192, .f32⟩ : BufTy).Contents (Elt F)),
    StableHlo.binary main_v11 main_v13 main_v24 (mulf : (⟨S8192x512, .f32⟩ : BufTy).Contents (Elt F) → (⟨S8192x512, .f32⟩ : BufTy).Contents (Elt F) → (⟨S8192x512, .f32⟩ : BufTy).Contents (Elt F)),
    StableHlo.nullary main_cst_7 (constant S_ .f32 0x00000000#32),
    StableHlo.binary main_v24 main_cst_7 main_v25 ((fun x v => Host.reduceAdd x v reducesTo_S8192x512_S8192_d1 h_S_) : (⟨S8192x512, .f32⟩ : BufTy).Contents (Elt F) → (⟨S_, .f32⟩ : BufTy).Contents (Elt F) → (⟨S8192, .f32⟩ : BufTy).Contents (Elt F)),
    StableHlo.nullary main_cst_8 (constant S_ .f32 0x44000000#32),
    StableHlo.unary main_cst_8 main_v26 (broadcastInDim S8192 ![] bcast_S_S8192 : (⟨S_, .f32⟩ : BufTy).Contents (Elt F) → (⟨S8192, .f32⟩ : BufTy).Contents (Elt F)),
    StableHlo.binary main_v25 main_v26 main_v27 (Host.divf : (⟨S8192, .f32⟩ : BufTy).Contents (Elt F) → (⟨S8192, .f32⟩ : BufTy).Contents (Elt F) → (⟨S8192, .f32⟩ : BufTy).Contents (Elt F)),
    StableHlo.binary main_v18 main_v23 main_v28 (mulf : (⟨S8192, .f32⟩ : BufTy).Contents (Elt F) → (⟨S8192, .f32⟩ : BufTy).Contents (Elt F) → (⟨S8192, .f32⟩ : BufTy).Contents (Elt F)),
    StableHlo.binary main_v27 main_v28 main_v29 (Host.divf : (⟨S8192, .f32⟩ : BufTy).Contents (Elt F) → (⟨S8192, .f32⟩ : BufTy).Contents (Elt F) → (⟨S8192, .f32⟩ : BufTy).Contents (Elt F)),
    StableHlo.binary main_v29 main_v29 main_v30 (cmpf .une : (⟨S8192, .f32⟩ : BufTy).Contents (Elt F) → (⟨S8192, .f32⟩ : BufTy).Contents (Elt F) → (⟨S8192, .i1⟩ : BufTy).Contents (Elt F)),
    StableHlo.nullary main_cst_9 (constant S_ .f32 0x00000000#32),
    StableHlo.unary main_cst_9 main_v31 (broadcastInDim S8192 ![] bcast_S_S8192 : (⟨S_, .f32⟩ : BufTy).Contents (Elt F) → (⟨S8192, .f32⟩ : BufTy).Contents (Elt F)) ]

/-- Stretch 1 (call main_call0): 1 operations. -/
abbrev s1 : List (HloOp τ sig (Elt F)) :=
  [ StableHlo.TRef.ternary (.of main_v30 : StableHlo.TRef sig ⟨S8192, .i1⟩) (.of main_v31 : StableHlo.TRef sig ⟨S8192, .f32⟩) (.of main_v29 : StableHlo.TRef sig ⟨S8192, .f32⟩) (.of main_v32 : StableHlo.TRef sig ⟨S8192, .f32⟩) select ]

/-- Stretch 2 (call main_call1): 13 operations. -/
abbrev s2 : List (HloOp τ sig (Elt F)) :=
  [ StableHlo.TRef.binary (.of main_v32 : StableHlo.TRef sig ⟨S8192, .f32⟩) (.of main_v32 : StableHlo.TRef sig ⟨S8192, .f32⟩) (.of main_call1_v0 : StableHlo.TRef sig ⟨S8192, .i1⟩) (cmpf .une),
    StableHlo.TRef.unary (.of main_call1_v0 : StableHlo.TRef sig ⟨S8192, .i1⟩) (.of main_call1_v1 : StableHlo.TRef sig ⟨S8192, .i1⟩) noti,
    StableHlo.TRef.unary (.of main_call1_v1 : StableHlo.TRef sig ⟨S8192, .i1⟩) (.of main_call1_v2 : StableHlo.TRef sig ⟨S8192, .i32⟩) (extui 32 · natLt_1_32),
    StableHlo.TRef.unary (.of main_call1_v2 : StableHlo.TRef sig ⟨S8192, .i32⟩) (.of main_call1_v3 : StableHlo.TRef sig ⟨S8192, .f32⟩) (sitofp .f32),
    StableHlo.TRef.nullary (.of main_call1_cst : StableHlo.TRef sig ⟨S_, .f32⟩) (constant S_ .f32 0x00000000#32),
    StableHlo.TRef.binary (.of main_call1_v3 : StableHlo.TRef sig ⟨S8192, .f32⟩) (.of main_call1_cst : StableHlo.TRef sig ⟨S_, .f32⟩) (.of main_call1_v4 : StableHlo.TRef sig ⟨S_, .f32⟩) (fun x v => Host.reduceAdd x v reducesTo_S8192_S_d0 h_S_),
    StableHlo.TRef.binary (.of main_v32 : StableHlo.TRef sig ⟨S8192, .f32⟩) (.of main_v32 : StableHlo.TRef sig ⟨S8192, .f32⟩) (.of main_call1_call0_v0 : StableHlo.TRef sig ⟨S8192, .i1⟩) (cmpf .une),
    StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_call0_v0 : StableHlo.TRef sig ⟨S8192, .f32⟩) (broadcastInDim S8192 ![] bcast_S_S8192),
    StableHlo.TRef.ternary (.of main_call1_call0_v0 : StableHlo.TRef sig ⟨S8192, .i1⟩) (.of main_call1_call0_call0_v0 : StableHlo.TRef sig ⟨S8192, .f32⟩) (.of main_v32 : StableHlo.TRef sig ⟨S8192, .f32⟩) (.of main_call1_call0_v1 : StableHlo.TRef sig ⟨S8192, .f32⟩) select,
    StableHlo.TRef.nullary (.of main_call1_call0_cst_0 : StableHlo.TRef sig ⟨S_, .f32⟩) (constant S_ .f32 0x00000000#32),
    StableHlo.TRef.binary (.of main_call1_call0_v1 : StableHlo.TRef sig ⟨S8192, .f32⟩) (.of main_call1_call0_cst_0 : StableHlo.TRef sig ⟨S_, .f32⟩) (.of main_call1_v5 : StableHlo.TRef sig ⟨S_, .f32⟩) (fun x v => Host.reduceAdd x v reducesTo_S8192_S_d0 h_S_),
    StableHlo.TRef.binary (.of main_call1_v5 : StableHlo.TRef sig ⟨S_, .f32⟩) (.of main_call1_v4 : StableHlo.TRef sig ⟨S_, .f32⟩) (.of main_v33 : StableHlo.TRef sig ⟨S_, .f32⟩) Host.divf ]

/-- Stretch 3 (main): 15 operations. -/
abbrev s3 : List (HloOp τ sig (Elt F)) :=
  [ StableHlo.nullary main_cst_10 (constant S_ .f32 0x3F800000#32),
    StableHlo.binary main_cst_10 main_v33 main_v34 (subf : (⟨S_, .f32⟩ : BufTy).Contents (Elt F) → (⟨S_, .f32⟩ : BufTy).Contents (Elt F) → (⟨S_, .f32⟩ : BufTy).Contents (Elt F)),
    StableHlo.unary main_arg0 main_v35 ((transpose S4096x8192 [1, 0] · transposes_S8192x4096_S4096x8192_1_0) : (⟨S8192x4096, .f32⟩ : BufTy).Contents (Elt F) → (⟨S4096x8192, .f32⟩ : BufTy).Contents (Elt F)),
    StableHlo.unary main_v1 main_v36 ((transpose S4096x8192 [1, 0] · transposes_S8192x4096_S4096x8192_1_0) : (⟨S8192x4096, .f32⟩ : BufTy).Contents (Elt F) → (⟨S4096x8192, .f32⟩ : BufTy).Contents (Elt F)),
    StableHlo.nullary main_cst_11 (constant S_ .f32 0x00000000#32),
    StableHlo.binary main_v35 main_cst_11 main_v37 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.unary main_v37 main_v38 (broadcastInDim S4096x1 ![0] bcast_S4096_S4096x1_0 : (⟨S4096, .f32⟩ : BufTy).Contents (Elt F) → (⟨S4096x1, .f32⟩ : BufTy).Contents (Elt F)),
    StableHlo.nullary main_cst_12 (constant S_ .f32 0x46000000#32),
    StableHlo.unary main_cst_12 main_v39 (broadcastInDim S4096x1 ![] bcast_S_S4096x1 : (⟨S_, .f32⟩ : BufTy).Contents (Elt F) → (⟨S4096x1, .f32⟩ : BufTy).Contents (Elt F)),
    StableHlo.binary main_v38 main_v39 main_v40 (Host.divf : (⟨S4096x1, .f32⟩ : BufTy).Contents (Elt F) → (⟨S4096x1, .f32⟩ : BufTy).Contents (Elt F) → (⟨S4096x1, .f32⟩ : BufTy).Contents (Elt F)),
    StableHlo.nullary main_cst_13 (constant S_ .f32 0x00000000#32),
    StableHlo.binary main_v36 main_cst_13 main_v41 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.unary main_v41 main_v42 (broadcastInDim S4096x1 ![0] bcast_S4096_S4096x1_0 : (⟨S4096, .f32⟩ : BufTy).Contents (Elt F) → (⟨S4096x1, .f32⟩ : BufTy).Contents (Elt F)),
    StableHlo.nullary main_cst_14 (constant S_ .f32 0x46000000#32),
    StableHlo.unary main_cst_14 main_v43 (broadcastInDim S4096x1 ![] bcast_S_S4096x1 : (⟨S_, .f32⟩ : BufTy).Contents (Elt F) → (⟨S4096x1, .f32⟩ : BufTy).Contents (Elt F)) ]

/-- Stretch 4 (main): 30 operations. -/
abbrev s4 : List (HloOp τ sig (Elt F)) :=
  [ StableHlo.binary main_v42 main_v43 main_v44 (Host.divf : (⟨S4096x1, .f32⟩ : BufTy).Contents (Elt F) → (⟨S4096x1, .f32⟩ : BufTy).Contents (Elt F) → (⟨S4096x1, .f32⟩ : BufTy).Contents (Elt F)),
    StableHlo.unary main_v40 main_v45 (broadcastInDim S4096x8192 ![0, 1] bcast_S4096x1_S4096x8192_0_1 : (⟨S4096x1, .f32⟩ : BufTy).Contents (Elt F) → (⟨S4096x8192, .f32⟩ : BufTy).Contents (Elt F)),
    StableHlo.binary main_v35 main_v45 main_v46 (subf : (⟨S4096x8192, .f32⟩ : BufTy).Contents (Elt F) → (⟨S4096x8192, .f32⟩ : BufTy).Contents (Elt F) → (⟨S4096x8192, .f32⟩ : BufTy).Contents (Elt F)),
    StableHlo.unary main_v44 main_v47 (broadcastInDim S4096x8192 ![0, 1] bcast_S4096x1_S4096x8192_0_1 : (⟨S4096x1, .f32⟩ : BufTy).Contents (Elt F) → (⟨S4096x8192, .f32⟩ : BufTy).Contents (Elt F)),
    StableHlo.binary main_v36 main_v47 main_v48 (subf : (⟨S4096x8192, .f32⟩ : BufTy).Contents (Elt F) → (⟨S4096x8192, .f32⟩ : BufTy).Contents (Elt F) → (⟨S4096x8192, .f32⟩ : BufTy).Contents (Elt F)),
    StableHlo.binary main_v46 main_v46 main_v49 (mulf : (⟨S4096x8192, .f32⟩ : BufTy).Contents (Elt F) → (⟨S4096x8192, .f32⟩ : BufTy).Contents (Elt F) → (⟨S4096x8192, .f32⟩ : BufTy).Contents (Elt F)),
    StableHlo.nullary main_cst_15 (constant S_ .f32 0x00000000#32),
    StableHlo.binary main_v49 main_cst_15 main_v50 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_16 (constant S_ .f32 0x46000000#32),
    StableHlo.unary main_cst_16 main_v51 (broadcastInDim S4096 ![] bcast_S_S4096 : (⟨S_, .f32⟩ : BufTy).Contents (Elt F) → (⟨S4096, .f32⟩ : BufTy).Contents (Elt F)),
    StableHlo.binary main_v50 main_v51 main_v52 (Host.divf : (⟨S4096, .f32⟩ : BufTy).Contents (Elt F) → (⟨S4096, .f32⟩ : BufTy).Contents (Elt F) → (⟨S4096, .f32⟩ : BufTy).Contents (Elt F)),
    StableHlo.unary main_v52 main_v53 (Host.sqrt : (⟨S4096, .f32⟩ : BufTy).Contents (Elt F) → (⟨S4096, .f32⟩ : BufTy).Contents (Elt F)),
    StableHlo.binary main_v48 main_v48 main_v54 (mulf : (⟨S4096x8192, .f32⟩ : BufTy).Contents (Elt F) → (⟨S4096x8192, .f32⟩ : BufTy).Contents (Elt F) → (⟨S4096x8192, .f32⟩ : BufTy).Contents (Elt F)),
    StableHlo.nullary main_cst_17 (constant S_ .f32 0x00000000#32),
    StableHlo.binary main_v54 main_cst_17 main_v55 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_18 (constant S_ .f32 0x46000000#32),
    StableHlo.unary main_cst_18 main_v56 (broadcastInDim S4096 ![] bcast_S_S4096 : (⟨S_, .f32⟩ : BufTy).Contents (Elt F) → (⟨S4096, .f32⟩ : BufTy).Contents (Elt F)),
    StableHlo.binary main_v55 main_v56 main_v57 (Host.divf : (⟨S4096, .f32⟩ : BufTy).Contents (Elt F) → (⟨S4096, .f32⟩ : BufTy).Contents (Elt F) → (⟨S4096, .f32⟩ : BufTy).Contents (Elt F)),
    StableHlo.unary main_v57 main_v58 (Host.sqrt : (⟨S4096, .f32⟩ : BufTy).Contents (Elt F) → (⟨S4096, .f32⟩ : BufTy).Contents (Elt F)),
    StableHlo.binary main_v46 main_v48 main_v59 (mulf : (⟨S4096x8192, .f32⟩ : BufTy).Contents (Elt F) → (⟨S4096x8192, .f32⟩ : BufTy).Contents (Elt F) → (⟨S4096x8192, .f32⟩ : BufTy).Contents (Elt F)),
    StableHlo.nullary main_cst_19 (constant S_ .f32 0x00000000#32),
    StableHlo.binary main_v59 main_cst_19 main_v60 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    StableHlo.nullary main_cst_20 (constant S_ .f32 0x46000000#32),
    StableHlo.unary main_cst_20 main_v61 (broadcastInDim S4096 ![] bcast_S_S4096 : (⟨S_, .f32⟩ : BufTy).Contents (Elt F) → (⟨S4096, .f32⟩ : BufTy).Contents (Elt F)),
    StableHlo.binary main_v60 main_v61 main_v62 (Host.divf : (⟨S4096, .f32⟩ : BufTy).Contents (Elt F) → (⟨S4096, .f32⟩ : BufTy).Contents (Elt F) → (⟨S4096, .f32⟩ : BufTy).Contents (Elt F)),
    StableHlo.binary main_v53 main_v58 main_v63 (mulf : (⟨S4096, .f32⟩ : BufTy).Contents (Elt F) → (⟨S4096, .f32⟩ : BufTy).Contents (Elt F) → (⟨S4096, .f32⟩ : BufTy).Contents (Elt F)),
    StableHlo.binary main_v62 main_v63 main_v64 (Host.divf : (⟨S4096, .f32⟩ : BufTy).Contents (Elt F) → (⟨S4096, .f32⟩ : BufTy).Contents (Elt F) → (⟨S4096, .f32⟩ : BufTy).Contents (Elt F)),
    StableHlo.binary main_v64 main_v64 main_v65 (cmpf .une : (⟨S4096, .f32⟩ : BufTy).Contents (Elt F) → (⟨S4096, .f32⟩ : BufTy).Contents (Elt F) → (⟨S4096, .i1⟩ : BufTy).Contents (Elt F)),
    StableHlo.nullary main_cst_21 (constant S_ .f32 0x00000000#32),
    StableHlo.unary main_cst_21 main_v66 (broadcastInDim S4096 ![] bcast_S_S4096 : (⟨S_, .f32⟩ : BufTy).Contents (Elt F) → (⟨S4096, .f32⟩ : BufTy).Contents (Elt F)) ]

/-- Stretch 5 (call main_call2): 1 operations. -/
abbrev s5 : List (HloOp τ sig (Elt F)) :=
  [ StableHlo.TRef.ternary (.of main_v65 : StableHlo.TRef sig ⟨S4096, .i1⟩) (.of main_v66 : StableHlo.TRef sig ⟨S4096, .f32⟩) (.of main_v64 : StableHlo.TRef sig ⟨S4096, .f32⟩) (.of main_v67 : StableHlo.TRef sig ⟨S4096, .f32⟩) select ]

/-- Stretch 6 (call main_call3): 13 operations. -/
abbrev s6 : List (HloOp τ sig (Elt F)) :=
  [ StableHlo.TRef.binary (.of main_v67 : StableHlo.TRef sig ⟨S4096, .f32⟩) (.of main_v67 : StableHlo.TRef sig ⟨S4096, .f32⟩) (.of main_call3_v0 : StableHlo.TRef sig ⟨S4096, .i1⟩) (cmpf .une),
    StableHlo.TRef.unary (.of main_call3_v0 : StableHlo.TRef sig ⟨S4096, .i1⟩) (.of main_call3_v1 : StableHlo.TRef sig ⟨S4096, .i1⟩) noti,
    StableHlo.TRef.unary (.of main_call3_v1 : StableHlo.TRef sig ⟨S4096, .i1⟩) (.of main_call3_v2 : StableHlo.TRef sig ⟨S4096, .i32⟩) (extui 32 · natLt_1_32),
    StableHlo.TRef.unary (.of main_call3_v2 : StableHlo.TRef sig ⟨S4096, .i32⟩) (.of main_call3_v3 : StableHlo.TRef sig ⟨S4096, .f32⟩) (sitofp .f32),
    StableHlo.TRef.nullary (.of main_call3_cst : StableHlo.TRef sig ⟨S_, .f32⟩) (constant S_ .f32 0x00000000#32),
    StableHlo.TRef.binary (.of main_call3_v3 : StableHlo.TRef sig ⟨S4096, .f32⟩) (.of main_call3_cst : StableHlo.TRef sig ⟨S_, .f32⟩) (.of main_call3_v4 : StableHlo.TRef sig ⟨S_, .f32⟩) (fun x v => Host.reduceAdd x v reducesTo_S4096_S_d0 h_S_),
    StableHlo.TRef.binary (.of main_v67 : StableHlo.TRef sig ⟨S4096, .f32⟩) (.of main_v67 : StableHlo.TRef sig ⟨S4096, .f32⟩) (.of main_call3_call0_v0 : StableHlo.TRef sig ⟨S4096, .i1⟩) (cmpf .une),
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_call0_v0 : StableHlo.TRef sig ⟨S4096, .f32⟩) (broadcastInDim S4096 ![] bcast_S_S4096),
    StableHlo.TRef.ternary (.of main_call3_call0_v0 : StableHlo.TRef sig ⟨S4096, .i1⟩) (.of main_call3_call0_call0_v0 : StableHlo.TRef sig ⟨S4096, .f32⟩) (.of main_v67 : StableHlo.TRef sig ⟨S4096, .f32⟩) (.of main_call3_call0_v1 : StableHlo.TRef sig ⟨S4096, .f32⟩) select,
    StableHlo.TRef.nullary (.of main_call3_call0_cst_0 : StableHlo.TRef sig ⟨S_, .f32⟩) (constant S_ .f32 0x00000000#32),
    StableHlo.TRef.binary (.of main_call3_call0_v1 : StableHlo.TRef sig ⟨S4096, .f32⟩) (.of main_call3_call0_cst_0 : StableHlo.TRef sig ⟨S_, .f32⟩) (.of main_call3_v5 : StableHlo.TRef sig ⟨S_, .f32⟩) (fun x v => Host.reduceAdd x v reducesTo_S4096_S_d0 h_S_),
    StableHlo.TRef.binary (.of main_call3_v5 : StableHlo.TRef sig ⟨S_, .f32⟩) (.of main_call3_v4 : StableHlo.TRef sig ⟨S_, .f32⟩) (.of main_v68 : StableHlo.TRef sig ⟨S_, .f32⟩) Host.divf ]

/-- Stretch 7 (main): 8 operations. -/
abbrev s7 : List (HloOp τ sig (Elt F)) :=
  [ StableHlo.nullary main_cst_22 (constant S_ .f32 0x3F800000#32),
    StableHlo.binary main_cst_22 main_v68 main_v69 (subf : (⟨S_, .f32⟩ : BufTy).Contents (Elt F) → (⟨S_, .f32⟩ : BufTy).Contents (Elt F) → (⟨S_, .f32⟩ : BufTy).Contents (Elt F)),
    StableHlo.binary main_v1 main_arg0 main_v70 (subf : (⟨S8192x4096, .f32⟩ : BufTy).Contents (Elt F) → (⟨S8192x4096, .f32⟩ : BufTy).Contents (Elt F) → (⟨S8192x4096, .f32⟩ : BufTy).Contents (Elt F)),
    StableHlo.binary main_v70 main_v70 main_v71 (mulf : (⟨S8192x4096, .f32⟩ : BufTy).Contents (Elt F) → (⟨S8192x4096, .f32⟩ : BufTy).Contents (Elt F) → (⟨S8192x4096, .f32⟩ : BufTy).Contents (Elt F)),
    StableHlo.nullary main_cst_23 (constant S_ .f32 0x00000000#32),
    StableHlo.binary main_v71 main_cst_23 main_v72 ((fun x v => Host.reduceAdd x v reducesTo_S8192x4096_S_d0_1 h_S_) : (⟨S8192x4096, .f32⟩ : BufTy).Contents (Elt F) → (⟨S_, .f32⟩ : BufTy).Contents (Elt F) → (⟨S_, .f32⟩ : BufTy).Contents (Elt F)),
    StableHlo.nullary main_cst_24 (constant S_ .f32 0x4C000000#32),
    StableHlo.binary main_v72 main_cst_24 main_v73 (Host.divf : (⟨S_, .f32⟩ : BufTy).Contents (Elt F) → (⟨S_, .f32⟩ : BufTy).Contents (Elt F) → (⟨S_, .f32⟩ : BufTy).Contents (Elt F)) ]

/-- The stretches in order. -/
abbrev stretches : List (List (HloOp τ sig (Elt F))) := [s0, s1, s2, s3, s4, s5, s6, s7]

/-- Every operation of the reference, in order. -/
abbrev ops : List (HloOp τ sig (Elt F)) := (stretches (F := F)).flatten

end Cert.ReferenceIdeal.ROps

end
-- ==== Proof.LibAfter.lean ====
/-
  The fold of a straight line of host operations over a concatenation: running `l₁ ++ l₂` is running `l₁` and then
  `l₂`, for the program (`seq`) and for the buffer contents it leaves (`after`); a chain of such lines is the line of
  their concatenation; and a property of every operation of each line holds of the concatenation.
-/
import Idealize.ShloMosaic.Lib.StableHlo.Run
import Idealize.ShloMosaic.Lib.Pipeline.Regions

namespace Idealize.ShloMosaic.StableHlo

open Idealize.SL.Sem

variable {nD : Nat} {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of every line of a list holds of every operation of their concatenation. -/
theorem forall_flatten {α : Type} {p : α → Prop} :
    ∀ ls : List (List α), (∀ l ∈ ls, l.Forall p) → ls.flatten.Forall p
  | [], _ => by simp [List.Forall]
  | l :: ls, h => by
    rw [List.flatten_cons, List.forall_iff_forall_mem]
    intro x hx
    rcases List.mem_append.mp hx with hx | hx
    · exact (List.forall_iff_forall_mem.mp (h l List.mem_cons_self)) x hx
    · exact (List.forall_iff_forall_mem.mp (forall_flatten ls fun l' hl' => h l' (List.mem_cons_of_mem _ hl'))) x hx

variable {Λ : Labels}

/-- The chain of the lines' programs is the program of the concatenated line. -/
theorem chain_seq :
    ∀ ls : List (List (HloOp τ sig Val)),
      (Pipeline.chain (ls.map fun l => (seq l : Prog (TpuEff nD τ sig Val Λ .tc) PUnit))) = seq ls.flatten
  | [] => rfl
  | l :: ls => by
    rw [List.map_cons, Pipeline.chain_cons, chain_seq ls, List.flatten_cons, seq_append]

end Idealize.ShloMosaic.StableHlo
-- ==== Proof.RRun.lean ====
/-
  The reference program is a straight line of host operations: @main is the chain of its stretches' lines (a called
  function's operations run inline at the call), so every weakly fair execution terminates with each buffer at what
  the operations, folded in order over the launch contents, leave in it.
-/
import proofs.«172602_j30520037605625_1_alg».proof.Proof.ROps
import proofs.«172602_j30520037605625_1_alg».proof.Proof.LibAfter

noncomputable section

namespace Cert.ReferenceIdeal.RRun

open Idealize.ShloMosaic Idealize.ShloMosaic.TcCoe Idealize.SL.Sem
open Cert.ReferenceIdeal Cert.ReferenceIdeal.Gen
open scoped BigOperators

variable {F : FTy → Type} [FloatOps F]

/-- @main is the chain of the eight stretches' lines: a called function's operations stand at the call. -/
theorem main_chain (c : Dev nD) : main (F := F) c = (Pipeline.chain
    [ StableHlo.seq ROps.s0, StableHlo.seq ROps.s1, StableHlo.seq ROps.s2, StableHlo.seq ROps.s3,
      StableHlo.seq ROps.s4, StableHlo.seq ROps.s5, StableHlo.seq ROps.s6, StableHlo.seq ROps.s7 ]
      : Prog (TpuEff nD τ sig (Elt F) (Pipeline.Sig Λ₀ (Fin 0) fun p => (pcfgs (F := F) p).Adm) .tc) PUnit) := by
  chain_rfl

/-- @main is the one line of all the operations: the chain of the lines is the line of their concatenation. -/
theorem main_eq (c : Dev nD) : main (F := F) c = StableHlo.seq (ROps.ops (F := F)) :=
  (main_chain c).trans (StableHlo.chain_seq (ROps.stretches (F := F)))

/-- The signature scopes no buffer -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-! Every operation touches TensorCore buffers only: one builder's lemma per operation, in each stretch's order. -/

theorem s0_sub : (ROps.s0 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub ..⟩

theorem s1_sub : (ROps.s1 : List (HloOp τ sig (Elt F))).Forall fun op => op.bufs ⊆ StableHlo.tcRefs τ sig :=
  StableHlo.ternary_bufs_sub ..

theorem s2_sub : (ROps.s2 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.binary_bufs_sub ..⟩

theorem s3_sub : (ROps.s3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub ..⟩

theorem s4_sub : (ROps.s4 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub ..⟩

theorem s5_sub : (ROps.s5 : List (HloOp τ sig (Elt F))).Forall fun op => op.bufs ⊆ StableHlo.tcRefs τ sig :=
  StableHlo.ternary_bufs_sub ..

theorem s6_sub : (ROps.s6 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.nullary_bufs_sub .., StableHlo.binary_bufs_sub .., StableHlo.binary_bufs_sub .., StableHlo.nullary_bufs_sub .., StableHlo.unary_bufs_sub .., StableHlo.ternary_bufs_sub .., StableHlo.nullary_bufs_sub .., StableHlo.binary_bufs_sub .., StableHlo.binary_bufs_sub ..⟩

theorem s7_sub : (ROps.s7 : List (HloOp τ sig (Elt F))).Forall fun op => op.bufs ⊆ StableHlo.tcRefs τ sig :=
  ⟨StableHlo.nullary_bufs_sub .., StableHlo.binary_bufs_sub .., StableHlo.binary_bufs_sub .., StableHlo.binary_bufs_sub .., StableHlo.nullary_bufs_sub .., StableHlo.binary_bufs_sub .., StableHlo.nullary_bufs_sub .., StableHlo.binary_bufs_sub ..⟩

/-! No operation allocates a buffer: each stretch's operations determine their results. -/

theorem s0_fresh : (ROps.s0 : List (HloOp τ sig (Elt F))).Forall fun op => op.fresh = ∅ := by
  simp only [List.Forall]; repeat' constructor

theorem s1_fresh : (ROps.s1 : List (HloOp τ sig (Elt F))).Forall fun op => op.fresh = ∅ := by
  simp only [List.Forall]; repeat' constructor

theorem s2_fresh : (ROps.s2 : List (HloOp τ sig (Elt F))).Forall fun op => op.fresh = ∅ := by
  simp only [List.Forall]; repeat' constructor

theorem s3_fresh : (ROps.s3 : List (HloOp τ sig (Elt F))).Forall fun op => op.fresh = ∅ := by
  simp only [List.Forall]; repeat' constructor

theorem s4_fresh : (ROps.s4 : List (HloOp τ sig (Elt F))).Forall fun op => op.fresh = ∅ := by
  simp only [List.Forall]; repeat' constructor

theorem s5_fresh : (ROps.s5 : List (HloOp τ sig (Elt F))).Forall fun op => op.fresh = ∅ := by
  simp only [List.Forall]; repeat' constructor

theorem s6_fresh : (ROps.s6 : List (HloOp τ sig (Elt F))).Forall fun op => op.fresh = ∅ := by
  simp only [List.Forall]; repeat' constructor

theorem s7_fresh : (ROps.s7 : List (HloOp τ sig (Elt F))).Forall fun op => op.fresh = ∅ := by
  simp only [List.Forall]; repeat' constructor

/-- Every operation touches TensorCore buffers only: stretch by stretch, then over the concatenation. -/
theorem ops_sub : (ROps.ops (F := F)).Forall fun op => op.bufs ⊆ StableHlo.tcRefs τ sig := by
  apply StableHlo.forall_flatten
  intro l hl
  simp only [ROps.stretches, List.mem_cons, List.not_mem_nil, or_false] at hl
  rcases hl with rfl | rfl | rfl | rfl | rfl | rfl | rfl | rfl
  exacts [s0_sub, s1_sub, s2_sub, s3_sub, s4_sub, s5_sub, s6_sub, s7_sub]

/-- No operation allocates a buffer. -/
theorem ops_fresh : ∀ op ∈ ROps.ops (F := F), op.fresh = ∅ := by
  have h : (ROps.ops (F := F)).Forall fun op => op.fresh = ∅ := by
    apply StableHlo.forall_flatten
    intro l hl
    simp only [ROps.stretches, List.mem_cons, List.not_mem_nil, or_false] at hl
    rcases hl with rfl | rfl | rfl | rfl | rfl | rfl | rfl | rfl
    exacts [s0_fresh, s1_fresh, s2_fresh, s3_fresh, s4_fresh, s5_fresh, s6_fresh, s7_fresh]
  exact List.forall_iff_forall_mem.mp h

/-- The reference's run: each buffer ends at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (Cert.ReferenceIdeal.ROps.ops (F := F)) (StableHlo.launchContents m d) (Proc.devRef .tc b) :=
  StableHlo.run_seq scopedRefs_eq scopedSems_eq defs main (fun _ => ROps.ops) main_eq (fun _ => ops_sub) m ρ
    (fun _ => ops_fresh)

end Cert.ReferenceIdeal.RRun

end
-- ==== Proof.RKept.lean ====
/-
  No host operation of the reference writes one of the five argument buffers: each operation writes its own result
  buffer only, and every result buffer is another buffer than an argument's. So the fold of all operations leaves
  each argument at its launch contents.
-/
import proofs.«172602_j30520037605625_1_alg».proof.Proof.ROps
import proofs.«172602_j30520037605625_1_alg».proof.Proof.LibAfter

noncomputable section

namespace Cert.ReferenceIdeal.RKept

open Idealize.ShloMosaic Idealize.ShloMosaic.TcCoe Idealize.SL.Sem
open Cert.ReferenceIdeal Cert.ReferenceIdeal.Gen Cert.ReferenceIdeal.ROps

variable {F : FTy → Type} [FloatOps F]

/-- Closes "no operation of the stretch writes the buffer": each operation's written set is its result buffer, a
    reference other than the given one. -/
macro "no_write " s:ident : tactic => `(tactic| (
  refine List.forall_iff_forall_mem.mp ?_
  simp only [$s:ident, List.Forall, StableHlo.nullary_writes, StableHlo.unary_writes, StableHlo.binary_writes,
    StableHlo.ternary_writes, StableHlo.quaternary_writes, StableHlo.reshape_writes, Finset.mem_singleton]
  repeat' apply And.intro
  all_goals exact StableHlo.devRef_ne_of_ne (by decide)))

/-- No operation writes argument 0: it ends as launched. -/
theorem kept_arg0 (V : Valuation τ sig (Elt F)) :
    StableHlo.after (ops (F := F)) V (Proc.devRef .tc main_arg0) = V (Proc.devRef .tc main_arg0) := by
  simp only [ops, stretches, List.flatten_cons, List.flatten_nil, List.append_nil, StableHlo.after_append]
  rw [StableHlo.after_of_forall_not_mem (b := Proc.devRef .tc main_arg0) s7 _ (by no_write s7),
    StableHlo.after_of_forall_not_mem (b := Proc.devRef .tc main_arg0) s6 _ (by no_write s6),
    StableHlo.after_of_forall_not_mem (b := Proc.devRef .tc main_arg0) s5 _ (by no_write s5),
    StableHlo.after_of_forall_not_mem (b := Proc.devRef .tc main_arg0) s4 _ (by no_write s4),
    StableHlo.after_of_forall_not_mem (b := Proc.devRef .tc main_arg0) s3 _ (by no_write s3),
    StableHlo.after_of_forall_not_mem (b := Proc.devRef .tc main_arg0) s2 _ (by no_write s2),
    StableHlo.after_of_forall_not_mem (b := Proc.devRef .tc main_arg0) s1 _ (by no_write s1),
    StableHlo.after_of_forall_not_mem (b := Proc.devRef .tc main_arg0) s0 _ (by no_write s0)]

/-- No operation writes argument 1: it ends as launched. -/
theorem kept_arg1 (V : Valuation τ sig (Elt F)) :
    StableHlo.after (ops (F := F)) V (Proc.devRef .tc main_arg1) = V (Proc.devRef .tc main_arg1) := by
  simp only [ops, stretches, List.flatten_cons, List.flatten_nil, List.append_nil, StableHlo.after_append]
  rw [StableHlo.after_of_forall_not_mem (b := Proc.devRef .tc main_arg1) s7 _ (by no_write s7),
    StableHlo.after_of_forall_not_mem (b := Proc.devRef .tc main_arg1) s6 _ (by no_write s6),
    StableHlo.after_of_forall_not_mem (b := Proc.devRef .tc main_arg1) s5 _ (by no_write s5),
    StableHlo.after_of_forall_not_mem (b := Proc.devRef .tc main_arg1) s4 _ (by no_write s4),
    StableHlo.after_of_forall_not_mem (b := Proc.devRef .tc main_arg1) s3 _ (by no_write s3),
    StableHlo.after_of_forall_not_mem (b := Proc.devRef .tc main_arg1) s2 _ (by no_write s2),
    StableHlo.after_of_forall_not_mem (b := Proc.devRef .tc main_arg1) s1 _ (by no_write s1),
    StableHlo.after_of_forall_not_mem (b := Proc.devRef .tc main_arg1) s0 _ (by no_write s0)]

/-- No operation writes argument 2: it ends as launched. -/
theorem kept_arg2 (V : Valuation τ sig (Elt F)) :
    StableHlo.after (ops (F := F)) V (Proc.devRef .tc main_arg2) = V (Proc.devRef .tc main_arg2) := by
  simp only [ops, stretches, List.flatten_cons, List.flatten_nil, List.append_nil, StableHlo.after_append]
  rw [StableHlo.after_of_forall_not_mem (b := Proc.devRef .tc main_arg2) s7 _ (by no_write s7),
    StableHlo.after_of_forall_not_mem (b := Proc.devRef .tc main_arg2) s6 _ (by no_write s6),
    StableHlo.after_of_forall_not_mem (b := Proc.devRef .tc main_arg2) s5 _ (by no_write s5),
    StableHlo.after_of_forall_not_mem (b := Proc.devRef .tc main_arg2) s4 _ (by no_write s4),
    StableHlo.after_of_forall_not_mem (b := Proc.devRef .tc main_arg2) s3 _ (by no_write s3),
    StableHlo.after_of_forall_not_mem (b := Proc.devRef .tc main_arg2) s2 _ (by no_write s2),
    StableHlo.after_of_forall_not_mem (b := Proc.devRef .tc main_arg2) s1 _ (by no_write s1),
    StableHlo.after_of_forall_not_mem (b := Proc.devRef .tc main_arg2) s0 _ (by no_write s0)]

/-- No operation writes argument 3: it ends as launched. -/
theorem kept_arg3 (V : Valuation τ sig (Elt F)) :
    StableHlo.after (ops (F := F)) V (Proc.devRef .tc main_arg3) = V (Proc.devRef .tc main_arg3) := by
  simp only [ops, stretches, List.flatten_cons, List.flatten_nil, List.append_nil, StableHlo.after_append]
  rw [StableHlo.after_of_forall_not_mem (b := Proc.devRef .tc main_arg3) s7 _ (by no_write s7),
    StableHlo.after_of_forall_not_mem (b := Proc.devRef .tc main_arg3) s6 _ (by no_write s6),
    StableHlo.after_of_forall_not_mem (b := Proc.devRef .tc main_arg3) s5 _ (by no_write s5),
    StableHlo.after_of_forall_not_mem (b := Proc.devRef .tc main_arg3) s4 _ (by no_write s4),
    StableHlo.after_of_forall_not_mem (b := Proc.devRef .tc main_arg3) s3 _ (by no_write s3),
    StableHlo.after_of_forall_not_mem (b := Proc.devRef .tc main_arg3) s2 _ (by no_write s2),
    StableHlo.after_of_forall_not_mem (b := Proc.devRef .tc main_arg3) s1 _ (by no_write s1),
    StableHlo.after_of_forall_not_mem (b := Proc.devRef .tc main_arg3) s0 _ (by no_write s0)]

/-- No operation writes argument 4: it ends as launched. -/
theorem kept_arg4 (V : Valuation τ sig (Elt F)) :
    StableHlo.after (ops (F := F)) V (Proc.devRef .tc main_arg4) = V (Proc.devRef .tc main_arg4) := by
  simp only [ops, stretches, List.flatten_cons, List.flatten_nil, List.append_nil, StableHlo.after_append]
  rw [StableHlo.after_of_forall_not_mem (b := Proc.devRef .tc main_arg4) s7 _ (by no_write s7),
    StableHlo.after_of_forall_not_mem (b := Proc.devRef .tc main_arg4) s6 _ (by no_write s6),
    StableHlo.after_of_forall_not_mem (b := Proc.devRef .tc main_arg4) s5 _ (by no_write s5),
    StableHlo.after_of_forall_not_mem (b := Proc.devRef .tc main_arg4) s4 _ (by no_write s4),
    StableHlo.after_of_forall_not_mem (b := Proc.devRef .tc main_arg4) s3 _ (by no_write s3),
    StableHlo.after_of_forall_not_mem (b := Proc.devRef .tc main_arg4) s2 _ (by no_write s2),
    StableHlo.after_of_forall_not_mem (b := Proc.devRef .tc main_arg4) s1 _ (by no_write s1),
    StableHlo.after_of_forall_not_mem (b := Proc.devRef .tc main_arg4) s0 _ (by no_write s0)]

end Cert.ReferenceIdeal.RKept

end
-- ==== Proof.LibStagedRun.lean ====
/-
  Reading a long straight line of host operations in stages.

  The contents a line of host operations leaves (`StableHlo.after`) can be read one buffer at a time by rewriting each
  operation's result. Read in one go, a value that several later operations use is copied once per use, and a line of
  a hundred operations over a graph's index arrays no longer fits. Three tools keep it small.

  * `after_take_drop`: the fold over a line is the fold over its first k operations followed by the fold over the
    rest. Cut the line at the mathematical boundaries, give the contents after each cut a name by a `def` (so that it
    stays folded), and read each stage's buffers as functions of the named contents of the stage before.
  * `results_rw`: after the one-pass reading (`after_results_simp`), which shares every value but does not look
    inside the pieces of a concatenation, this rewriting loop reads what is left there.
  * `cast_there_and_back`: the operations of a module-local function are written at their tensor types and moved to
    their buffers' types and back; after a reading these moves come in pairs around every intermediate value, and
    rewriting with this lemma removes each pair without ever computing a buffer's type.
-/
import Idealize.ShloMosaic.Lib.StableHlo.Run

namespace Cert.Lib.StagedRun

open Idealize.ShloMosaic Idealize.ShloMosaic.StableHlo

/-- Reads what is left of a fold after the one-pass reading: each operation's result at its own buffer, any other
    buffer as it was, also inside the pieces of a concatenation. -/
macro "results_rw" : tactic => `(tactic| (repeat (first
  | rw [nullary_result] | rw [unary_result] | rw [binary_result] | rw [ternary_result] | rw [quaternary_result]
  | rw [reshape_result]
  | (rw [nullary_result_ne]; rotate_left; decide)
  | (rw [unary_result_ne]; rotate_left; decide)
  | (rw [binary_result_ne]; rotate_left; decide)
  | (rw [ternary_result_ne]; rotate_left; decide)
  | (rw [quaternary_result_ne]; rotate_left; decide)
  | (rw [reshape_result_ne]; rotate_left; decide))))

variable {τ : Topo} {sig : RefSig} {Val : EltTy → Type}

/-- Folding a line of operations is folding its first k and then the rest. -/
theorem after_take_drop (L : List (HloOp τ sig Val)) (k : Nat) (V : Valuation τ sig Val) :
    after L V = after (L.drop k) (after (L.take k) V) := by
  induction k generalizing L V with
  | zero => rfl
  | succ k ih =>
    cases L with
    | nil => rfl
    | cons op l => exact ih l (op.result V)

/-- Moving a value along an equation of types and back gives the value. -/
theorem cast_there_and_back {α β : Sort _} (h : α = β) (h' : β = α) (v : α) : cast h' (cast h v) = v := by
  subst h; rfl

end Cert.Lib.StagedRun
-- ==== Proof.RLatent.lean ====
/-
  The reference's first result read off its operations: one minus the NaN-skipping mean over the rows of Pearson's r of the two latent rows. Over the extended reals no value is a NaN, so the mean skips nothing: its count is the number of rows.
-/
import proofs.«172602_j30520037605625_1_alg».proof.Proof.ROps
import proofs.«172602_j30520037605625_1_alg».proof.Proof.Spec
import proofs.«172602_j30520037605625_1_alg».proof.Proof.LibStagedRun
import proofs.«172602_j30520037605625_1_alg».proof.Proof.LibAfter
import Idealize.ShloMosaic.Lib.IdealHost

noncomputable section

namespace Cert.ReferenceIdeal.RLatent

open Idealize.ShloMosaic Idealize.ShloMosaic.TcCoe Idealize.SL.Sem Idealize.ShloMosaic.ValueIdx
open Cert.ReferenceIdeal Cert.ReferenceIdeal.Gen
open scoped BigOperators

/-! ## The reference's operations as functions of arrays -/

/-- The row sums of a [8192, 512] array, from the word 0. -/
def rowSum (x : FVec Ideal S8192x512 .f32) : FVec Ideal S8192 .f32 :=
  Host.reduceAdd (F := Ideal) x (constant (F := Ideal) S_ .f32 0x00000000#32) reducesTo_S8192x512_S8192_d1 h_S_

/-- The row means as a column: the row sums over the word 512. -/
def rowMean (x : FVec Ideal S8192x512 .f32) : FVec Ideal S8192x1 .f32 :=
  Host.divf (F := Ideal) (broadcastInDim S8192x1 ![0] bcast_S8192_S8192x1_0 (rowSum x))
    (broadcastInDim S8192x1 ![] bcast_S_S8192x1 (constant (F := Ideal) S_ .f32 0x44000000#32))

/-- The deviations from the row means. -/
def dev (x : FVec Ideal S8192x512 .f32) : FVec Ideal S8192x512 .f32 :=
  subf x (broadcastInDim S8192x512 ![0, 1] bcast_S8192x1_S8192x512_0_1 (rowMean x))

/-- The row means of the products of two arrays. -/
def cov (u v : FVec Ideal S8192x512 .f32) : FVec Ideal S8192 .f32 :=
  Host.divf (F := Ideal) (rowSum (mulf u v))
    (broadcastInDim S8192 ![] bcast_S_S8192 (constant (F := Ideal) S_ .f32 0x44000000#32))

/-- Pearson's r of each row, as the reference spells it. -/
def rrow (a b : FVec Ideal S8192x512 .f32) : FVec Ideal S8192 .f32 :=
  Host.divf (F := Ideal) (cov (dev a) (dev b))
    (mulf (Host.sqrt (F := Ideal) (cov (dev a) (dev a))) (Host.sqrt (F := Ideal) (cov (dev b) (dev b))))

/-! ## The operations read at an index -/

/-- A row sum from the word 0 is the sum of the row. -/
theorem rowSum_apply (x : FVec Ideal S8192x512 .f32) (i : Fin 8192) :
    rowSum x (ix1 i) = ∑ k : Fin 512, x (ix2 i k) := by
  unfold rowSum
  rw [hostReduceAdd_apply,
    Ideal.hostReduceAdd_single reducesTo_S8192x512_S8192_d1 (by decide : S8192x512.Reduces [1] S8192) x _ (ix1 i),
    constant_apply, Ideal.ofBits_zero_f32, zero_add]
  refine Finset.sum_congr rfl fun k _ => congrArg x ?_
  funext d
  match d with
  | ⟨0, _⟩ => rfl
  | ⟨1, _⟩ => rfl

/-- A vector as a column reads, at (i, 0), the vector at i. -/
theorem bcastCol_apply (v : FVec Ideal S8192 .f32) (i : Fin 8192) :
    broadcastInDim S8192x1 ![0] bcast_S8192_S8192x1_0 v (ix2 i (0 : Fin 1)) = v (ix1 i) := by
  simp only [broadcastInDim]
  refine congrArg v ?_
  funext a
  match a with
  | ⟨0, _⟩ =>
    apply Fin.ext
    split
    · next h1 => change (8192 : Nat) = 1 at h1; omega
    · rfl

/-- A column broadcast along the rows reads, at (i, k), the column at (i, 0). -/
theorem bcastRow_apply (v : FVec Ideal S8192x1 .f32) (i : Fin 8192) (k : Fin 512) :
    broadcastInDim S8192x512 ![0, 1] bcast_S8192x1_S8192x512_0_1 v (ix2 i k) = v (ix2 i (0 : Fin 1)) := by
  simp only [broadcastInDim]
  refine congrArg v ?_
  funext a
  match a with
  | ⟨0, _⟩ =>
    apply Fin.ext
    split
    · next h1 => change (8192 : Nat) = 1 at h1; omega
    · rfl
  | ⟨1, _⟩ =>
    apply Fin.ext
    split
    · rfl
    · next h => exact absurd rfl h

/-- The row mean at (i, 0) is the row's sum over the word 512. -/
theorem rowMean_apply (x : FVec Ideal S8192x512 .f32) (i : Fin 8192) :
    rowMean x (ix2 i (0 : Fin 1)) = Ideal.div (∑ k : Fin 512, x (ix2 i k)) Cert.Spec.w512 := by
  unfold rowMean
  rw [hostDivf_apply, bcastCol_apply, rowSum_apply, broadcastInDim_scalar_apply, constant_apply]

/-- The deviation at (i, k). -/
theorem dev_apply (x : FVec Ideal S8192x512 .f32) (i : Fin 8192) (k : Fin 512) :
    dev x (ix2 i k) = x (ix2 i k) - Ideal.div (∑ k : Fin 512, x (ix2 i k)) Cert.Spec.w512 := by
  unfold dev
  rw [subf_apply, bcastRow_apply, rowMean_apply]

/-- The row mean of the products at i. -/
theorem cov_apply (u v : FVec Ideal S8192x512 .f32) (i : Fin 8192) :
    cov u v (ix1 i) = Ideal.div (∑ k : Fin 512, u (ix2 i k) * v (ix2 i k)) Cert.Spec.w512 := by
  unfold cov
  rw [hostDivf_apply, rowSum_apply, broadcastInDim_scalar_apply, constant_apply]
  rfl

/-- Row i's r is Pearson's r of the two rows. -/
theorem rrow_apply (a b : FVec Ideal S8192x512 .f32) (i : Fin 8192) :
    rrow a b (ix1 i) = Cert.Spec.pearson Cert.Spec.w512 (fun k : Fin 512 => a (ix2 i k)) (fun k : Fin 512 => b (ix2 i k)) := by
  unfold rrow
  rw [hostDivf_apply, mulf_apply]
  show Ideal.div (cov (dev a) (dev b) (ix1 i))
      (Ideal.sqrt (cov (dev a) (dev a) (ix1 i)) * Ideal.sqrt (cov (dev b) (dev b) (ix1 i))) = _
  rw [cov_apply, cov_apply, cov_apply]
  simp only [dev_apply]
  rfl

/-! ## The mean that skips NaNs -/

/-- The reference's mean over the 8192 entries that skips the entries unequal to themselves: the sum of the kept
    entries over the count of the kept entries, each sum from the word 0. -/
def nanmean (x : FVec Ideal S8192 .f32) : FVec Ideal S_ .f32 :=
  Host.divf (F := Ideal)
    (Host.reduceAdd (F := Ideal)
      (select (cmpf (F := Ideal) .une x x)
        (broadcastInDim S8192 ![] bcast_S_S8192 (constant (F := Ideal) S_ .f32 0x00000000#32)) x)
      (constant (F := Ideal) S_ .f32 0x00000000#32) reducesTo_S8192_S_d0 h_S_)
    (Host.reduceAdd (F := Ideal)
      (sitofp (F := Ideal) .f32 (extui 32 (noti (cmpf (F := Ideal) .une x x)) natLt_1_32))
      (constant (F := Ideal) S_ .f32 0x00000000#32) reducesTo_S8192_S_d0 h_S_)

/-- No extended real is unequal to itself. -/
theorem cmp_une_self (a : EReal) : Ideal.cmp .une a a = 0#1 := by
  simp [Ideal.cmp]

/-- The positions of a vector of 8192 entries are the 8192 coordinates. -/
def vecIdx : Fin 8192 ≃ S8192.Idx where
  toFun i := ix1 i
  invFun j := j 0
  left_inv _ := rfl
  right_inv j := (eq_ix1 j).symm

/-- A sum over the whole vector from the word 0 is the sum of its entries. -/
theorem total_apply (x : FVec Ideal S8192 .f32) :
    Host.reduceAdd (F := Ideal) x (constant (F := Ideal) S_ .f32 0x00000000#32) reducesTo_S8192_S_d0 h_S_ ix0
      = ∑ i : Fin 8192, x (ix1 i) := by
  rw [hostReduceAdd_apply,
    Ideal.hostReduceAdd_total reducesTo_S8192_S_d0 (fun b => b.elim0) x _ ix0,
    constant_apply, Ideal.ofBits_zero_f32, zero_add]
  exact (Fintype.sum_equiv vecIdx (fun i => x (ix1 i)) x fun _ => rfl).symm

/-- The word of the count is 8192. -/
theorem w8192_eq : Cert.Spec.w8192 = ((8192 : ℝ) : EReal) := by
  simp [Cert.Spec.w8192, Ideal.ofBits, Ideal.ieee, -EReal.coe_mul]; norm_num

/-- The same as the cast of the natural number. -/
theorem w8192_nat : Cert.Spec.w8192 = ((8192 : ℕ) : EReal) := by
  rw [w8192_eq, ← EReal.coe_natCast]; norm_num

/-- Every entry is kept: the mean is the sum of the entries over the word 8192. -/
theorem nanmean_apply (x : FVec Ideal S8192 .f32) :
    nanmean x ix0 = Ideal.div (∑ i : Fin 8192, x (ix1 i)) Cert.Spec.w8192 := by
  unfold nanmean
  rw [hostDivf_apply, total_apply, total_apply]
  have hsel : ∀ i : Fin 8192, select (cmpf (F := Ideal) .une x x)
      (broadcastInDim S8192 ![] bcast_S_S8192 (constant (F := Ideal) S_ .f32 0x00000000#32)) x (ix1 i) = x (ix1 i) := by
    intro i
    rw [select_apply, cmpf_apply, Ideal.cmpf_def, cmp_une_self, select_zero]
  have hone : ∀ i : Fin 8192,
      (sitofp (F := Ideal) .f32 (extui 32 (noti (cmpf (F := Ideal) .une x x)) natLt_1_32)) (ix1 i) = (1 : EReal) := by
    intro i
    rw [sitofp_apply, extui_apply]
    show FloatOps.sitofp (F := Ideal) .f32 ((~~~(cmpf (F := Ideal) .une x x (ix1 i))).setWidth 32) = _
    rw [cmpf_apply, Ideal.cmpf_def, cmp_une_self]
    show (((((~~~(0#1 : BitVec 1)).setWidth 32).toInt : ℤ) : ℝ) : EReal) = 1
    have h1 : ((~~~(0#1 : BitVec 1)).setWidth 32).toInt = 1 := by decide
    rw [h1, Int.cast_one, EReal.coe_one]
  simp only [hsel, hone]
  refine congrArg (Ideal.div _) ?_
  rw [Finset.sum_const, Finset.card_univ, Fintype.card_fin, w8192_eq, ← EReal.coe_one, ← EReal.coe_nsmul]
  norm_num

/-! ## The stretches read at their buffers -/

/-- After the first stretch the buffer of r holds the rows' r. -/
theorem s0_v29 (V : Valuation τ sig (Elt Ideal)) :
    StableHlo.after (ROps.s0 (F := Ideal)) V (Proc.devRef .tc main_v29)
      = rrow (V (Proc.devRef .tc main_arg2)) (V (Proc.devRef .tc main_arg3)) := by
  after_results_simp
  rfl

/-- … the mask's buffer holds the comparison of r with itself … -/
theorem s0_v30 (V : Valuation τ sig (Elt Ideal)) :
    StableHlo.after (ROps.s0 (F := Ideal)) V (Proc.devRef .tc main_v30)
      = cmpf (F := Ideal) .une (rrow (V (Proc.devRef .tc main_arg2)) (V (Proc.devRef .tc main_arg3)))
          (rrow (V (Proc.devRef .tc main_arg2)) (V (Proc.devRef .tc main_arg3))) := by
  after_results_simp
  rfl

/-- The selection of the second stretch. -/
theorem s1_v32 (W : Valuation τ sig (Elt Ideal)) :
    StableHlo.after (ROps.s1 (F := Ideal)) W (Proc.devRef .tc main_v32)
      = select (W (Proc.devRef .tc main_v30)) (W (Proc.devRef .tc main_v31)) (W (Proc.devRef .tc main_v29)) := by
  after_results_simp
  rfl

/-- The third stretch is the mean that skips NaNs. -/
theorem s2_v33 (W : Valuation τ sig (Elt Ideal)) :
    StableHlo.after (ROps.s2 (F := Ideal)) W (Proc.devRef .tc main_v33) = nanmean (W (Proc.devRef .tc main_v32)) := by
  after_results_simp
  simp only [StableHlo.TRef.ofBuf, StableHlo.TRef.toBuf, cast_eq]
  rfl

/-- The fourth stretch subtracts from the word 1. -/
theorem s3_v34 (W : Valuation τ sig (Elt Ideal)) :
    StableHlo.after (ROps.s3 (F := Ideal)) W (Proc.devRef .tc main_v34)
      = subf (constant (F := Ideal) S_ .f32 0x3F800000#32) (W (Proc.devRef .tc main_v33)) := by
  after_results_simp

/-- The later stretches leave the first result's buffer as it is. -/
theorem s4_keep (W : Valuation τ sig (Elt Ideal)) :
    StableHlo.after (ROps.s4 (F := Ideal)) W (Proc.devRef .tc main_v34) = W (Proc.devRef .tc main_v34) := by
  after_results_simp
theorem s5_keep (W : Valuation τ sig (Elt Ideal)) :
    StableHlo.after (ROps.s5 (F := Ideal)) W (Proc.devRef .tc main_v34) = W (Proc.devRef .tc main_v34) := by
  after_results_simp
theorem s6_keep (W : Valuation τ sig (Elt Ideal)) :
    StableHlo.after (ROps.s6 (F := Ideal)) W (Proc.devRef .tc main_v34) = W (Proc.devRef .tc main_v34) := by
  after_results_simp
theorem s7_keep (W : Valuation τ sig (Elt Ideal)) :
    StableHlo.after (ROps.s7 (F := Ideal)) W (Proc.devRef .tc main_v34) = W (Proc.devRef .tc main_v34) := by
  after_results_simp

/-! ## The result -/

/-- Selecting by "r is unequal to itself" returns r. -/
theorem select_self (r z : FVec Ideal S8192 .f32) : select (cmpf (F := Ideal) .une r r) z r = r := by
  funext j
  rw [select_apply, cmpf_apply, Ideal.cmpf_def, cmp_une_self, select_zero]

/-- The word 1 minus the mean of the rows' r is the latent similarity loss. -/
theorem latent_eq (a b : FVec Ideal S8192x512 .f32) :
    subf (constant (F := Ideal) S_ .f32 0x3F800000#32) (nanmean (rrow a b)) = fun _ => Cert.Spec.latent a b := by
  funext j
  rw [eq_ix0 j, subf_apply, constant_apply, nanmean_apply]
  simp only [rrow_apply]
  rfl

/-- The first result is the latent similarity loss of arguments 2 and 3. -/
theorem v34 (V : Valuation τ sig (Elt Ideal)) :
    StableHlo.after (Cert.ReferenceIdeal.ROps.ops (F := Ideal)) V (Proc.devRef .tc main_v34)
      = fun _ => Cert.Spec.latent (V (Proc.devRef .tc main_arg2)) (V (Proc.devRef .tc main_arg3)) := by
  simp only [ROps.ops, ROps.stretches, List.flatten_cons, List.flatten_nil, List.append_nil]
  simp only [StableHlo.after_append]
  rw [s7_keep, s6_keep, s5_keep, s4_keep, s3_v34, s2_v33, s1_v32, s0_v29, s0_v30, select_self]
  exact latent_eq _ _

end Cert.ReferenceIdeal.RLatent

end
-- ==== Proof.RMse.lean ====
/-
  The reference's second result read off its operations: the sum over all positions of the squared difference between the scaled prediction and the feature, over the number of positions.
-/
import proofs.«172602_j30520037605625_1_alg».proof.Proof.ROps
import proofs.«172602_j30520037605625_1_alg».proof.Proof.Spec
import proofs.«172602_j30520037605625_1_alg».proof.Proof.LibStagedRun
import proofs.«172602_j30520037605625_1_alg».proof.Proof.LibAfter
import Idealize.ShloMosaic.Lib.IdealHost
import Idealize.ShloMosaic.Lib.Pipeline.Value

noncomputable section

namespace Cert.ReferenceIdeal.RMse

open Idealize.ShloMosaic Idealize.ShloMosaic.TcCoe Idealize.SL.Sem Idealize.ShloMosaic.ValueIdx
open Cert.ReferenceIdeal Cert.ReferenceIdeal.Gen
open scoped BigOperators

open Idealize.ShloMosaic.StableHlo

/-- All the operations are the eight stretches one after another. -/
theorem ops_eq : ROps.ops (F := Ideal)
    = ROps.s0 ++ (ROps.s1 ++ (ROps.s2 ++ (ROps.s3 ++ (ROps.s4 ++ (ROps.s5 ++ (ROps.s6 ++ ROps.s7)))))) := rfl

/-- The last stretch from any contents: the quotient by the word of 2^25 of the sum, from the word of zero, over all
    positions of the square of the scaled prediction minus the feature. -/
theorem s7_v73 (W : Valuation τ sig (Elt Ideal)) :
    StableHlo.after (ROps.s7 (F := Ideal)) W (Proc.devRef .tc main_v73)
      = Host.divf (F := Ideal) (Host.reduceAdd (F := Ideal)
          (mulf (F := Ideal) (subf (F := Ideal) (s := S8192x4096) (φ := .f32) (W (Proc.devRef .tc main_v1)) (W (Proc.devRef .tc main_arg0)))
                (subf (F := Ideal) (s := S8192x4096) (φ := .f32) (W (Proc.devRef .tc main_v1)) (W (Proc.devRef .tc main_arg0))))
          (constant S_ .f32 0x00000000#32) reducesTo_S8192x4096_S_d0_1 h_S_) (constant S_ .f32 0x4C000000#32) := by
  after_results

/-- The first stretch writes the scaled prediction: the prediction times the scales broadcast along the columns. -/
theorem s0_v1 (V : Valuation τ sig (Elt Ideal)) :
    StableHlo.after (ROps.s0 (F := Ideal)) V (Proc.devRef .tc main_v1)
      = mulf (F := Ideal) (s := S8192x4096) (φ := .f32) (V (Proc.devRef .tc main_arg1))
          (broadcastInDim S8192x4096 ![0, 1] bcast_S8192x1_S8192x4096_0_1 (V (Proc.devRef .tc main_arg4))) := by
  after_results_simp

/-! No later stretch but the last reads or writes the scaled prediction's buffer, and none writes the features'. -/

theorem s1_v1 (X : Valuation τ sig (Elt Ideal)) :
    StableHlo.after (ROps.s1 (F := Ideal)) X (Proc.devRef .tc main_v1) = X (Proc.devRef .tc main_v1) := by
  after_results
theorem s2_v1 (X : Valuation τ sig (Elt Ideal)) :
    StableHlo.after (ROps.s2 (F := Ideal)) X (Proc.devRef .tc main_v1) = X (Proc.devRef .tc main_v1) := by
  after_results
theorem s3_v1 (X : Valuation τ sig (Elt Ideal)) :
    StableHlo.after (ROps.s3 (F := Ideal)) X (Proc.devRef .tc main_v1) = X (Proc.devRef .tc main_v1) := by
  after_results
theorem s4_v1 (X : Valuation τ sig (Elt Ideal)) :
    StableHlo.after (ROps.s4 (F := Ideal)) X (Proc.devRef .tc main_v1) = X (Proc.devRef .tc main_v1) := by
  after_results_simp
theorem s5_v1 (X : Valuation τ sig (Elt Ideal)) :
    StableHlo.after (ROps.s5 (F := Ideal)) X (Proc.devRef .tc main_v1) = X (Proc.devRef .tc main_v1) := by
  after_results
theorem s6_v1 (X : Valuation τ sig (Elt Ideal)) :
    StableHlo.after (ROps.s6 (F := Ideal)) X (Proc.devRef .tc main_v1) = X (Proc.devRef .tc main_v1) := by
  after_results
theorem s0_arg0 (X : Valuation τ sig (Elt Ideal)) :
    StableHlo.after (ROps.s0 (F := Ideal)) X (Proc.devRef .tc main_arg0) = X (Proc.devRef .tc main_arg0) := by
  after_results_simp
theorem s1_arg0 (X : Valuation τ sig (Elt Ideal)) :
    StableHlo.after (ROps.s1 (F := Ideal)) X (Proc.devRef .tc main_arg0) = X (Proc.devRef .tc main_arg0) := by
  after_results
theorem s2_arg0 (X : Valuation τ sig (Elt Ideal)) :
    StableHlo.after (ROps.s2 (F := Ideal)) X (Proc.devRef .tc main_arg0) = X (Proc.devRef .tc main_arg0) := by
  after_results
theorem s3_arg0 (X : Valuation τ sig (Elt Ideal)) :
    StableHlo.after (ROps.s3 (F := Ideal)) X (Proc.devRef .tc main_arg0) = X (Proc.devRef .tc main_arg0) := by
  after_results
theorem s4_arg0 (X : Valuation τ sig (Elt Ideal)) :
    StableHlo.after (ROps.s4 (F := Ideal)) X (Proc.devRef .tc main_arg0) = X (Proc.devRef .tc main_arg0) := by
  after_results_simp
theorem s5_arg0 (X : Valuation τ sig (Elt Ideal)) :
    StableHlo.after (ROps.s5 (F := Ideal)) X (Proc.devRef .tc main_arg0) = X (Proc.devRef .tc main_arg0) := by
  after_results
theorem s6_arg0 (X : Valuation τ sig (Elt Ideal)) :
    StableHlo.after (ROps.s6 (F := Ideal)) X (Proc.devRef .tc main_arg0) = X (Proc.devRef .tc main_arg0) := by
  after_results

/-- The second result is the mean squared error of arguments 0, 1 and 4. -/
theorem v73 (V : Valuation τ sig (Elt Ideal)) :
    StableHlo.after (Cert.ReferenceIdeal.ROps.ops (F := Ideal)) V (Proc.devRef .tc main_v73)
      = fun _ => Cert.Spec.mse (V (Proc.devRef .tc main_arg0)) (V (Proc.devRef .tc main_arg1)) (V (Proc.devRef .tc main_arg4)) := by
  rw [ops_eq]
  simp only [StableHlo.after_append]
  rw [s7_v73, s6_v1, s5_v1, s4_v1, s3_v1, s2_v1, s1_v1, s0_v1,
    s6_arg0, s5_arg0, s4_arg0, s3_arg0, s2_arg0, s1_arg0, s0_arg0]
  funext j
  rw [hostDivf_apply, hostReduceAdd_apply, Ideal.hostReduceAdd_total reducesTo_S8192x4096_S_d0_1 (fun b => b.elim0),
    constant_apply, constant_apply, Ideal.ofBits_zero_f32, zero_add, sum_idx2]
  unfold Cert.Spec.mse Cert.Spec.scaled
  congr 1
  refine Finset.sum_congr rfl fun n _ => Finset.sum_congr rfl fun g _ => ?_
  rw [mulf_apply, subf_apply, mulf_apply,
    broadcastInDim_apply _ _ _ (ix2 n g) (ix2 n (0 : Fin 1)) (fun a => match a with | ⟨0, _⟩ => rfl | ⟨1, _⟩ => rfl)]

end Cert.ReferenceIdeal.RMse

end
-- ==== Proof.RPcc.lean ====
/-
  The reference's third result read off its operations: one minus the NaN-skipping mean over the columns of Pearson's r of a feature column against the scaled-prediction column (both arrays transposed, then read row by row). Over the extended reals no value is a NaN, so the mean skips nothing: its count is the number of columns.

  The operations are read in stretches. The first stretch writes the scaled predictions; the stretches of the other
  correlation leave them and the features alone; the next three transpose both arrays and compute, for each of the 4096
  rows of the transposes, the row means, the deviations from them, the three means of products of deviations, the two
  square roots and the quotient; the last two take the mean of these 4096 numbers and subtract it from one. Each
  composite is named as a function of arrays and read at an index there: a row sum from the word 0 is the sum of the
  row, a column laid along a row repeats its entry, a quotient of arrays is the extended reals' quotient entry by entry.
-/
import proofs.«172602_j30520037605625_1_alg».proof.Proof.ROps
import proofs.«172602_j30520037605625_1_alg».proof.Proof.Spec
import proofs.«172602_j30520037605625_1_alg».proof.Proof.LibStagedRun
import proofs.«172602_j30520037605625_1_alg».proof.Proof.LibAfter
import Idealize.ShloMosaic.Lib.IdealHost
import Idealize.ShloMosaic.Lib.ValueLayout
import Idealize.ShloMosaic.Lib.ValueIdxRank1

noncomputable section

namespace Cert.ReferenceIdeal.RPcc

open Idealize.ShloMosaic Idealize.ShloMosaic.TcCoe Idealize.SL.Sem Idealize.ShloMosaic.ValueIdx Idealize.ShloMosaic.StableHlo
open Cert.ReferenceIdeal Cert.ReferenceIdeal.Gen
open scoped BigOperators

/-! ## The composites, as functions of arrays -/

/-- The mean of each row of a [4096, 8192] array, as a column: the row sums from the word 0, over the word 8192. -/
def rowMean (a : FVec Ideal S4096x8192 .f32) : FVec Ideal S4096x1 .f32 :=
  Host.divf (F := Ideal)
    (broadcastInDim S4096x1 ![0] bcast_S4096_S4096x1_0
      (Host.reduceAdd (F := Ideal) a (constant (F := Ideal) S_ .f32 0x00000000#32) reducesTo_S4096x8192_S4096_d1 h_S_))
    (broadcastInDim S4096x1 ![] bcast_S_S4096x1 (constant (F := Ideal) S_ .f32 0x46000000#32))

/-- Each entry less a column of row values. -/
def lessCol (a : FVec Ideal S4096x8192 .f32) (m : FVec Ideal S4096x1 .f32) : FVec Ideal S4096x8192 .f32 :=
  subf a (broadcastInDim S4096x8192 ![0, 1] bcast_S4096x1_S4096x8192_0_1 m)

/-- The mean over each row of the products of two [4096, 8192] arrays. -/
def rowMeanProd (p q : FVec Ideal S4096x8192 .f32) : FVec Ideal S4096 .f32 :=
  Host.divf (F := Ideal)
    (Host.reduceAdd (F := Ideal) (mulf p q) (constant (F := Ideal) S_ .f32 0x00000000#32) reducesTo_S4096x8192_S4096_d1 h_S_)
    (broadcastInDim S4096 ![] bcast_S_S4096 (constant (F := Ideal) S_ .f32 0x46000000#32))

/-- Pearson's r of each row of `a` against the same row of `b`, as the operations compute it. -/
def rowR (a b : FVec Ideal S4096x8192 .f32) : FVec Ideal S4096 .f32 :=
  Host.divf (F := Ideal) (rowMeanProd (lessCol a (rowMean a)) (lessCol b (rowMean b)))
    (mulf (Host.sqrt (F := Ideal) (rowMeanProd (lessCol a (rowMean a)) (lessCol a (rowMean a))))
      (Host.sqrt (F := Ideal) (rowMeanProd (lessCol b (rowMean b)) (lessCol b (rowMean b)))))

/-- A vector with the entries that differ from themselves replaced by the word 0. -/
def dropNan (x : FVec Ideal S4096 .f32) : FVec Ideal S4096 .f32 :=
  select (cmpf .une x x) (broadcastInDim S4096 ![] bcast_S_S4096 (constant (F := Ideal) S_ .f32 0x00000000#32)) x

/-- The sum of the entries that equal themselves over their number. -/
def nanMean (x : FVec Ideal S4096 .f32) : FVec Ideal S_ .f32 :=
  Host.divf (F := Ideal)
    (Host.reduceAdd (F := Ideal) (dropNan x) (constant (F := Ideal) S_ .f32 0x00000000#32) reducesTo_S4096_S_d0 h_S_)
    (Host.reduceAdd (F := Ideal) (sitofp (F := Ideal) .f32 (extui 32 (noti (cmpf .une x x)) natLt_1_32))
      (constant (F := Ideal) S_ .f32 0x00000000#32) reducesTo_S4096_S_d0 h_S_)

/-! ## The composites read at an index -/

/-- The sum of row `g` of a [4096, 8192] array from the word 0 is the sum of the row's entries. -/
theorem rowSum_apply (a : FVec Ideal S4096x8192 .f32) (g : Fin 4096) :
    Host.reduceAdd (F := Ideal) a (constant (F := Ideal) S_ .f32 0x00000000#32) reducesTo_S4096x8192_S4096_d1 h_S_ (ix1 g)
      = ∑ n : Fin 8192, a (ix2 g n) := by
  rw [hostReduceAdd_apply,
    Ideal.hostReduceAdd_single reducesTo_S4096x8192_S4096_d1 (by decide : S4096x8192.Reduces [1] S4096),
    constant_apply, Ideal.ofBits_zero_f32, zero_add]
  refine Finset.sum_congr rfl fun n _ => congrArg a ?_
  funext d; match d with | ⟨0, _⟩ => rfl | ⟨1, _⟩ => rfl

/-- The sum of a [4096] vector from the word 0 is the sum of its entries. -/
theorem vecSum_apply (x : FVec Ideal S4096 .f32) (j : S_.Idx) :
    Host.reduceAdd (F := Ideal) x (constant (F := Ideal) S_ .f32 0x00000000#32) reducesTo_S4096_S_d0 h_S_ j
      = ∑ g : Fin 4096, x (ix1 g) := by
  rw [hostReduceAdd_apply, Ideal.hostReduceAdd_total reducesTo_S4096_S_d0 (fun b => b.elim0),
    constant_apply, Ideal.ofBits_zero_f32, zero_add]
  exact (Equiv.sum_comp (idxEquiv1 (n := 4096)).symm x).symm

/-- The row mean at row `g`. -/
theorem rowMean_apply (a : FVec Ideal S4096x8192 .f32) (g : Fin 4096) :
    rowMean a (ix2 g (0 : Fin 1)) = Ideal.div (∑ n : Fin 8192, a (ix2 g n)) Cert.Spec.w8192 := by
  unfold rowMean
  rw [hostDivf_apply, broadcastInDim_scalar_apply, constant_apply,
    broadcastInDim_apply _ _ _ _ (ix1 g) (fun d => match d with | ⟨0, _⟩ => rfl), rowSum_apply]

/-- An entry less its row's value of a column. -/
theorem lessCol_apply (a : FVec Ideal S4096x8192 .f32) (m : FVec Ideal S4096x1 .f32) (g : Fin 4096) (n : Fin 8192) :
    lessCol a m (ix2 g n) = a (ix2 g n) - m (ix2 g (0 : Fin 1)) := by
  unfold lessCol
  rw [subf_apply, broadcastInDim_apply _ _ _ _ (ix2 g (0 : Fin 1)) (fun d => match d with | ⟨0, _⟩ => rfl | ⟨1, _⟩ => rfl)]

/-- The mean of the products along row `g`. -/
theorem rowMeanProd_apply (p q : FVec Ideal S4096x8192 .f32) (g : Fin 4096) :
    rowMeanProd p q (ix1 g) = Ideal.div (∑ n : Fin 8192, p (ix2 g n) * q (ix2 g n)) Cert.Spec.w8192 := by
  unfold rowMeanProd
  rw [hostDivf_apply, broadcastInDim_scalar_apply, constant_apply, rowSum_apply]
  rfl

/-- Pearson's r of row `g` of `a` against row `g` of `b`. -/
theorem rowR_apply (a b : FVec Ideal S4096x8192 .f32) (g : Fin 4096) :
    rowR a b (ix1 g)
      = Cert.Spec.pearson Cert.Spec.w8192 (fun n : Fin 8192 => a (ix2 g n)) (fun n : Fin 8192 => b (ix2 g n)) := by
  unfold rowR Cert.Spec.pearson
  rw [hostDivf_apply, mulf_apply]
  show Ideal.div (rowMeanProd _ _ (ix1 g)) (Ideal.sqrt (rowMeanProd _ _ (ix1 g)) * Ideal.sqrt (rowMeanProd _ _ (ix1 g))) = _
  rw [rowMeanProd_apply, rowMeanProd_apply, rowMeanProd_apply]
  simp only [lessCol_apply, rowMean_apply]

/-- No extended real differs from itself. -/
theorem cmp_une_self (x : EReal) : Ideal.cmp .une x x = 0#1 := by simp [Ideal.cmp]

/-- So nothing is dropped. -/
theorem dropNan_eq (x : FVec Ideal S4096 .f32) : dropNan x = x := by
  funext i
  unfold dropNan
  rw [select_apply, cmpf_apply, Ideal.cmpf_def, cmp_une_self, select_zero]

/-- The word of 4096 is the number 4096. -/
theorem w4096_eq : Cert.Spec.w4096 = ((4096 : ℝ) : EReal) := by
  show Ideal.ofBits .f32 0x45800000#32 = _
  simp [Ideal.ofBits, Ideal.ieee, -EReal.coe_mul]; norm_num

/-- Every entry counts: the count is the number of entries. -/
theorem count_eq (x : FVec Ideal S4096 .f32) :
    (∑ g : Fin 4096, sitofp (F := Ideal) .f32 (extui 32 (noti (cmpf .une x x)) natLt_1_32) (ix1 g)) = Cert.Spec.w4096 := by
  have h1 : ∀ g : Fin 4096, sitofp (F := Ideal) .f32 (extui 32 (noti (cmpf .une x x)) natLt_1_32) (ix1 g) = (1 : EReal) := by
    intro g
    rw [sitofp_apply, extui_apply]
    show FloatOps.sitofp (F := Ideal) .f32 ((~~~ (FloatOps.cmpf .une (x (ix1 g)) (x (ix1 g)))).setWidth 32) = 1
    rw [Ideal.cmpf_def, cmp_une_self]
    show (((((~~~ (0#1 : BitVec 1)).setWidth 32).toInt : ℤ) : ℝ) : EReal) = 1
    rw [show ((~~~ (0#1 : BitVec 1)).setWidth 32).toInt = 1 by decide]
    norm_num
  rw [Finset.sum_congr rfl fun g _ => h1 g, w4096_eq]
  simp
  norm_cast

/-- The mean that skips nothing: the sum of the entries over the word 4096. -/
theorem nanMean_apply (x : FVec Ideal S4096 .f32) (j : S_.Idx) :
    nanMean x j = Ideal.div (∑ g : Fin 4096, x (ix1 g)) Cert.Spec.w4096 := by
  unfold nanMean
  rw [hostDivf_apply, vecSum_apply, vecSum_apply, dropNan_eq, count_eq]

/-! ## The stretches, each read off a valuation -/

/-- The last stretch: one less the mean. -/
theorem r7 (W : Valuation τ sig (Elt Ideal)) :
    StableHlo.after (Cert.ReferenceIdeal.ROps.s7 (F := Ideal)) W (Proc.devRef .tc main_v69)
      = subf (constant (F := Ideal) S_ .f32 0x3F800000#32) (W (Proc.devRef .tc main_v68)) := by
  after_results_simp

/-- The mean's stretch. -/
theorem r6 (W : Valuation τ sig (Elt Ideal)) :
    StableHlo.after (Cert.ReferenceIdeal.ROps.s6 (F := Ideal)) W (Proc.devRef .tc main_v68)
      = nanMean (W (Proc.devRef .tc main_v67)) := by
  after_results_simp
  simp only [TRef.ofBuf, TRef.toBuf, cast_eq]
  rfl

/-- The three stretches that transpose the two arrays and compute r of each row. -/
theorem r345 (W : Valuation τ sig (Elt Ideal)) :
    StableHlo.after (Cert.ReferenceIdeal.ROps.s5 (F := Ideal)) (StableHlo.after (Cert.ReferenceIdeal.ROps.s4 (F := Ideal))
        (StableHlo.after (Cert.ReferenceIdeal.ROps.s3 (F := Ideal)) W)) (Proc.devRef .tc main_v67)
      = dropNan (rowR (transpose S4096x8192 [1, 0] (W (Proc.devRef .tc main_arg0)) transposes_S8192x4096_S4096x8192_1_0)
          (transpose S4096x8192 [1, 0] (W (Proc.devRef .tc main_v1)) transposes_S8192x4096_S4096x8192_1_0)) := by
  after_results_simp
  simp only [TRef.ofBuf, TRef.toBuf, cast_eq]
  rfl

/-- The two stretches of the first mean leave the features as they were. -/
theorem r12_arg0 (W : Valuation τ sig (Elt Ideal)) :
    StableHlo.after (Cert.ReferenceIdeal.ROps.s2 (F := Ideal)) (StableHlo.after (Cert.ReferenceIdeal.ROps.s1 (F := Ideal)) W)
        (Proc.devRef .tc main_arg0) = W (Proc.devRef .tc main_arg0) := by
  after_results_simp

/-- They leave the scaled predictions as they were. -/
theorem r12_v1 (W : Valuation τ sig (Elt Ideal)) :
    StableHlo.after (Cert.ReferenceIdeal.ROps.s2 (F := Ideal)) (StableHlo.after (Cert.ReferenceIdeal.ROps.s1 (F := Ideal)) W)
        (Proc.devRef .tc main_v1) = W (Proc.devRef .tc main_v1) := by
  after_results_simp

/-- The first stretch leaves the features as they were. -/
theorem r0_arg0 (W : Valuation τ sig (Elt Ideal)) :
    StableHlo.after (Cert.ReferenceIdeal.ROps.s0 (F := Ideal)) W (Proc.devRef .tc main_arg0) = W (Proc.devRef .tc main_arg0) := by
  after_results_simp

/-- The first stretch writes the scaled predictions: the predictions times the scales, a column laid along the rows. -/
theorem r0_v1 (W : Valuation τ sig (Elt Ideal)) :
    StableHlo.after (Cert.ReferenceIdeal.ROps.s0 (F := Ideal)) W (Proc.devRef .tc main_v1)
      = (mulf (W (Proc.devRef .tc main_arg1) : FVec Ideal S8192x4096 .f32)
          (broadcastInDim S8192x4096 ![0, 1] bcast_S8192x1_S8192x4096_0_1 (W (Proc.devRef .tc main_arg4))) :
            FVec Ideal S8192x4096 .f32) := by
  after_results_simp

/-! ## The result -/

/-- The third result is the correlation loss of arguments 0, 1 and 4. -/
theorem v69 (V : Valuation τ sig (Elt Ideal)) :
    StableHlo.after (Cert.ReferenceIdeal.ROps.ops (F := Ideal)) V (Proc.devRef .tc main_v69)
      = fun _ => Cert.Spec.pcc (V (Proc.devRef .tc main_arg0)) (V (Proc.devRef .tc main_arg1)) (V (Proc.devRef .tc main_arg4)) := by
  simp only [ROps.ops, ROps.stretches, List.flatten_cons, List.flatten_nil, List.append_nil, StableHlo.after_append]
  rw [r7, r6, r345, r12_arg0, r12_v1, r0_arg0, r0_v1]
  funext j
  rw [subf_apply, constant_apply, nanMean_apply, dropNan_eq]
  unfold Cert.Spec.pcc
  refine congrArg (fun s => Cert.Spec.w1 - Ideal.div s Cert.Spec.w4096) (Finset.sum_congr rfl fun g _ => ?_)
  rw [rowR_apply]
  refine congrArg₂ (Cert.Spec.pearson Cert.Spec.w8192) (funext fun n => ?_) (funext fun n => ?_)
  · exact transpose_ix2_apply _ _ g n
  · rw [transpose_ix2_apply, mulf_apply,
      broadcastInDim_apply _ _ _ _ (ix2 n (0 : Fin 1)) (fun d => match d with | ⟨0, _⟩ => rfl | ⟨1, _⟩ => rfl)]
    rfl

end Cert.ReferenceIdeal.RPcc

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.lean ====
/-
  The certificate: a two-kernel computation of three losses against its plain array reference.

  Both programs compute, from features and predictions (8192 x 4096), two latent arrays (8192 x 512) and a column of
  row scales: one minus the mean over rows of Pearson's r between the latent arrays' rows; the mean squared error
  between the scaled predictions and the features; one minus the mean over columns of Pearson's r between the
  features' and the scaled predictions' columns. The kernel program gets the column statistics from five column sums
  accumulated tile by tile (one pass) and the squared error from the same sums; the reference subtracts the means
  first (two passes) and squares the differences. Over real numbers the two are equal (mean of products minus product
  of means is the mean of products of deviations; a squared difference expands), which is where the precondition that
  every input is finite is used. The NaN tests of both programs never fire over the extended reals.
  The frames of the two kernel programs are the generated ones; the reference's frame is its run.
-/
import proofs.«172602_j30520037605625_1_alg».proof.Defs
import proofs.«172602_j30520037605625_1_alg».proof.Proof.Gen.Kernel
import proofs.«172602_j30520037605625_1_alg».proof.Proof.Gen.Kernel.Frame
import proofs.«172602_j30520037605625_1_alg».proof.Proof.Gen.KernelIdeal
import proofs.«172602_j30520037605625_1_alg».proof.Proof.Gen.KernelIdeal.Frame
import proofs.«172602_j30520037605625_1_alg».proof.Proof.Gen.ReferenceIdeal
import proofs.«172602_j30520037605625_1_alg».proof.Proof.Gen.Pre_finite_inputs
import proofs.«172602_j30520037605625_1_alg».proof.Proof.KRun
import proofs.«172602_j30520037605625_1_alg».proof.Proof.KTail
import proofs.«172602_j30520037605625_1_alg».proof.Proof.Finite
import proofs.«172602_j30520037605625_1_alg».proof.Proof.RRun
import proofs.«172602_j30520037605625_1_alg».proof.Proof.RKept
import proofs.«172602_j30520037605625_1_alg».proof.Proof.RLatent
import proofs.«172602_j30520037605625_1_alg».proof.Proof.RMse
import proofs.«172602_j30520037605625_1_alg».proof.Proof.RPcc
import proofs.«172602_j30520037605625_1_alg».proof.Proof.LibSumBlocks

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, with only the arguments kept (no operation writes one). -/
theorem frame_ri : Cert.frame_ReferenceIdeal := fun m ρ _ =>
  (θ_run Cert.ReferenceIdeal.defs _ _).mono (fun _ h c =>
    ⟨(h c Cert.ReferenceIdeal.main_arg0).trans (Cert.ReferenceIdeal.RKept.kept_arg0 _),
     (h c Cert.ReferenceIdeal.main_arg1).trans (Cert.ReferenceIdeal.RKept.kept_arg1 _),
     (h c Cert.ReferenceIdeal.main_arg2).trans (Cert.ReferenceIdeal.RKept.kept_arg2 _),
     (h c Cert.ReferenceIdeal.main_arg3).trans (Cert.ReferenceIdeal.RKept.kept_arg3 _),
     (h c Cert.ReferenceIdeal.main_arg4).trans (Cert.ReferenceIdeal.RKept.kept_arg4 _)⟩)
    (Cert.ReferenceIdeal.RRun.run (F := Ideal) m ρ)

/-- From memories that agree on the arguments both idealized programs end with the three losses of those arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v36),
    fun c => Cert.KernelIdeal.Gen.W6 m ρ c (Proc.devRef .tc Cert.KernelIdeal.main_v32),
    fun c => Cert.KernelIdeal.Gen.W6 m ρ c (Proc.devRef .tc Cert.KernelIdeal.main_v26),
    Cert.KernelIdeal.KRun.run_results (F := Ideal) m ρ, ?_⟩
  refine (θ_run Cert.ReferenceIdeal.defs _ _).mono (fun r h c => ?_) (Cert.ReferenceIdeal.RRun.run (F := Ideal) m' ρ')
  obtain ⟨h0, h1, h4⟩ := Cert.Finite.real_of_pre m hpre c
  obtain ⟨a0, a1, a2, a3, a4⟩ := hagree c
  -- the reference's launch contents at its arguments are the kernel program's arguments
  have b0 : StableHlo.launchContents m' c (Proc.devRef .tc Cert.ReferenceIdeal.main_arg0) = m ((c.tc : Thread Cert.KernelIdeal.nD Cert.KernelIdeal.τ).loc Cert.KernelIdeal.main_arg0) := a0
  have b1 : StableHlo.launchContents m' c (Proc.devRef .tc Cert.ReferenceIdeal.main_arg1) = m ((c.tc : Thread Cert.KernelIdeal.nD Cert.KernelIdeal.τ).loc Cert.KernelIdeal.main_arg1) := a1
  have b2 : StableHlo.launchContents m' c (Proc.devRef .tc Cert.ReferenceIdeal.main_arg2) = m ((c.tc : Thread Cert.KernelIdeal.nD Cert.KernelIdeal.τ).loc Cert.KernelIdeal.main_arg2) := a2
  have b3 : StableHlo.launchContents m' c (Proc.devRef .tc Cert.ReferenceIdeal.main_arg3) = m ((c.tc : Thread Cert.KernelIdeal.nD Cert.KernelIdeal.τ).loc Cert.KernelIdeal.main_arg3) := a3
  have b4 : StableHlo.launchContents m' c (Proc.devRef .tc Cert.ReferenceIdeal.main_arg4) = m ((c.tc : Thread Cert.KernelIdeal.nD Cert.KernelIdeal.τ).loc Cert.KernelIdeal.main_arg4) := a4
  have e36 := (Cert.ReferenceIdeal.RLatent.v34 (StableHlo.launchContents m' c)).trans
    ((by rw [b2, b3] : (fun _ : Cert.ReferenceIdeal.S_.Idx => Cert.Spec.latent (StableHlo.launchContents m' c (Proc.devRef .tc Cert.ReferenceIdeal.main_arg2))
        (StableHlo.launchContents m' c (Proc.devRef .tc Cert.ReferenceIdeal.main_arg3))) = fun _ => Cert.Spec.latent _ _).trans
      (Cert.KernelIdeal.Tail.v36 m ρ c).symm)
  have e32 := (Cert.ReferenceIdeal.RMse.v73 (StableHlo.launchContents m' c)).trans
    ((by rw [b0, b1, b4] : (fun _ : Cert.ReferenceIdeal.S_.Idx => Cert.Spec.mse (StableHlo.launchContents m' c (Proc.devRef .tc Cert.ReferenceIdeal.main_arg0))
        (StableHlo.launchContents m' c (Proc.devRef .tc Cert.ReferenceIdeal.main_arg1)) (StableHlo.launchContents m' c (Proc.devRef .tc Cert.ReferenceIdeal.main_arg4)))
          = fun _ => Cert.Spec.mse _ _ _).trans
      (Cert.KernelIdeal.Tail.v32 m ρ c h0 h1 h4).symm)
  have e26 := (Cert.ReferenceIdeal.RPcc.v69 (StableHlo.launchContents m' c)).trans
    ((by rw [b0, b1, b4] : (fun _ : Cert.ReferenceIdeal.S_.Idx => Cert.Spec.pcc (StableHlo.launchContents m' c (Proc.devRef .tc Cert.ReferenceIdeal.main_arg0))
        (StableHlo.launchContents m' c (Proc.devRef .tc Cert.ReferenceIdeal.main_arg1)) (StableHlo.launchContents m' c (Proc.devRef .tc Cert.ReferenceIdeal.main_arg4)))
          = fun _ => Cert.Spec.pcc _ _ _).trans
      (Cert.KernelIdeal.Tail.v26 m ρ c h0 h1 h4).symm)
  exact ⟨(h c Cert.ReferenceIdeal.main_v34).trans e36, (h c Cert.ReferenceIdeal.main_v73).trans e32, (h c Cert.ReferenceIdeal.main_v69).trans e26,
    (h c Cert.ReferenceIdeal.main_arg0).trans (Cert.ReferenceIdeal.RKept.kept_arg0 _),
    (h c Cert.ReferenceIdeal.main_arg1).trans (Cert.ReferenceIdeal.RKept.kept_arg1 _),
    (h c Cert.ReferenceIdeal.main_arg2).trans (Cert.ReferenceIdeal.RKept.kept_arg2 _),
    (h c Cert.ReferenceIdeal.main_arg3).trans (Cert.ReferenceIdeal.RKept.kept_arg3 _),
    (h c Cert.ReferenceIdeal.main_arg4).trans (Cert.ReferenceIdeal.RKept.kept_arg4 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
